-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x64 : Shape := ⟨2, ![320000, 64]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S2x320000 : Shape := ⟨2, ![2, 320000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x64 : S_.BroadcastsInDim S320000x64 (![] : Fin 0 → Fin S320000x64.rank)
  reducesTo_S320000x64_S_d0_1 : S320000x64.ReducesTo [0, 1] S_
  bcast_S_S320x128 : S_.BroadcastsInDim S320x128 (![] : Fin 0 → Fin S320x128.rank)
  reducesTo_S320x128_S_d0_1 : S320x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg11 : FVec F S128 .f32) (main_arg12 : IVec S2x320000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x320000 32 := broadcastInDim S2x320000 ![] bcast_S_S2x320000 main_c_22
  let main_v60 : IVec S2x320000 1 := cmpi .sge main_arg12 main_v59
  let main_c_23 : IVec S_ 1 := constantI S_ 1 1#1
  let main_v61 : IVec S_ 1 := (fun x v => Host.reduce IntOp.andi x v reducesTo_S2x320000_S_d0_1 h_S_) main_v60 main_c_23
  let main_v62 : IVec S_ 1 := andi main_v58 main_v61
  let main_c_24 : IVec S_ 32 := constantI S_ 32 10000#32
  let main_v63 : IVec S2x320000 32 := broadcastInDim S2x320000 ![] bcast_S_S2x320000 main_c_24
  let main_v64 : IVec S2x320000 1 := cmpi .slt main_arg12 main_v63
  let main_c_25 : IVec S_ 1 := constantI S_ 1 1#1
  let main_v65 : IVec S_ 1 := (fun x v => Host.reduce IntOp.andi x v reducesTo_S2x320000_S_d0_1 h_S_) main_v64 main_c_25
  let main_v66 : IVec S_ 1 := andi main_v62 main_v65
  main_v66

def fn_part2 {F : FTy → Type} [FloatOps F] (main_arg7 : FVec F S128 .f32) (main_arg8 : FVec F S128x128 .f32) (main_arg9 : FVec F S128 .f32) (main_arg10 : FVec F S128 .f32) (main_arg11 : FVec F S128 .f32) (main_arg12 : IVec S2x320000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128 .f32) (main_arg11 : FVec F S128 .f32) (main_arg12 : IVec S2x320000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S320000x64 .f32) (main_arg2 : FVec F S320x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128 .f32) (main_arg11 : FVec F S128 .f32) (main_arg12 : IVec S2x320000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x64 .f32 := Host.absf main_arg1
  let main_cst_0 : FVec F S_ .f32 := constant S_ .f32 0x7F800000#32
  let main_v5 : FVec F S320000x64 .f32 := broadcastInDim S320000x64 ![] bcast_S_S320000x64 main_cst_0
  let main_v6 : IVec S320000x64 1 := cmpf .olt main_v4 main_v5
  let main_c_1 : IVec S_ 1 := constantI S_ 1 1#1
  let main_v7 : IVec S_ 1 := (fun x v => Host.reduce IntOp.andi x v reducesTo_S320000x64_S_d0_1 h_S_) main_v6 main_c_1
  let main_v8 : IVec S_ 1 := andi main_v3 main_v7
  let main_v9 : FVec F S320x128 .f32 := Host.absf main_arg2
  let main_cst_2 : FVec F S_ .f32 := constant S_ .f32 0x7F800000#32
  let main_v10 : FVec F S320x128 .f32 := broadcastInDim S320x128 ![] bcast_S_S320x128 main_cst_2
  let main_v11 : IVec S320x128 1 := cmpf .olt main_v9 main_v10
  let main_c_3 : IVec S_ 1 := constantI S_ 1 1#1
  let main_v12 : IVec S_ 1 := (fun x v => Host.reduce IntOp.andi x v reducesTo_S320x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S320000x64 : Shape := ⟨2, ![320000, 64]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S64x128 : Shape := ⟨2, ![64, 128]⟩
abbrev S1x128 : Shape := ⟨2, ![1, 128]⟩
abbrev S8000x128 : Shape := ⟨2, ![8000, 128]⟩
abbrev S8000x64 : Shape := ⟨2, ![8000, 64]⟩
abbrev S2000x128 : Shape := ⟨2, ![2000, 128]⟩

abbrev nBuf : Space → Nat
  | .hbm => 95
  | .vmem => 37
  | .smem => 0
  | _ => 0

abbrev bufTy : (tb : Table) → Fin (tcTables nBuf tb) → BufTy
  | .hbm, ⟨0, _⟩ => ⟨S10000x128, .f32⟩
  | .hbm, ⟨1, _⟩ => ⟨S320000x64, .f32⟩
  | .hbm, ⟨2, _⟩ => ⟨S320x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S2x320000, .i32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S1, .i32⟩
  | .hbm, ⟨26, _⟩ => ⟨S_, .i32⟩
  | .hbm, ⟨27, _⟩ => ⟨S320000x1, .i32⟩
  | .hbm, ⟨28, _⟩ => ⟨S320000x1, .i1⟩
  | .hbm, ⟨29, _⟩ => ⟨S1x1, .i32⟩
  | .hbm, ⟨30, _⟩ => ⟨S320000x1, .i32⟩
  | .hbm, ⟨31, _⟩ => ⟨S320000x1, .i1⟩
  | .hbm, ⟨32, _⟩ => ⟨S320000x1, .i1⟩
  | .hbm, ⟨33, _⟩ => ⟨S_, .i1⟩
  | .hbm, ⟨34, _⟩ => ⟨S320000, .i1⟩
  | .hbm, ⟨35, _⟩ => ⟨S320000x128, .f32⟩
  | .hbm, ⟨36, _⟩ => ⟨S320000x128, .i1⟩
  | .hbm, ⟨37, _⟩ => ⟨S_, .f32⟩
  | .hbm, ⟨38, _⟩ => ⟨S320000x128, .f32⟩
  | .hbm, ⟨39, _⟩ => ⟨S320000x128, .f32⟩
  | .hbm, ⟨40, _⟩ => ⟨S_, .i32⟩
  | .hbm, ⟨41, _⟩ => ⟨S320000, .i32⟩
  | .hbm, ⟨42, _⟩ => ⟨S320000, .i1⟩
  | .hbm, ⟨43, _⟩ => ⟨S_, .i32⟩
  | .hbm, ⟨44, _⟩ => ⟨S320000, .i32⟩
  | .hbm, ⟨45, _⟩ => ⟨S320000, .i32⟩
  | .hbm, ⟨46, _⟩ => ⟨S320000, .i32⟩
  | .hbm, ⟨47, _⟩ => ⟨S320000x1, .i32⟩
  | .hbm, ⟨48, _⟩ => ⟨S1, .i32⟩
  | .hbm, ⟨49, _⟩ => ⟨S_, .i32⟩
  | .hbm, ⟨50, _⟩ => ⟨S320000x1, .i32⟩
  | .hbm, ⟨51, _⟩ => ⟨S320000x1, .i1⟩
  | .hbm, ⟨52, _⟩ => ⟨S1x1, .i32⟩
  | .hbm, ⟨53, _⟩ => ⟨S320000x1, .i32⟩
  | .hbm, ⟨54, _⟩ => ⟨S320000x1, .i1⟩
  | .hbm, ⟨55, _⟩ => ⟨S320000x1, .i1⟩
  | .hbm, ⟨56, _⟩ => ⟨S_, .i1⟩
  | .hbm, ⟨57, _⟩ => ⟨S320000, .i1⟩
  | .hbm, ⟨58, _⟩ => ⟨S320000x128, .f32⟩
  | .hbm, ⟨59, _⟩ => ⟨S320000x128, .i1⟩
  | .hbm, ⟨60, _⟩ => ⟨S_, .f32⟩
  | .hbm, ⟨61, _⟩ => ⟨S320000x128, .f32⟩
  | .hbm, ⟨62, _⟩ => ⟨S320000x128, .f32⟩
  | .hbm, ⟨63, _⟩ => ⟨S128x128, .f32⟩
  | .hbm, ⟨64, _⟩ => ⟨S128x128, .f32⟩
  | .hbm, ⟨65, _⟩ => ⟨S64x128, .f32⟩
  | .hbm, ⟨66, _⟩ => ⟨S1x128, .f32⟩
  | .hbm, ⟨67, _⟩ => ⟨S1x128, .f32⟩
  | .hbm, ⟨68, _⟩ => ⟨S320000x128, .f32⟩
  | .hbm, ⟨69, _⟩ => ⟨S_, .f32⟩
  | .hbm, ⟨70, _⟩ => ⟨S10000x128, .f32⟩
  | .hbm, ⟨71, _⟩ => ⟨S320000x1, .i32⟩
  | .hbm, ⟨72, _⟩ => ⟨S10000x128, .f32⟩
  | .hbm, ⟨73, _⟩ => ⟨S128x128, .f32⟩
  | .hbm, ⟨74, _⟩ => ⟨S128x128, .f32⟩
  | .hbm, ⟨75, _⟩ => ⟨S1x128, .f32⟩
  | .hbm, ⟨76, _⟩ => ⟨S1x128, .f32⟩
  | .hbm, ⟨77, _⟩ => ⟨S10000x128, .f32⟩
  | .hbm, ⟨78, _⟩ => ⟨S1x128, .f32⟩
  | .hbm, ⟨79, _⟩ => ⟨S1x128, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S10000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x64, .f32⟩
  | .local _ .vmem, ⟨5, _⟩ => ⟨S8000x64, .f32⟩
  | .local _ .vmem, ⟨6, _⟩ => ⟨S128x128, .f32⟩
  | .local _ .vmem, ⟨7, _⟩ => ⟨S128x128, .f32⟩
  | .local _ .vmem, ⟨8, _⟩ => ⟨S64x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S8000x128, .f32⟩
  | .local _ .vmem, ⟨13, _⟩ => ⟨S8000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S1x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S2000x128, .f32⟩
  | .local _ .vmem, ⟨36, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_cst : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19_0 : Ref sig .tc := ⟨.hbm, 77, rfl⟩
abbrev main_v19_1 : Ref sig .tc := ⟨.hbm, 78, rfl⟩
abbrev main_v19_2 : Ref sig .tc := ⟨.hbm, 79, rfl⟩
abbrev main_v20 : Ref sig .tc := ⟨.hbm, 80, rfl⟩
abbrev main_cst_0 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_cst_1 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg9_0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg6_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem9_0 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem6_1 : DmaSem sig := 36

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  slices_S320x128_S128x128_0_0 : S320x128.Slices ![0, 0] S128x128
  slices_S320x128_S128x128_128_0 : S320x128.Slices ![128, 0] S128x128
  slices_S320x128_S64x128_256_0 : S320x128.Slices ![256, 0] S64x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x64_S8000x64_0_0 : ∀ a, (![0, 0] : Fin 2 → Nat) a + S8000x64.size a ≤ S8000x64.size a
  h_S8000x64 : 0 < S8000x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S10000x128 : S_.BroadcastsInDim S10000x128 (![] : Fin 0 → Fin S10000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  gather_S10000x128_S320000x1_S320000x128_1_0_n_n_0_1_1128_wf : GatherDims.WF S10000x128 S320000x1 S320000x128 [1] [0] [] [0] [] 1 ![1, 128]
  dot_S8000x128_S128x128_S8000x128_1_0_0_1_n_n_wf : DotDims.WF S8000x128 S128x128 S8000x128 [1] [0] [0] [1] [] []
  dot_S8000x64_S64x128_S8000x128_1_0_0_1_n_n_wf : DotDims.WF S8000x64 S64x128 S8000x128 [1] [0] [0] [1] [] []
  scatter_S10000x128_S320000x1_S320000x128_1_0_0_1_wf : ScatterDims.WF S10000x128 S320000x1 S320000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S320000x128.size a
  hwx0_0 : ∀ i : grid0.Coords, EltTy.bits .f32 = 32 ∨ (Rect.block (s := S320000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S320000x128.size a
  hwx0_1 : ∀ i : grid0.Coords, EltTy.bits .f32 = 32 ∨ (Rect.block (s := S320000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S320000x64.size a
  hwx0_2 : ∀ i : grid0.Coords, EltTy.bits .f32 = 32 ∨ (Rect.block (s := S320000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x128.size a ≤ S320000x128.size a
  hwx0_9 : ∀ i : grid0.Coords, EltTy.bits .f32 = 32 ∨ (Rect.block (s := S320000x128) S8000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S10000x128.size a
  hwx1_7 : ∀ i : grid1.Coords, EltTy.bits .f32 = 32 ∨ (Rect.block (s := S10000x128) S2000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S10000x128.size a
  hwx2_1 : ∀ i : grid2.Coords, EltTy.bits .f32 = 32 ∨ (Rect.block (s := S10000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S10000x128.size a
  hwx2_6 : ∀ i : grid2.Coords, EltTy.bits .f32 = 32 ∨ (Rect.block (s := S10000x128) S2000x128.size (cc2_transform_6 i) (hinb2_6 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v4) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S8000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v19_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S10000x128 : Shape := ⟨2, ![10000, 128]⟩
abbrev S320000x64 : Shape := ⟨2, ![320000, 64]⟩
abbrev S320x128 : Shape := ⟨2, ![320, 128]⟩
abbrev S128 : Shape := ⟨1, ![128]⟩
abbrev S128x128 : Shape := ⟨2, ![128, 128]⟩
abbrev S256x128 : Shape := ⟨2, ![256, 128]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S320000x320 : Shape := ⟨2, ![320000, 320]⟩
abbrev S1x128 : Shape := ⟨2, ![1, 128]⟩
abbrev S10000x256 : Shape := ⟨2, ![10000, 256]⟩

abbrev nBuf : Space → Nat
  | .hbm => 117
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x64, .f32⟩
  | .hbm, ⟨2, _⟩ => ⟨S320x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S2x320000, .i32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x128, .f32⟩
  | .hbm, ⟨26, _⟩ => ⟨S_, .i32⟩
  | .hbm, ⟨27, _⟩ => ⟨S320000, .i32⟩
  | .hbm, ⟨28, _⟩ => ⟨S320000, .i1⟩
  | .hbm, ⟨29, _⟩ => ⟨S_, .i32⟩
  | .hbm, ⟨30, _⟩ => ⟨S320000, .i32⟩
  | .hbm, ⟨31, _⟩ => ⟨S320000, .i32⟩
  | .hbm, ⟨32, _⟩ => ⟨S320000, .i32⟩
  | .hbm, ⟨33, _⟩ => ⟨S320000x1, .i32⟩
  | .hbm, ⟨34, _⟩ => ⟨S320000x128, .f32⟩
  | .hbm, ⟨35, _⟩ => ⟨S320000x320, .f32⟩
  | .hbm, ⟨36, _⟩ => ⟨S320000x128, .f32⟩
  | .hbm, ⟨37, _⟩ => ⟨S1x128, .f32⟩
  | .hbm, ⟨38, _⟩ => ⟨S320000x128, .f32⟩
  | .hbm, ⟨39, _⟩ => ⟨S320000x128, .f32⟩
  | .hbm, ⟨40, _⟩ => ⟨S_, .f32⟩
  | .hbm, ⟨41, _⟩ => ⟨S320000x128, .f32⟩
  | .hbm, ⟨42, _⟩ => ⟨S320000x128, .f32⟩
  | .hbm, ⟨43, _⟩ => ⟨S320000x128, .f32⟩
  | .hbm, ⟨44, _⟩ => ⟨S1x128, .f32⟩
  | .hbm, ⟨45, _⟩ => ⟨S320000x128, .f32⟩
  | .hbm, ⟨46, _⟩ => ⟨S320000x128, .f32⟩
  | .hbm, ⟨47, _⟩ => ⟨S320000x128, .f32⟩
  | .hbm, ⟨48, _⟩ => ⟨S320000x128, .f32⟩
  | .hbm, ⟨49, _⟩ => ⟨S_, .f32⟩
  | .hbm, ⟨50, _⟩ => ⟨S320000x128, .f32⟩
  | .hbm, ⟨51, _⟩ => ⟨S320000x128, .f32⟩
  | .hbm, ⟨52, _⟩ => ⟨S_, .f32⟩
  | .hbm, ⟨53, _⟩ => ⟨S320000x128, .f32⟩
  | .hbm, ⟨54, _⟩ => ⟨S320000x128, .f32⟩
  | .hbm, ⟨55, _⟩ => ⟨S320000x128, .f32⟩
  | .hbm, ⟨56, _⟩ => ⟨S_, .f32⟩
  | .hbm, ⟨57, _⟩ => ⟨S10000x128, .f32⟩
  | .hbm, ⟨58, _⟩ => ⟨S320000x1, .i32⟩
  | .hbm, ⟨59, _⟩ => ⟨S10000x128, .f32⟩
  | .hbm, ⟨60, _⟩ => ⟨S10000x256, .f32⟩
  | .hbm, ⟨61, _⟩ => ⟨S10000x128, .f32⟩
  | .hbm, ⟨62, _⟩ => ⟨S1x128, .f32⟩
  | .hbm, ⟨63, _⟩ => ⟨S10000x128, .f32⟩
  | .hbm, ⟨64, _⟩ => ⟨S10000x128, .f32⟩
  | .hbm, ⟨65, _⟩ => ⟨S_, .f32⟩
  | .hbm, ⟨66, _⟩ => ⟨S10000x128, .f32⟩
  | .hbm, ⟨67, _⟩ => ⟨S10000x128, .f32⟩
  | .hbm, ⟨68, _⟩ => ⟨S10000x128, .f32⟩
  | .hbm, ⟨69, _⟩ => ⟨S1x128, .f32⟩
  | .hbm, ⟨70, _⟩ => ⟨S10000x128, .f32⟩
  | .hbm, ⟨71, _⟩ => ⟨S10000x128, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S_, .i32⟩
  | .hbm, ⟨78, _⟩ => ⟨S_, .f32⟩
  | .hbm, ⟨79, _⟩ => ⟨S128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S10000x128, .f32⟩
  | .hbm, ⟨85, _⟩ => ⟨S10000x128, .f32⟩
  | .hbm, ⟨86, _⟩ => ⟨S10000x128, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S10000x128, .f32⟩
  | .hbm, ⟨102, _⟩ => ⟨S10000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S10000x128, .f32⟩
  | .hbm, ⟨109, _⟩ => ⟨S10000x128, .f32⟩
  | .hbm, ⟨110, _⟩ => ⟨S1x128, .f32⟩
  | .hbm, ⟨111, _⟩ => ⟨S10000x128, .f32⟩
  | .hbm, ⟨112, _⟩ => ⟨S10000x128, .f32⟩
  | .hbm, ⟨113, _⟩ => ⟨S1x128, .f32⟩
  | .hbm, ⟨114, _⟩ => ⟨S10000x128, .f32⟩
  | .hbm, ⟨115, _⟩ => ⟨S10000x128, .f32⟩
  | .hbm, ⟨116, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_cst : Ref sig .tc := ⟨.hbm, 65, rfl⟩
abbrev main_call1_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_c_7 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_cst_3 : Ref sig .tc := ⟨.hbm, 94, rfl⟩
abbrev main_call2_v12 : Ref sig .tc := ⟨.hbm, 95, rfl⟩
abbrev main_call2_cst_4 : Ref sig .tc := ⟨.hbm, 96, rfl⟩
abbrev main_call2_call0_v0 : Ref sig .tc := ⟨.hbm, 97, rfl⟩
abbrev main_call2_call0_v1 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_8 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x64_S320000x320_d1 : Shape.Concatenates [S320000x128, S320000x128, S320000x64] S320000x320 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S10000x128_S320000x1_S320000x128_1_0_n_n_0_1_1128_wf : GatherDims.WF S10000x128 S320000x1 S320000x128 [1] [0] [] [0] [] 1 ![1, 128]
  dot_S320000x320_S320x128_S320000x128_1_0_0_1_n_n_wf : DotDims.WF S320000x320 S320x128 S320000x128 [1] [0] [0] [1] [] []
  dot_S320000x128_S128x128_S320000x128_1_0_0_1_n_n_wf : DotDims.WF S320000x128 S128x128 S320000x128 [1] [0] [0] [1] [] []
  scatter_S10000x128_S320000x1_S320000x128_1_0_0_1_wf : ScatterDims.WF S10000x128 S320000x1 S320000x128 [1] [0] [0] 1
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x320_S320x128_S320000x128_1_0_0_1_n_n : DotDims S320000x320 S320x128 S320000x128 where
  lhsContracting := [1]
  rhsContracting := [0]
  lhsNonContracting := [0]
  rhsNonContracting := [1]
  lhsBatch := []
  rhsBatch := []
  wf := dot_S320000x320_S320x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The mathematics of one crystal-graph convolution layer, index by index over the extended reals, in the operand
  form the three dense stages receive: weight matrices already split into their row blocks, bias vectors as one-row
  matrices. Every function is generic in the number of rows, so that the same formula speaks of one block of rows
  and of the whole array.

  * `edgeMsg`: the gated message of an edge, `src · σ(relu(src·Ws + dst·Wd + ef·We + b1) · W2 + b2)`;
  * `nodeU`: the node update before normalisation, `relu(x·Wn + agg·Wa + b1) · W2 + b2`;
  * `colSum`, `colSumSq`: the column sums of a matrix and of its squares, as one-row matrices;
  * `bnOut`: the batch normalisation with residual, `x + ((u − mean) · rsqrt(var + ε) · γ + β)`.
-/
import Idealize.ShloMosaic.PureOps.Ideal
import Idealize.ShloMosaic.Lib.ValueIdx

open scoped BigOperators

noncomputable section

namespace Cert.Proof.Spec

open Idealize.ShloMosaic Idealize.ShloMosaic.ValueIdx

/-- An extended real that is a real number: neither infinity. -/
def IsReal (x : EReal) : Prop := x ≠ ⊥ ∧ x ≠ ⊤

/-- A matrix of extended reals with `r` rows and `c` columns. -/
abbrev Mat (r c : Nat) : Type := FVec Ideal ⟨2, ![r, c]⟩ .f32

/-- Row `r` of `x` against column `j` of `W`. -/
def rowDot {R K C : Nat} (x : Mat R K) (W : Mat K C) (r : Fin R) (j : Fin C) : EReal :=
  ∑ k : Fin K, x (ix2 r k) * W (ix2 k j)

/-- The hidden layer of the edge network before its rectifier, at edge `r`, unit `k`. -/
def edgeHidden {R : Nat} (src dst : Mat R 128) (ef : Mat R 64) (Ws Wd : Mat 128 128) (We : Mat 64 128)
    (b1 : Mat 1 128) (r : Fin R) (k : Fin 128) : EReal :=
  ((rowDot src Ws r k + rowDot dst Wd r k) + rowDot ef We r k) + b1 (ix2 (0 : Fin 1) k)

/-- The gate's argument at edge `r`, channel `j`. -/
def edgeGateArg {R : Nat} (src dst : Mat R 128) (ef : Mat R 64) (Ws Wd : Mat 128 128) (We : Mat 64 128)
    (b1 : Mat 1 128) (W2 : Mat 128 128) (b2 : Mat 1 128) (r : Fin R) (j : Fin 128) : EReal :=
  (∑ k : Fin 128, max (edgeHidden src dst ef Ws Wd We b1 r k) 0 * W2 (ix2 k j)) + b2 (ix2 (0 : Fin 1) j)

/-- The gated message: the source row times the logistic gate. -/
def edgeMsg {R : Nat} (src dst : Mat R 128) (ef : Mat R 64) (Ws Wd : Mat 128 128) (We : Mat 64 128)
    (b1 : Mat 1 128) (W2 : Mat 128 128) (b2 : Mat 1 128) : Mat R 128 :=
  fun i => src (ix2 (i 0) (i 1)) * Ideal.logistic (edgeGateArg src dst ef Ws Wd We b1 W2 b2 (i 0) (i 1))

/-- The hidden layer of the node network before its rectifier. -/
def nodeHidden {R : Nat} (x agg : Mat R 128) (Wn Wa : Mat 128 128) (b1 : Mat 1 128) (r : Fin R) (k : Fin 128) : EReal :=
  (rowDot x Wn r k + rowDot agg Wa r k) + b1 (ix2 (0 : Fin 1) k)

/-- The node update before normalisation. -/
def nodeU {R : Nat} (x agg : Mat R 128) (Wn Wa : Mat 128 128) (b1 : Mat 1 128) (W2 : Mat 128 128) (b2 : Mat 1 128) :
    Mat R 128 :=
  fun i => (∑ k : Fin 128, max (nodeHidden x agg Wn Wa b1 (i 0) k) 0 * W2 (ix2 k (i 1))) + b2 (ix2 (0 : Fin 1) (i 1))

/-- Column sums, as a one-row matrix. -/
def colSum {R : Nat} (u : Mat R 128) : Mat 1 128 := fun i => ∑ r : Fin R, u (ix2 r (i 1))

/-- Column sums of the squares, as a one-row matrix. -/
def colSumSq {R : Nat} (u : Mat R 128) : Mat 1 128 := fun i => ∑ r : Fin R, u (ix2 r (i 1)) * u (ix2 r (i 1))

/-- The stabiliser under the square root: the single-precision word nearest 1e-5, read exactly. -/
def eps : EReal := Ideal.ofBits .f32 0x3727C5AC#32

/-- Batch normalisation with the residual: `x + ((u − mean)·rsqrt(var + ε)·γ + β)`, statistics and affine
    parameters given as one-row matrices. -/
def bnOut {R : Nat} (x u : Mat R 128) (mean var g b : Mat 1 128) : Mat R 128 :=
  fun i => x (ix2 (i 0) (i 1)) +
    (((u (ix2 (i 0) (i 1)) - mean (ix2 (0 : Fin 1) (i 1))) * Ideal.rsqrt (var (ix2 (0 : Fin 1) (i 1)) + eps))
        * g (ix2 (0 : Fin 1) (i 1)) + b (ix2 (0 : Fin 1) (i 1)))

end Cert.Proof.Spec

end
-- ==== Proof.KFn.lean ====
/-
  The kernel program's value as one function of its thirteen arguments, at the ideal instance: the host operations
  between its three dense stages as the program applies them, the dense stages themselves by their index-by-index
  formulas (`Spec`).
-/
import proofs.«410922_j44427141710551_1_alg».proof.KernelIdeal
import proofs.«410922_j44427141710551_1_alg».proof.Proof.Spec

noncomputable section

namespace Cert.Proof.KFn

open Idealize.ShloMosaic Cert.KernelIdeal
open Cert.KernelIdeal.Facts₀ Cert.KernelIdeal.Facts

variable [Cert.KernelIdeal.Facts]

/-- Row `0` of the edge table: the source node of each edge. -/
def idxRow0 (ei : IVec S2x320000 32) : IVec S320000 32 :=
  shapeCast S320000 (extractStridedSlice S1x320000 ![0, 0] ei slices_S2x320000_S1x320000_0_0) shapeCasts_S1x320000_S320000

/-- Row `1` of the edge table: the destination node of each edge. -/
def idxRow1 (ei : IVec S2x320000 32) : IVec S320000 32 :=
  shapeCast S320000 (extractStridedSlice S1x320000 ![1, 0] ei slices_S2x320000_S1x320000_1_0) shapeCasts_S1x320000_S320000

/-- A negative index counts from the end; the result as a column of start indices. -/
def wrapIdx (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

/-- Which edges' (wrapped) index lies inside the node table. -/
def inTable (i5 : IVec S320000x1 32) : IVec S320000 1 :=
  Host.reduce IntOp.andi
    (andi (cmpi .sge i5 (broadcastInDim S320000x1 ![] bcast_S_S320000x1 (constantI S_ 32 0#32)))
      (cmpi .sle i5 (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The take of node rows at an index vector: the gathered row where the index is inside the table, the fill value
    elsewhere. -/
def takeRows {F : FTy → Type} [FloatOps F] (nf : FVec F S10000x128 .f32) (v : IVec S320000 32) : FVec F S320000x128 .f32 :=
  select (broadcastInDim S320000x128 ![0] bcast_S320000_S320000x128_0 (inTable (wrapIdx v)))
    (Host.gather gather_S10000x128_S320000x1_S320000x128_1_0_n_n_0_1_1128 nf (wrapIdx v))
    (broadcastInDim S320000x128 ![] bcast_S_S320000x128 (constant S_ .f32 0x7FC00000#32))

/-- A vector as a one-row matrix. -/
def row {F : FTy → Type} [FloatOps F] (v : FVec F S128 .f32) : FVec F S1x128 .f32 := shapeCast S1x128 v shapeCasts_S128_S1x128

/-- The three row blocks of the first edge weight matrix, and the two of the first node weight matrix. -/
def We1s {F : FTy → Type} [FloatOps F] (W : FVec F S320x128 .f32) : FVec F S128x128 .f32 := extractStridedSlice S128x128 ![0, 0] W slices_S320x128_S128x128_0_0
def We1d {F : FTy → Type} [FloatOps F] (W : FVec F S320x128 .f32) : FVec F S128x128 .f32 := extractStridedSlice S128x128 ![128, 0] W slices_S320x128_S128x128_128_0
def We1e {F : FTy → Type} [FloatOps F] (W : FVec F S320x128 .f32) : FVec F S64x128 .f32 := extractStridedSlice S64x128 ![256, 0] W slices_S320x128_S64x128_256_0
def Wn1n {F : FTy → Type} [FloatOps F] (W : FVec F S256x128 .f32) : FVec F S128x128 .f32 := extractStridedSlice S128x128 ![0, 0] W slices_S256x128_S128x128_0_0
def Wn1a {F : FTy → Type} [FloatOps F] (W : FVec F S256x128 .f32) : FVec F S128x128 .f32 := extractStridedSlice S128x128 ![128, 0] W slices_S256x128_S128x128_128_0

/-- The aggregation: each message added onto its destination node's row of a zero table. -/
def scatterMsg {F : FTy → Type} [FloatOps F] (dstIdx : IVec S320000 32) (msg : FVec F S320000x128 .f32) : FVec F S10000x128 .f32 :=
  Host.scatterAdd scatter_S10000x128_S320000x1_S320000x128_1_0_0_1
    (broadcastInDim S10000x128 ![] bcast_S_S10000x128 (constant S_ .f32 0x00000000#32))
    (broadcastInDim S320000x1 ![0] bcast_S320000_S320000x1_0 dstIdx) msg

/-- The batch mean from the column sums. -/
def kMean {F : FTy → Type} [FloatOps F] (s : FVec F S1x128 .f32) : FVec F S128 .f32 :=
  Host.divf (shapeCast S128 s shapeCasts_S1x128_S128) (broadcastInDim S128 ![] bcast_S_S128 (constant S_ .f32 0x461C4000#32))

/-- The batch variance from the column sums and the column sums of squares: mean square less squared mean. -/
def kVar {F : FTy → Type} [FloatOps F] (s q : FVec F S1x128 .f32) : FVec F S128 .f32 :=
  subf (Host.divf (shapeCast S128 q shapeCasts_S1x128_S128) (broadcastInDim S128 ![] bcast_S_S128 (constant S_ .f32 0x461C4000#32)))
    (mulf (kMean s) (kMean s))

/-- The messages of all edges. -/
def kMsg (nf : FVec Ideal S10000x128 .f32) (ef : FVec Ideal S320000x64 .f32) (We1 : FVec Ideal S320x128 .f32)
    (be1 : FVec Ideal S128 .f32) (We2 : FVec Ideal S128x128 .f32) (be2 : FVec Ideal S128 .f32) (ei : IVec S2x320000 32) :
    FVec Ideal S320000x128 .f32 :=
  Spec.edgeMsg (takeRows nf (idxRow0 ei)) (takeRows nf (idxRow1 ei)) ef (We1s We1) (We1d We1) (We1e We1) (row be1) We2 (row be2)

/-- The node updates before normalisation. -/
def kU (nf : FVec Ideal S10000x128 .f32) (ef : FVec Ideal S320000x64 .f32) (We1 : FVec Ideal S320x128 .f32)
    (be1 : FVec Ideal S128 .f32) (We2 : FVec Ideal S128x128 .f32) (be2 : FVec Ideal S128 .f32)
    (Wn1 : FVec Ideal S256x128 .f32) (bn1 : FVec Ideal S128 .f32) (Wn2 : FVec Ideal S128x128 .f32) (bn2 : FVec Ideal S128 .f32)
    (ei : IVec S2x320000 32) : FVec Ideal S10000x128 .f32 :=
  Spec.nodeU nf (scatterMsg (idxRow1 ei) (kMsg nf ef We1 be1 We2 be2 ei)) (Wn1n Wn1) (Wn1a Wn1) (row bn1) Wn2 (row bn2)

/-- The normalisation with residual from the updates `u`. -/
def kBn (nf u : FVec Ideal S10000x128 .f32) (gamma beta : FVec Ideal S128 .f32) : FVec Ideal S10000x128 .f32 :=
  Spec.bnOut nf u (row (kMean (Spec.colSum u))) (row (kVar (Spec.colSum u) (Spec.colSumSq u))) (row gamma) (row beta)

/-- The kernel program's result as one function of its thirteen arguments. -/
def kOut (nf : FVec Ideal S10000x128 .f32) (ef : FVec Ideal S320000x64 .f32) (We1 : FVec Ideal S320x128 .f32)
    (be1 : FVec Ideal S128 .f32) (We2 : FVec Ideal S128x128 .f32) (be2 : FVec Ideal S128 .f32)
    (Wn1 : FVec Ideal S256x128 .f32) (bn1 : FVec Ideal S128 .f32) (Wn2 : FVec Ideal S128x128 .f32) (bn2 : FVec Ideal S128 .f32)
    (gamma beta : FVec Ideal S128 .f32) (ei : IVec S2x320000 32) : FVec Ideal S10000x128 .f32 :=
  kBn nf (kU nf ef We1 be1 We2 be2 Wn1 bn1 Wn2 bn2 ei) gamma beta

end Cert.Proof.KFn

end
-- ==== Proof.Edge.lean ====
/-
  The first dense stage read off its run: after its forty grid points the message array holds, row by row, the gated
  message formula of the rows of the source, destination and edge-feature arrays the stage found at its entry.
-/
import proofs.«410922_j44427141710551_1_alg».proof.Proof.Gen.KernelIdeal.Frame
import proofs.«410922_j44427141710551_1_alg».proof.Proof.Spec
import Idealize.ShloMosaic.PureOps.Ideal.Laws
import Idealize.ShloMosaic.Lib.Pipeline.Value

set_option maxRecDepth 16384

noncomputable section

namespace Cert.Proof.Edge

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open Cert.Proof
open scoped BigOperators

/-! ## The two contractions' operand indices, coordinate by coordinate -/

theorem lhsW_0 (j : S8000x128.Idx) (k : dot_S8000x128_S128x128_S8000x128_1_0_0_1_n_n.contr.Idx) :
    (dot_S8000x128_S128x128_S8000x128_1_0_0_1_n_n.lhsIdx j k 0 : ℕ) = j 0 := by
  simp [DotDims.lhsIdx, dot_S8000x128_S128x128_S8000x128_1_0_0_1_n_n]; rfl
theorem lhsW_1 (j : S8000x128.Idx) (k : dot_S8000x128_S128x128_S8000x128_1_0_0_1_n_n.contr.Idx) :
    (dot_S8000x128_S128x128_S8000x128_1_0_0_1_n_n.lhsIdx j k 1 : ℕ) = k ⟨0, by decide⟩ := by
  simp [DotDims.lhsIdx, dot_S8000x128_S128x128_S8000x128_1_0_0_1_n_n]; rfl
theorem rhsW_0 (j : S8000x128.Idx) (k : dot_S8000x128_S128x128_S8000x128_1_0_0_1_n_n.contr.Idx) :
    (dot_S8000x128_S128x128_S8000x128_1_0_0_1_n_n.rhsIdx j k 0 : ℕ) = k ⟨0, by decide⟩ := by
  simp [DotDims.rhsIdx, dot_S8000x128_S128x128_S8000x128_1_0_0_1_n_n]; rfl
theorem rhsW_1 (j : S8000x128.Idx) (k : dot_S8000x128_S128x128_S8000x128_1_0_0_1_n_n.contr.Idx) :
    (dot_S8000x128_S128x128_S8000x128_1_0_0_1_n_n.rhsIdx j k 1 : ℕ) = j 1 := by
  simp [DotDims.rhsIdx, dot_S8000x128_S128x128_S8000x128_1_0_0_1_n_n]; rfl

/-- A product with a 128-row weight block into the zero accumulator, at row p, column q: the row against the column. -/
theorem mmW_apply (x : FVec Ideal S8000x128 .f32) (w : FVec Ideal S128x128 .f32) (p : Fin 8000) (q : Fin 128) :
    matmul dot_S8000x128_S128x128_S8000x128_1_0_0_1_n_n none x w (constant S8000x128 .f32 0x00000000#32) (ix2 p q)
      = Spec.rowDot x w p q := by
  unfold Spec.rowDot
  show FloatOps.matmul dot_S8000x128_S128x128_S8000x128_1_0_0_1_n_n none x w (constant S8000x128 .f32 0x00000000#32) (ix2 p q) = _
  rw [Ideal.matmul_constant_zero_apply,
    ← Equiv.sum_comp (contrEquiv1 dot_S8000x128_S128x128_S8000x128_1_0_0_1_n_n 128 rfl rfl).symm]
  refine Finset.sum_congr rfl fun c _ => ?_
  have hc := contrEquiv1_symm_val dot_S8000x128_S128x128_S8000x128_1_0_0_1_n_n 128 rfl rfl c
  have hl : dot_S8000x128_S128x128_S8000x128_1_0_0_1_n_n.lhsIdx (ix2 p q)
      ((contrEquiv1 dot_S8000x128_S128x128_S8000x128_1_0_0_1_n_n 128 rfl rfl).symm c) = ix2 p c := by
    funext a; apply Fin.ext
    match a with
    | ⟨0, _⟩ => exact lhsW_0 _ _
    | ⟨1, _⟩ => exact (lhsW_1 _ _).trans hc
  have hr : dot_S8000x128_S128x128_S8000x128_1_0_0_1_n_n.rhsIdx (ix2 p q)
      ((contrEquiv1 dot_S8000x128_S128x128_S8000x128_1_0_0_1_n_n 128 rfl rfl).symm c) = ix2 c q := by
    funext a; apply Fin.ext
    match a with
    | ⟨0, _⟩ => exact (rhsW_0 _ _).trans hc
    | ⟨1, _⟩ => exact rhsW_1 _ _
  rw [hl, hr]

/-- A one-row matrix spread over the rows, read at row p, column q: its entry in column q. -/
theorem bcastRow_apply (b : FVec Ideal S1x128 .f32) (p : Fin 8000) (q : Fin 128) :
    broadcastTo S8000x128 b broadcasts_S1x128_S8000x128 (ix2 p q) = b (ix2 (0 : Fin 1) q) :=
  broadcastTo_apply b _ (ix2 p q) (ix2 (0 : Fin 1) q) (fun a => by
    match a with
    | ⟨0, _⟩ => rfl
    | ⟨1, _⟩ => rfl)

theorem lhsE_0 (j : S8000x128.Idx) (k : dot_S8000x64_S64x128_S8000x128_1_0_0_1_n_n.contr.Idx) :
    (dot_S8000x64_S64x128_S8000x128_1_0_0_1_n_n.lhsIdx j k 0 : ℕ) = j 0 := by
  simp [DotDims.lhsIdx, dot_S8000x64_S64x128_S8000x128_1_0_0_1_n_n]; rfl
theorem lhsE_1 (j : S8000x128.Idx) (k : dot_S8000x64_S64x128_S8000x128_1_0_0_1_n_n.contr.Idx) :
    (dot_S8000x64_S64x128_S8000x128_1_0_0_1_n_n.lhsIdx j k 1 : ℕ) = k ⟨0, by decide⟩ := by
  simp [DotDims.lhsIdx, dot_S8000x64_S64x128_S8000x128_1_0_0_1_n_n]; rfl
theorem rhsE_0 (j : S8000x128.Idx) (k : dot_S8000x64_S64x128_S8000x128_1_0_0_1_n_n.contr.Idx) :
    (dot_S8000x64_S64x128_S8000x128_1_0_0_1_n_n.rhsIdx j k 0 : ℕ) = k ⟨0, by decide⟩ := by
  simp [DotDims.rhsIdx, dot_S8000x64_S64x128_S8000x128_1_0_0_1_n_n]; rfl
theorem rhsE_1 (j : S8000x128.Idx) (k : dot_S8000x64_S64x128_S8000x128_1_0_0_1_n_n.contr.Idx) :
    (dot_S8000x64_S64x128_S8000x128_1_0_0_1_n_n.rhsIdx j k 1 : ℕ) = j 1 := by
  simp [DotDims.rhsIdx, dot_S8000x64_S64x128_S8000x128_1_0_0_1_n_n]; rfl

/-- A product with the 64-row weight block into the zero accumulator, at row p, column q: the row against the column. -/
theorem mmE_apply (x : FVec Ideal S8000x64 .f32) (w : FVec Ideal S64x128 .f32) (p : Fin 8000) (q : Fin 128) :
    matmul dot_S8000x64_S64x128_S8000x128_1_0_0_1_n_n none x w (constant S8000x128 .f32 0x00000000#32) (ix2 p q)
      = Spec.rowDot x w p q := by
  unfold Spec.rowDot
  show FloatOps.matmul dot_S8000x64_S64x128_S8000x128_1_0_0_1_n_n none x w (constant S8000x128 .f32 0x00000000#32) (ix2 p q) = _
  rw [Ideal.matmul_constant_zero_apply,
    ← Equiv.sum_comp (contrEquiv1 dot_S8000x64_S64x128_S8000x128_1_0_0_1_n_n 64 rfl rfl).symm]
  refine Finset.sum_congr rfl fun c _ => ?_
  have hc := contrEquiv1_symm_val dot_S8000x64_S64x128_S8000x128_1_0_0_1_n_n 64 rfl rfl c
  have hl : dot_S8000x64_S64x128_S8000x128_1_0_0_1_n_n.lhsIdx (ix2 p q)
      ((contrEquiv1 dot_S8000x64_S64x128_S8000x128_1_0_0_1_n_n 64 rfl rfl).symm c) = ix2 p c := by
    funext a; apply Fin.ext
    match a with
    | ⟨0, _⟩ => exact lhsE_0 _ _
    | ⟨1, _⟩ => exact (lhsE_1 _ _).trans hc
  have hr : dot_S8000x64_S64x128_S8000x128_1_0_0_1_n_n.rhsIdx (ix2 p q)
      ((contrEquiv1 dot_S8000x64_S64x128_S8000x128_1_0_0_1_n_n 64 rfl rfl).symm c) = ix2 c q := by
    funext a; apply Fin.ext
    match a with
    | ⟨0, _⟩ => exact (rhsE_0 _ _).trans hc
    | ⟨1, _⟩ => exact rhsE_1 _ _
  rw [hl, hr]

/-! ## One block of rows: the body's arithmetic is the message formula of the block -/

/-- The logistic function applied entry by entry, read at an index. -/
theorem logistic_apply {s : Shape} {φ : FTy} (a : FVec Ideal s φ) (i : s.Idx) : logistic a i = Ideal.logistic (a i) := rfl

/-- The rectified hidden layer of a block, as the body computes it, entry by entry. -/
theorem hidden_eq (x0 x1 : FVec Ideal S8000x128 .f32) (x2 : FVec Ideal S8000x64 .f32) (x3 x4 : FVec Ideal S128x128 .f32)
    (x5 : FVec Ideal S64x128 .f32) (x6 : FVec Ideal S1x128 .f32) :
    maximumf
        (addf (addf (addf (matmul dot_S8000x128_S128x128_S8000x128_1_0_0_1_n_n none x0 x3 (constant S8000x128 .f32 0x00000000#32))
            (matmul dot_S8000x128_S128x128_S8000x128_1_0_0_1_n_n none x1 x4 (constant S8000x128 .f32 0x00000000#32)))
          (matmul dot_S8000x64_S64x128_S8000x128_1_0_0_1_n_n none x2 x5 (constant S8000x128 .f32 0x00000000#32)))
          (broadcastTo S8000x128 x6 broadcasts_S1x128_S8000x128))
        (broadcast S8000x128 (Scalar.ofBits (F := Ideal) .f32 0x00000000#32))
      = fun i => max (Spec.edgeHidden x0 x1 x2 x3 x4 x5 x6 (i 0) (i 1)) 0 := by
  funext i
  obtain ⟨p, k, rfl⟩ : ∃ (p : Fin 8000) (k : Fin 128), i = ix2 p k := ⟨i 0, i 1, eq_ix2 i⟩
  rw [maximumf_apply, addf_apply, addf_apply, addf_apply, mmW_apply, mmW_apply, mmE_apply, bcastRow_apply, broadcast_apply]
  rw [show (Scalar.ofBits (F := Ideal) .f32 0x00000000#32 : EReal) = 0 from Ideal.ofBits_zero_f32]
  rfl

/-- The body's result on one block of 8000 rows is the gated message of that block. -/
theorem pay_eq (x0 x1 : Vec Ideal S8000x128 .f32) (x2 : Vec Ideal S8000x64 .f32) (x3 x4 : Vec Ideal S128x128 .f32)
    (x5 : Vec Ideal S64x128 .f32) (x6 : Vec Ideal S1x128 .f32) (x7 : Vec Ideal S128x128 .f32) (x8 : Vec Ideal S1x128 .f32) :
    k0_pay1 (F := Ideal) x0 x1 x2 x3 x4 x5 x6 x7 x8 = Spec.edgeMsg (R := 8000) x0 x1 x2 x3 x4 x5 x6 x7 x8 := by
  funext i
  obtain ⟨p, q, rfl⟩ : ∃ (p : Fin 8000) (q : Fin 128), i = ix2 p q := ⟨i 0, i 1, eq_ix2 i⟩
  unfold k0_pay1
  simp only [shapeCast_self]
  rw [hidden_eq, mulf_apply, logistic_apply, addf_apply, mmW_apply, bcastRow_apply]
  rfl

-- the buffers as the stage finds them
variable (V : (c : Dev nD) → (b : Ref sig .tc) → Buf (Elt Ideal) ((c : Thread nD τ).loc b))

/-! ## From the blocks to the array -/

theorem hz : (![0, 0] : Fin 2 → Nat) = fun _ => 0 := funext fun a => by fin_cases a <;> rfl

/-- What the body leaves in the output buffer is the message formula of the nine blocks it loaded. -/
theorem out_eq (x0 x1 : Vec Ideal S8000x128 .f32) (x2 : Vec Ideal S8000x64 .f32) (x3 x4 : Vec Ideal S128x128 .f32)
    (x5 : Vec Ideal S64x128 .f32) (x6 : Vec Ideal S1x128 .f32) (x7 : Vec Ideal S128x128 .f32) (x8 : Vec Ideal S1x128 .f32) :
    out0_9 (F := Ideal) x0 x1 x2 x3 x4 x5 x6 x7 x8 = Spec.edgeMsg (R := 8000) x0 x1 x2 x3 x4 x5 x6 x7 x8 := by
  unfold out0_9
  rw [View.canon_unit_zero hz]
  simp only [View.ld_unit_zero (S := S8000x128) hz, View.ld_unit_zero (S := S8000x64) hz, View.ld_unit_zero (S := S128x128) hz,
    View.ld_unit_zero (S := S64x128) hz, View.ld_unit_zero (S := S1x128) hz]
  exact pay_eq x0 x1 x2 x3 x4 x5 x6 x7 x8

/-- The block index maps over the forty points: the three row-blocked operands and the result move down the rows with
    the point, the six small operands stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row r of point t's block is row 8000·t + r of the array. -/
def rowOf (t : Fin cfg0.N) (r : Fin 8000) : Fin 320000 :=
  ⟨8000 * t.val + r.val, by have := t.isLt; have : cfg0.N = 40 := N_0; have := r.isLt; omega⟩

/-- Where the result's block at point t sits in the array. -/
theorem emb9 (t : Fin cfg0.N) (r : Fin 8000) (q : Fin 128) :
    (((cfg0.win 9).blk t).view.emb (ix2 r q) : S320000x128.Idx) = ix2 (rowOf t r) q := by
  obtain ⟨-, -, -, -, -, -, -, -, -, -, -, -, -, -, -, -, -, -, e0, e1⟩ := idx_facts t
  funext a; apply Fin.ext
  match a with
  | ⟨0, _⟩ => show win0_9.index t (0 : Fin 2) * 8000 + 1 * r.val = 8000 * t.val + r.val; omega
  | ⟨1, _⟩ => show win0_9.index t (1 : Fin 2) * 128 + 1 * q.val = q.val; omega

/-- The source rows' block at point t, read at row r: row 8000·t + r of the source array. -/
theorem blk0_apply (c : Dev nD) (t : Fin cfg0.N) (r : Fin 8000) (k : Fin 128) :
    (iblk0 (F := Ideal) V c 0 t : Vec Ideal S8000x128 .f32) (ix2 r k) = (V c main_v4 : S320000x128.Idx → EReal) (ix2 (rowOf t r) k) := by
  obtain ⟨e0, e1, -⟩ := idx_facts t
  unfold iblk0
  rw [View.read_apply]
  show (V c main_v4 : S320000x128.Idx → EReal) (((cfg0.win 0).blk t).view.emb (ix2 r k)) = _
  congr 1
  funext a; apply Fin.ext
  match a with
  | ⟨0, _⟩ => show win0_0.index t (0 : Fin 2) * 8000 + 1 * r.val = 8000 * t.val + r.val; omega
  | ⟨1, _⟩ => show win0_0.index t (1 : Fin 2) * 128 + 1 * k.val = k.val; omega

/-- The destination rows' block at point t, read at row r: row 8000·t + r of the destination array. -/
theorem blk1_apply (c : Dev nD) (t : Fin cfg0.N) (r : Fin 8000) (k : Fin 128) :
    (iblk0 (F := Ideal) V c 1 t : Vec Ideal S8000x128 .f32) (ix2 r k) = (V c main_v5 : S320000x128.Idx → EReal) (ix2 (rowOf t r) k) := by
  obtain ⟨-, -, e0, e1, -⟩ := idx_facts t
  unfold iblk0
  rw [View.read_apply]
  show (V c main_v5 : S320000x128.Idx → EReal) (((cfg0.win 1).blk t).view.emb (ix2 r k)) = _
  congr 1
  funext a; apply Fin.ext
  match a with
  | ⟨0, _⟩ => show win0_1.index t (0 : Fin 2) * 8000 + 1 * r.val = 8000 * t.val + r.val; omega
  | ⟨1, _⟩ => show win0_1.index t (1 : Fin 2) * 128 + 1 * k.val = k.val; omega

/-- The edge features' block at point t, read at row r: row 8000·t + r of the edge-feature array. -/
theorem blk2_apply (c : Dev nD) (t : Fin cfg0.N) (r : Fin 8000) (k : Fin 64) :
    (iblk0 (F := Ideal) V c 2 t : Vec Ideal S8000x64 .f32) (ix2 r k) = (V c main_arg1 : S320000x64.Idx → EReal) (ix2 (rowOf t r) k) := by
  obtain ⟨-, -, -, -, e0, e1, -⟩ := idx_facts t
  unfold iblk0
  rw [View.read_apply]
  show (V c main_arg1 : S320000x64.Idx → EReal) (((cfg0.win 2).blk t).view.emb (ix2 r k)) = _
  congr 1
  funext a; apply Fin.ext
  match a with
  | ⟨0, _⟩ => show win0_2.index t (0 : Fin 2) * 8000 + 1 * r.val = 8000 * t.val + r.val; omega
  | ⟨1, _⟩ => show win0_2.index t (1 : Fin 2) * 64 + 1 * k.val = k.val; omega

/-- The source weight block is the whole array at every point. -/
theorem blk3_apply (c : Dev nD) (t : Fin cfg0.N) (y : S128x128.Idx) :
    (iblk0 (F := Ideal) V c 3 t : Vec Ideal S128x128 .f32) y = (V c main_v6 : S128x128.Idx → EReal) y := by
  obtain ⟨-, -, -, -, -, -, e0, e1, -⟩ := idx_facts t
  unfold iblk0
  rw [View.read_apply]
  show (V c main_v6 : S128x128.Idx → EReal) (((cfg0.win 3).blk t).view.emb y) = _
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The destination weight block is the whole array at every point. -/
theorem blk4_apply (c : Dev nD) (t : Fin cfg0.N) (y : S128x128.Idx) :
    (iblk0 (F := Ideal) V c 4 t : Vec Ideal S128x128 .f32) y = (V c main_v7 : S128x128.Idx → EReal) y := by
  obtain ⟨-, -, -, -, -, -, -, -, e0, e1, -⟩ := idx_facts t
  unfold iblk0
  rw [View.read_apply]
  show (V c main_v7 : S128x128.Idx → EReal) (((cfg0.win 4).blk t).view.emb y) = _
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The edge-feature weight block is the whole array at every point. -/
theorem blk5_apply (c : Dev nD) (t : Fin cfg0.N) (y : S64x128.Idx) :
    (iblk0 (F := Ideal) V c 5 t : Vec Ideal S64x128 .f32) y = (V c main_v8 : S64x128.Idx → EReal) y := by
  obtain ⟨-, -, -, -, -, -, -, -, -, -, e0, e1, -⟩ := idx_facts t
  unfold iblk0
  rw [View.read_apply]
  show (V c main_v8 : S64x128.Idx → EReal) (((cfg0.win 5).blk t).view.emb y) = _
  congr 1
  funext a; apply Fin.ext
  match a with
  | ⟨0, _⟩ => show win0_5.index t (0 : Fin 2) * 64 + 1 * (y 0).val = (y 0).val; omega
  | ⟨1, _⟩ => show win0_5.index t (1 : Fin 2) * 128 + 1 * (y 1).val = (y 1).val; omega

/-- The first bias row is the whole array at every point. -/
theorem blk6_apply (c : Dev nD) (t : Fin cfg0.N) (y : S1x128.Idx) :
    (iblk0 (F := Ideal) V c 6 t : Vec Ideal S1x128 .f32) y = (V c main_v9 : S1x128.Idx → EReal) y := by
  obtain ⟨-, -, -, -, -, -, -, -, -, -, -, -, e0, e1, -⟩ := idx_facts t
  unfold iblk0
  rw [View.read_apply]
  show (V c main_v9 : S1x128.Idx → EReal) (((cfg0.win 6).blk t).view.emb y) = _
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The second weight matrix is the whole array at every point. -/
theorem blk7_apply (c : Dev nD) (t : Fin cfg0.N) (y : S128x128.Idx) :
    (iblk0 (F := Ideal) V c 7 t : Vec Ideal S128x128 .f32) y = (V c main_arg4 : S128x128.Idx → EReal) y := by
  obtain ⟨-, -, -, -, -, -, -, -, -, -, -, -, -, -, e0, e1, -⟩ := idx_facts t
  unfold iblk0
  rw [View.read_apply]
  show (V c main_arg4 : S128x128.Idx → EReal) (((cfg0.win 7).blk t).view.emb y) = _
  congr 1
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- The second bias row is the whole array at every point. -/
theorem blk8_apply (c : Dev nD) (t : Fin cfg0.N) (y : S1x128.Idx) :
    (iblk0 (F := Ideal) V c 8 t : Vec Ideal S1x128 .f32) y = (V c main_v10 : S1x128.Idx → EReal) y := by
  obtain ⟨-, -, -, -, -, -, -, -, -, -, -, -, -, -, -, -, e0, e1, -⟩ := idx_facts t
  unfold iblk0
  rw [View.read_apply]
  show (V c main_v10 : S1x128.Idx → EReal) (((cfg0.win 8).blk t).view.emb y) = _
  congr 1
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- The message formula at a row reads the three row-blocked operands at that row alone: a block whose row r carries
    the arrays' row R, with the same small operands, gives at (r, q) what the arrays give at (R, q). -/
theorem edgeMsg_block (S D : Spec.Mat 320000 128) (E : Spec.Mat 320000 64) (Ws Wd : Spec.Mat 128 128) (We : Spec.Mat 64 128)
    (b1 : Spec.Mat 1 128) (W2 : Spec.Mat 128 128) (b2 : Spec.Mat 1 128)
    (s d : Spec.Mat 8000 128) (e : Spec.Mat 8000 64) (ws wd : Spec.Mat 128 128) (we : Spec.Mat 64 128)
    (c1 : Spec.Mat 1 128) (w2 : Spec.Mat 128 128) (c2 : Spec.Mat 1 128)
    (r : Fin 8000) (R : Fin 320000) (q : Fin 128)
    (hs : ∀ k, s (ix2 r k) = S (ix2 R k)) (hd : ∀ k, d (ix2 r k) = D (ix2 R k)) (he : ∀ k, e (ix2 r k) = E (ix2 R k))
    (hWs : ∀ y, ws y = Ws y) (hWd : ∀ y, wd y = Wd y) (hWe : ∀ y, we y = We y) (hb1 : ∀ y, c1 y = b1 y)
    (hW2 : ∀ y, w2 y = W2 y) (hb2 : ∀ y, c2 y = b2 y) :
    Spec.edgeMsg s d e ws wd we c1 w2 c2 (ix2 r q) = Spec.edgeMsg S D E Ws Wd We b1 W2 b2 (ix2 R q) := by
  obtain rfl : ws = Ws := funext hWs
  obtain rfl : wd = Wd := funext hWd
  obtain rfl : we = We := funext hWe
  obtain rfl : c1 = b1 := funext hb1
  obtain rfl : w2 = W2 := funext hW2
  obtain rfl : c2 = b2 := funext hb2
  show s (ix2 r q) * Ideal.logistic (Spec.edgeGateArg s d e ws wd we c1 w2 c2 r q)
    = S (ix2 R q) * Ideal.logistic (Spec.edgeGateArg S D E ws wd we c1 w2 c2 R q)
  unfold Spec.edgeGateArg Spec.edgeHidden Spec.rowDot
  simp only [hs, hd, he]

/-- What point t writes back is its block of the message formula of the whole arrays. -/
theorem flushed_eq (c : Dev nD) (t : Fin cfg0.N) :
    (dat0 (F := Ideal) V c).flushed 9 t = ((cfg0.win 9).blk t).view.read (Elt Ideal)
      (Spec.edgeMsg (R := 320000) (V c main_v4) (V c main_v5) (V c main_arg1) (V c main_v6) (V c main_v7) (V c main_v8)
        (V c main_v9) (V c main_arg4) (V c main_v10)) := by
  show (cfg0.win 9).cut (grid0.coords t) ((dat0 V c).after 9 t) = _
  rw [after0_9]
  funext j
  obtain ⟨r, q, rfl⟩ : ∃ (r : Fin 8000) (q : Fin 128), (j : S8000x128.Idx) = ix2 r q := ⟨j 0, j 1, eq_ix2 j⟩
  rw [View.read_apply]
  refine (congrFun (out_eq (iblk0 V c 0 t) (iblk0 V c 1 t) (iblk0 V c 2 t) (iblk0 V c 3 t) (iblk0 V c 4 t) (iblk0 V c 5 t)
    (iblk0 V c 6 t) (iblk0 V c 7 t) (iblk0 V c 8 t)) (ix2 r q)).trans ?_
  refine (edgeMsg_block (V c main_v4) (V c main_v5) (V c main_arg1) (V c main_v6) (V c main_v7) (V c main_v8)
    (V c main_v9) (V c main_arg4) (V c main_v10) _ _ _ _ _ _ _ _ _ r (rowOf t r) q
    (fun k => blk0_apply V c t r k) (fun k => blk1_apply V c t r k) (fun k => blk2_apply V c t r k)
    (fun y => blk3_apply V c t y) (fun y => blk4_apply V c t y) (fun y => blk5_apply V c t y)
    (fun y => blk6_apply V c t y) (fun y => blk7_apply V c t y) (fun y => blk8_apply V c t y)).trans ?_
  exact congrArg _ (emb9 t r q).symm

/-- An index of the message array is in point t's block iff each coordinate is in the block's range on its axis. -/
theorem mem_blk9 (t : Fin cfg0.N) (i : S320000x128.Idx) :
    i ∈ ((cfg0.win 9).blk t).view.set ↔ ∀ a : Fin 2, win0_9.index t a * S8000x128.size a ≤ (i a).val
      ∧ (i a).val < win0_9.index t a * S8000x128.size a + S8000x128.size a := by
  show i ∈ ((View.whole main_v11).slice (win0_9.rect t)).set ↔ _
  rw [View.set_slice_whole, Rect.mem_set_unit]
  exact Iff.rfl

/-- Every row of the message array is in the block of the point its row number divided by 8000 names. -/
theorem cover9 (i : S320000x128.Idx) :
    ∃ t : Fin cfg0.N, (cfg0.win 9).flush t = true ∧ i ∈ ((cfg0.win 9).blk t).view.set := by
  have hi0 : (i 0).val < 320000 := (i 0).isLt
  have hi1 : (i 1).val < 128 := (i 1).isLt
  have hN : cfg0.N = 40 := N_0
  refine ⟨⟨(i 0).val / 8000, by omega⟩, flush0_9 _, ?_⟩
  obtain ⟨-, -, -, -, -, -, -, -, -, -, -, -, -, -, -, -, -, -, e0, e1⟩ := idx_facts ⟨(i 0).val / 8000, by omega⟩
  rw [mem_blk9]
  intro a
  match a with
  | ⟨0, _⟩ =>
    show win0_9.index _ (0 : Fin 2) * 8000 ≤ (i 0).val ∧ (i 0).val < win0_9.index _ (0 : Fin 2) * 8000 + 8000
    rw [e0]; show (i 0).val / 8000 * 8000 ≤ (i 0).val ∧ (i 0).val < (i 0).val / 8000 * 8000 + 8000; omega
  | ⟨1, _⟩ =>
    show win0_9.index _ (1 : Fin 2) * 128 ≤ (i 1).val ∧ (i 1).val < win0_9.index _ (1 : Fin 2) * 128 + 128
    rw [e1]; omega

/-- The message array after the stage: `Spec.edgeMsg` of the whole operand arrays. -/
theorem edge_final (c : Dev nD) :
    (dat0 (F := Ideal) V c).arrAt 9 cfg0.N
      = Spec.edgeMsg (R := 320000) (V c main_v4) (V c main_v5) (V c main_arg1) (V c main_v6) (V c main_v7) (V c main_v8)
          (V c main_v9) (V c main_arg4) (V c main_v10) :=
  (dat0 (F := Ideal) V c).arrAt_eq_of_cover 9 _ (fun t _ => flushed_eq V c t) cover9

end Cert.Proof.Edge

end
-- ==== Proof.Node.lean ====
/-
  The second dense stage read off its run: after its five grid points the update array holds the node update formula
  of the node and aggregate arrays found at entry, and the two one-row accumulators hold its column sums and the
  column sums of its squares (reset at the first point, added to at every point).

  The road: what each of the two cases of a point leaves in the three outputs' buffers is a payload of the point's operand
  blocks; at the extended reals the update payload is the node update formula of the blocks, row by row, and the two
  accumulator payloads add the block's column sums (of the entries, of their squares) to what was there. A row of the
  update depends on the same row of the node and aggregate arrays only, so block `t` of the update of the whole arrays
  is the update of the blocks at point `t`; by induction over the points the accumulators hold the sums over the rows
  below `2000 (n + 1)`, which after the last point is every row. The update array is tiled by its five blocks; the two
  one-row arrays are written back once, after the last point.
-/
import proofs.«410922_j44427141710551_1_alg».proof.Proof.Gen.KernelIdeal.Frame
import proofs.«410922_j44427141710551_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.Proof.Node

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open Cert.Proof

section Pieces
variable {F : FTy → Type} [FloatOps F]

theorem hz : (![0, 0] : Fin 2 → Nat) = fun _ => 0 := funext fun a => by fin_cases a <;> rfl

/-- Away from the first point the update block the stage stores is the update payload of the seven operand blocks. -/
theorem pieceB7 (c : Dev nD) (i : grid1.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) (xo8 xo9 : Vec F S1x128 .f32) :
    out1_B_7 c i a1 h1 a2 h2 a3 h3 a4 h4 a5 h5 a6 h6 a7 h7 a8 h8 a9 h9 a10 h10 hc x0 x1 x2 x3 x4 x5 x6 xo8 xo9 = k1_pay4 x0 x1 x2 x3 x4 x5 x6 := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S2000x128) hz, View.ld_unit_zero (S := S128x128) hz, View.ld_unit_zero (S := S1x128) hz]

/-- Away from the first point the running sum becomes what it was plus the column sums of the update block. -/
theorem pieceB8 (c : Dev nD) (i : grid1.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) (xo8 xo9 : Vec F S1x128 .f32) :
    out1_B_8 c i a1 h1 a2 h2 a3 h3 a4 h4 a5 h5 a6 h6 a7 h7 a8 h8 a9 h9 a10 h10 hc x0 x1 x2 x3 x4 x5 x6 xo8 xo9 = k1_pay5 x0 x1 x2 x3 x4 x5 x6 xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread,
    h9.read_unread, h10.read_unread,
    View.ld_unit_zero (S := S2000x128) hz, View.ld_unit_zero (S := S128x128) hz, View.ld_unit_zero (S := S1x128) hz]

/-- Away from the first point the running sum of squares becomes what it was plus the column sums of the squared update block. -/
theorem pieceB9 (c : Dev nD) (i : grid1.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) (xo8 xo9 : Vec F S1x128 .f32) :
    out1_B_9 c i a1 h1 a2 h2 a3 h3 a4 h4 a5 h5 a6 h6 a7 h7 a8 h8 a9 h9 a10 h10 hc x0 x1 x2 x3 x4 x5 x6 xo8 xo9 = k1_pay1 (k1_pay4 x0 x1 x2 x3 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz]
  simp only [View.readAt_eq_ld, h1.read_unread, h2.read_unread, h3.read_unread, h4.read_unread, h5.read_unread, h6.read_unread, h7.read_unread,
    h9.read_unread, h10.read_unread,
    View.ld_unit_zero (S := S2000x128) hz, View.ld_unit_zero (S := S128x128) hz, View.ld_unit_zero (S := S1x128) hz]

/-- At the first point the update block is the same payload. -/
theorem pieceA7 (c : Dev nD) (i : grid1.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : cond1_0 i) (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) :
    out1_A_7 c i a1 h1 a2 h2 a3 h3 a4 h4 a5 h5 a6 h6 a7 h7 a8 h8 a9 h9 a10 h10 hc x0 x1 x2 x3 x4 x5 x6 = k1_pay4 x0 x1 x2 x3 x4 x5 x6 := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S2000x128) hz, View.ld_unit_zero (S := S128x128) hz, View.ld_unit_zero (S := S1x128) hz]

/-- At the first point the running sum is the zero row plus the column sums of the update block. -/
theorem pieceA8 (c : Dev nD) (i : grid1.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : cond1_0 i) (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) :
    out1_A_8 c i a1 h1 a2 h2 a3 h3 a4 h4 a5 h5 a6 h6 a7 h7 a8 h8 a9 h9 a10 h10 hc x0 x1 x2 x3 x4 x5 x6 = k1_pay5 x0 x1 x2 x3 x4 x5 x6 k1_pay2 := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread,
    View.ld_unit_zero (S := S2000x128) hz, View.ld_unit_zero (S := S128x128) hz, View.ld_unit_zero (S := S1x128) hz]

/-- At the first point the running sum of squares is the zero row plus the column sums of the squared update block. -/
theorem pieceA9 (c : Dev nD) (i : grid1.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S2000x128 .f32) (h8 : a8.IsWhole) (a9 : Memref sig .tc .vmem S1x128 .f32) (h9 : a9.IsWhole) (a10 : Memref sig .tc .vmem S1x128 .f32) (h10 : a10.IsWhole) (hc : cond1_0 i) (x0 : Vec F S2000x128 .f32) (x1 : Vec F S2000x128 .f32) (x2 : Vec F S128x128 .f32) (x3 : Vec F S128x128 .f32) (x4 : Vec F S1x128 .f32) (x5 : Vec F S128x128 .f32) (x6 : Vec F S1x128 .f32) :
    out1_A_9 c i a1 h1 a2 h2 a3 h3 a4 h4 a5 h5 a6 h6 a7 h7 a8 h8 a9 h9 a10 h10 hc x0 x1 x2 x3 x4 x5 x6 = k1_pay1 (k1_pay4 x0 x1 x2 x3 x4 x5 x6) k1_pay3 := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread,
    View.ld_unit_zero (S := S2000x128) hz, View.ld_unit_zero (S := S128x128) hz, View.ld_unit_zero (S := S1x128) hz]

end Pieces

section Payloads

/-! The dense product's operand indices, axis by axis. -/

theorem lhs_dot_0 (j : S2000x128.Idx) (k : dot_S2000x128_S128x128_S2000x128_1_0_0_1_n_n.contr.Idx) :
    (dot_S2000x128_S128x128_S2000x128_1_0_0_1_n_n.lhsIdx j k 0).val = (j 0).val := by
  simp [DotDims.lhsIdx, dot_S2000x128_S128x128_S2000x128_1_0_0_1_n_n]; rfl

theorem lhs_dot_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  DotDims.lhsIdx_val_of_single _ rfl j k

theorem rhs_dot_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  DotDims.rhsIdx_val_of_single _ rfl j k

theorem rhs_dot_1 (j : S2000x128.Idx) (k : dot_S2000x128_S128x128_S2000x128_1_0_0_1_n_n.contr.Idx) :
    (dot_S2000x128_S128x128_S2000x128_1_0_0_1_n_n.rhsIdx j k 1).val = (j 1).val := by
  simp [DotDims.rhsIdx, dot_S2000x128_S128x128_S2000x128_1_0_0_1_n_n]; rfl

/-- A block product into the zero block, at row `r` and column `j`: the row of the left factor against the column of the right. -/
theorem mm_apply (x : FVec Ideal S2000x128 .f32) (W : FVec Ideal S128x128 .f32) (r : Fin 2000) (j : Fin 128) :
    matmul dot_S2000x128_S128x128_S2000x128_1_0_0_1_n_n none x W (constant (F := Ideal) S2000x128 .f32 0x00000000#32) (ix2 r j)
      = Spec.rowDot x W r j := by
  refine (Ideal.matmul_constant_zero_apply dot_S2000x128_S128x128_S2000x128_1_0_0_1_n_n none x W (ix2 r j)).trans ?_
  unfold Spec.rowDot
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j)
      ((contrEquiv1 dot_S2000x128_S128x128_S2000x128_1_0_0_1_n_n 128 rfl rfl).symm k) = ix2 r k :=
    funext fun a => Fin.ext (by
      match a with
      | ⟨0, _⟩ => exact lhs_dot_0 _ _
      | ⟨1, _⟩ => exact (lhs_dot_1 _ _).trans hk)
  have er : dot_S2000x128_S128x128_S2000x128_1_0_0_1_n_n.rhsIdx (ix2 r j)
      ((contrEquiv1 dot_S2000x128_S128x128_S2000x128_1_0_0_1_n_n 128 rfl rfl).symm k) = ix2 k j :=
    funext fun a => Fin.ext (by
      match a with
      | ⟨0, _⟩ => exact (rhs_dot_0 _ _).trans hk
      | ⟨1, _⟩ => exact rhs_dot_1 _ _)
  rw [el, er]

/-- The update payload at row `r`, column `j`: the node update formula of the seven operand blocks. -/
theorem pay4_apply (x0 x1 : FVec Ideal S2000x128 .f32) (x2 x3 : FVec Ideal S128x128 .f32) (x4 : FVec Ideal S1x128 .f32)
    (x5 : FVec Ideal S128x128 .f32) (x6 : FVec Ideal S1x128 .f32) (r : Fin 2000) (j : Fin 128) :
    k1_pay4 (F := Ideal) x0 x1 x2 x3 x4 x5 x6 (ix2 r j) = Spec.nodeU (R := 2000) x0 x1 x2 x3 x4 x5 x6 (ix2 r j) := by
  unfold k1_pay4
  simp only [shapeCast_self]
  refine (addf_apply _ _ _).trans ?_
  refine (congrArg₂ (· + ·) (mm_apply _ x5 r j) (broadcastTo_1b_ab_apply x6 _ r j)).trans ?_
  unfold Spec.nodeU Spec.rowDot
  refine congrArg (· + x6 (ix2 (0 : Fin 1) j)) (Finset.sum_congr rfl fun k _ => congrArg (· * x5 (ix2 k j)) ?_)
  refine (maximumf_apply _ _ _).trans ?_
  refine congrArg₂ max ?_ Ideal.ofBits_zero_f32
  refine (addf_apply _ _ _).trans ?_
  exact congrArg₂ (· + ·) ((addf_apply _ _ _).trans (congrArg₂ (· + ·) (mm_apply x0 x2 r k) (mm_apply x1 x3 r k)))
    (broadcastTo_1b_ab_apply x4 _ r k)

theorem pay4_eq (x0 x1 : FVec Ideal S2000x128 .f32) (x2 x3 : FVec Ideal S128x128 .f32) (x4 : FVec Ideal S1x128 .f32)
    (x5 : FVec Ideal S128x128 .f32) (x6 : FVec Ideal S1x128 .f32) :
    k1_pay4 (F := Ideal) x0 x1 x2 x3 x4 x5 x6 = Spec.nodeU (R := 2000) x0 x1 x2 x3 x4 x5 x6 :=
  funext fun i => by
    obtain ⟨r, j, rfl⟩ : ∃ (r : Fin 2000) (j : Fin 128), i = ix2 r j := ⟨i 0, i 1, eq_ix2 i⟩
    exact pay4_apply x0 x1 x2 x3 x4 x5 x6 r j

/-- The column sums of a block as the stage takes them: reduced over the rows, then given a unit row axis. -/
theorem colsum_apply (u : FVec Ideal S2000x128 .f32) (hacc : (0x00000000#32 : BitVec 32) = 0x00000000#32) (q : Fin 1) (j : Fin 128) :
    shapeCast S1x128 (multiReduction (F := Ideal) .add [0] S128 u 0x00000000#32 reduces_S2000x128_S128 (.inl rfl) hacc) shapeCasts_S128_S1x128 (ix2 q j)
      = ∑ r : Fin 2000, u (ix2 r j) := by
  refine (shapeCast_a_1a_apply _ shapeCasts_S128_S1x128 q j).trans ?_
  refine (Ideal.multiReduction_add_single u 0x00000000#32 reduces_S2000x128_S128 (.inl rfl) hacc (ix1 j)).trans ?_
  refine Finset.sum_congr rfl fun r _ => congrArg u ?_
  funext a
  match a with
  | ⟨0, _⟩ => rfl
  | ⟨1, _⟩ => rfl

/-- The running sum's update at column `j`: what was there plus the column sum of the update block. -/
theorem pay5_apply (x0 x1 : FVec Ideal S2000x128 .f32) (x2 x3 : FVec Ideal S128x128 .f32) (x4 : FVec Ideal S1x128 .f32)
    (x5 : FVec Ideal S128x128 .f32) (x6 : FVec Ideal S1x128 .f32) (v : FVec Ideal S1x128 .f32) (q : Fin 1) (j : Fin 128) :
    k1_pay5 (F := Ideal) x0 x1 x2 x3 x4 x5 x6 v (ix2 q j)
      = v (ix2 q j) + ∑ r : Fin 2000, Spec.nodeU (R := 2000) x0 x1 x2 x3 x4 x5 x6 (ix2 r j) := by
  unfold k1_pay5
  simp only [shapeCast_self]
  refine (addf_apply _ _ _).trans ?_
  refine congrArg (v (ix2 q j) + ·) ?_
  refine (colsum_apply _ rfl q j).trans ?_
  exact Finset.sum_congr rfl fun r _ => pay4_apply x0 x1 x2 x3 x4 x5 x6 r j

/-- The running sum of squares' update at column `j`: what was there plus the column sum of the squared block. -/
theorem pay1_apply (u : FVec Ideal S2000x128 .f32) (v : FVec Ideal S1x128 .f32) (q : Fin 1) (j : Fin 128) :
    k1_pay1 (F := Ideal) u v (ix2 q j) = v (ix2 q j) + ∑ r : Fin 2000, u (ix2 r j) * u (ix2 r j) := by
  unfold k1_pay1
  simp only [shapeCast_self]
  refine (addf_apply _ _ _).trans ?_
  refine congrArg (v (ix2 q j) + ·) ?_
  exact colsum_apply _ rfl q j

/-- The reset rows are zero. -/
theorem pay2_apply (i : S1x128.Idx) : k1_pay2 (F := Ideal) i = 0 := Ideal.ofBits_zero_f32
theorem pay3_apply (i : S1x128.Idx) : k1_pay3 (F := Ideal) i = 0 := Ideal.ofBits_zero_f32

end Payloads

-- the buffers as the stage finds them
variable (V : (c : Dev nD) → (b : Ref sig .tc) → Buf (Elt Ideal) ((c : Thread nD τ).loc b))

/-- The node update of the arrays the stage finds. -/
abbrev U (c : Dev nD) : Spec.Mat 10000 128 :=
  Spec.nodeU (R := 10000) (V c main_arg0) (V c main_v14) (V c main_v15) (V c main_v16) (V c main_v17) (V c main_arg8) (V c main_v18)

section Blocks

/-- A row of the update depends on the same row of the node and aggregate arrays only: a block of rows of the two, with
    the same weights, gives the same rows of the update. -/
theorem nodeU_block (x agg : Spec.Mat 10000 128) (xb ab : Spec.Mat 2000 128) (Wn Wa : Spec.Mat 128 128) (b1 : Spec.Mat 1 128)
    (W2 : Spec.Mat 128 128) (b2 : Spec.Mat 1 128) (r : Fin 2000) (r' : Fin 10000) (j : Fin 128)
    (hx : ∀ k, xb (ix2 r k) = x (ix2 r' k)) (ha : ∀ k, ab (ix2 r k) = agg (ix2 r' k)) :
    Spec.nodeU xb ab Wn Wa b1 W2 b2 (ix2 r j) = Spec.nodeU x agg Wn Wa b1 W2 b2 (ix2 r' j) := by
  show (∑ k : Fin 128, max ((∑ l : Fin 128, xb (ix2 r l) * Wn (ix2 l k) + ∑ l : Fin 128, ab (ix2 r l) * Wa (ix2 l k)) + b1 (ix2 (0 : Fin 1) k)) 0 * W2 (ix2 k j)) + b2 (ix2 (0 : Fin 1) j)
    = (∑ k : Fin 128, max ((∑ l : Fin 128, x (ix2 r' l) * Wn (ix2 l k) + ∑ l : Fin 128, agg (ix2 r' l) * Wa (ix2 l k)) + b1 (ix2 (0 : Fin 1) k)) 0 * W2 (ix2 k j)) + b2 (ix2 (0 : Fin 1) j)
  simp only [hx, ha]

/-- The windows' block indices over the grid: the node, aggregate and update windows move down the rows with the point,
    the weight, bias and accumulator windows stay on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- The operand blocks of point `t`, at their literal types. -/
abbrev xb (c : Dev nD) (t : Fin cfg1.N) : FVec Ideal S2000x128 .f32 := iblk1 V c 0 t
abbrev ab (c : Dev nD) (t : Fin cfg1.N) : FVec Ideal S2000x128 .f32 := iblk1 V c 1 t
abbrev w2 (c : Dev nD) (t : Fin cfg1.N) : FVec Ideal S128x128 .f32 := iblk1 V c 2 t
abbrev w3 (c : Dev nD) (t : Fin cfg1.N) : FVec Ideal S128x128 .f32 := iblk1 V c 3 t
abbrev w4 (c : Dev nD) (t : Fin cfg1.N) : FVec Ideal S1x128 .f32 := iblk1 V c 4 t
abbrev w5 (c : Dev nD) (t : Fin cfg1.N) : FVec Ideal S128x128 .f32 := iblk1 V c 5 t
abbrev w6 (c : Dev nD) (t : Fin cfg1.N) : FVec Ideal S1x128 .f32 := iblk1 V c 6 t

/-- Row `r` of point `t`'s node block is row `2000 t + r` of the node array. -/
theorem xb_apply (c : Dev nD) (t : Fin cfg1.N) (r : Fin 2000) (k : Fin 128) (r' : Fin 10000) (hr : r'.val = 2000 * t.val + r.val) :
    xb V c t (ix2 r k) = V c main_arg0 (ix2 r' k) := by
  obtain ⟨e0, e1, -⟩ := idx_facts t
  show V c main_arg0 (((cfg1.win 0).blk t).view.emb (ix2 r k)) = V c main_arg0 (ix2 r' k)
  refine congrArg _ (funext fun a => Fin.ext ?_)
  match a with
  | ⟨0, _⟩ => show win1_0.index t (0 : Fin 2) * 2000 + 1 * r.val = r'.val; omega
  | ⟨1, _⟩ => show win1_0.index t (1 : Fin 2) * 128 + 1 * k.val = k.val; omega

/-- Row `r` of point `t`'s aggregate block is row `2000 t + r` of the aggregate array. -/
theorem ab_apply (c : Dev nD) (t : Fin cfg1.N) (r : Fin 2000) (k : Fin 128) (r' : Fin 10000) (hr : r'.val = 2000 * t.val + r.val) :
    ab V c t (ix2 r k) = V c main_v14 (ix2 r' k) := by
  obtain ⟨-, -, e0, e1, -⟩ := idx_facts t
  show V c main_v14 (((cfg1.win 1).blk t).view.emb (ix2 r k)) = V c main_v14 (ix2 r' k)
  refine congrArg _ (funext fun a => Fin.ext ?_)
  match a with
  | ⟨0, _⟩ => show win1_1.index t (0 : Fin 2) * 2000 + 1 * r.val = r'.val; omega
  | ⟨1, _⟩ => show win1_1.index t (1 : Fin 2) * 128 + 1 * k.val = k.val; omega

/-- The weight and bias windows hold their whole arrays at every point. -/
theorem w2_eq (c : Dev nD) (t : Fin cfg1.N) : w2 V c t = V c main_v15 := by
  obtain ⟨-, -, -, -, e0, e1, -⟩ := idx_facts t
  funext y
  show V c main_v15 (((cfg1.win 2).blk t).view.emb y) = V c main_v15 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem w3_eq (c : Dev nD) (t : Fin cfg1.N) : w3 V c t = V c main_v16 := by
  obtain ⟨-, -, -, -, -, -, e0, e1, -⟩ := idx_facts t
  funext y
  show V c main_v16 (((cfg1.win 3).blk t).view.emb y) = V c main_v16 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem w4_eq (c : Dev nD) (t : Fin cfg1.N) : w4 V c t = V c main_v17 := by
  obtain ⟨-, -, -, -, -, -, -, -, e0, e1, -⟩ := idx_facts t
  funext y
  show V c main_v17 (((cfg1.win 4).blk t).view.emb y) = V c main_v17 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega
theorem w5_eq (c : Dev nD) (t : Fin cfg1.N) : w5 V c t = V c main_arg8 := by
  obtain ⟨-, -, -, -, -, -, -, -, -, -, e0, e1, -⟩ := idx_facts t
  funext y
  show V c main_arg8 (((cfg1.win 5).blk t).view.emb y) = V c main_arg8 y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega
theorem w6_eq (c : Dev nD) (t : Fin cfg1.N) : w6 V c t = V c main_v18 := by
  obtain ⟨-, -, -, -, -, -, -, -, -, -, -, -, e0, e1, -⟩ := idx_facts t
  funext y
  show V c main_v18 (((cfg1.win 6).blk t).view.emb y) = V c main_v18 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The update formula of point `t`'s operand blocks. -/
abbrev Ub (c : Dev nD) (t : Fin cfg1.N) : Spec.Mat 2000 128 :=
  Spec.nodeU (R := 2000) (xb V c t) (ab V c t) (w2 V c t) (w3 V c t) (w4 V c t) (w5 V c t) (w6 V c t)

/-- Its row `r` is row `2000 t + r` of the update of the whole arrays. -/
theorem Ub_apply (c : Dev nD) (t : Fin cfg1.N) (r : Fin 2000) (j : Fin 128) (r' : Fin 10000) (hr : r'.val = 2000 * t.val + r.val) :
    Ub V c t (ix2 r j) = U V c (ix2 r' j) := by
  show Spec.nodeU (R := 2000) (xb V c t) (ab V c t) (w2 V c t) (w3 V c t) (w4 V c t) (w5 V c t) (w6 V c t) (ix2 r j) = _
  rw [w2_eq, w3_eq, w4_eq, w5_eq, w6_eq]
  exact nodeU_block (V c main_arg0) (V c main_v14) (xb V c t) (ab V c t) (V c main_v15) (V c main_v16) (V c main_v17) (V c main_arg8)
    (V c main_v18) r r' j (fun k => xb_apply V c t r k r' hr) (fun k => ab_apply V c t r k r' hr)

end Blocks

section Points

/-- What the three outputs' buffers hold after the first point: the update payload of the point's blocks, and the two
    accumulators' payloads over the zero rows. -/
theorem outs_A (c : Dev nD) (t : Fin cfg1.N) (h0 : t.val % 5 = 0) :
    outsAt1 V c t.val t.isLt
      = (k1_pay4 (F := Ideal) (xb V c t) (ab V c t) (w2 V c t) (w3 V c t) (w4 V c t) (w5 V c t) (w6 V c t), k1_pay5 (F := Ideal) (xb V c t) (ab V c t) (w2 V c t) (w3 V c t) (w4 V c t) (w5 V c t) (w6 V c t) (k1_pay2 (F := Ideal)),
          k1_pay1 (F := Ideal) (k1_pay4 (F := Ideal) (xb V c t) (ab V c t) (w2 V c t) (w3 V c t) (w4 V c t) (w5 V c t) (w6 V c t)) (k1_pay3 (F := Ideal))) := by
  rw [outsAt1_A V c t h0]
  exact congrArg₂ Prod.mk (pieceA7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (xb V c t) (ab V c t) (w2 V c t) (w3 V c t) (w4 V c t) (w5 V c t) (w6 V c t))
    (congrArg₂ Prod.mk (pieceA8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (xb V c t) (ab V c t) (w2 V c t) (w3 V c t) (w4 V c t) (w5 V c t) (w6 V c t))
      (pieceA9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (xb V c t) (ab V c t) (w2 V c t) (w3 V c t) (w4 V c t) (w5 V c t) (w6 V c t)))

/-- After a later point: the update payload of the point's blocks, and the two accumulators' payloads over what the point
    before left in them. -/
theorem outs_B (c : Dev nD) (t : Fin cfg1.N) (h0 : ¬t.val % 5 = 0) :
    outsAt1 V c t.val t.isLt
      = (k1_pay4 (F := Ideal) (xb V c t) (ab V c t) (w2 V c t) (w3 V c t) (w4 V c t) (w5 V c t) (w6 V c t), k1_pay5 (F := Ideal) (xb V c t) (ab V c t) (w2 V c t) (w3 V c t) (w4 V c t) (w5 V c t) (w6 V c t) (outsAt1 V c (t.val - 1) (Nat.lt_of_le_of_lt (Nat.sub_le _ _) t.isLt)).2.1,
          k1_pay1 (F := Ideal) (k1_pay4 (F := Ideal) (xb V c t) (ab V c t) (w2 V c t) (w3 V c t) (w4 V c t) (w5 V c t) (w6 V c t)) (outsAt1 V c (t.val - 1) (Nat.lt_of_le_of_lt (Nat.sub_le _ _) t.isLt)).2.2) := by
  rw [outsAt1_B V c t h0]
  exact congrArg₂ Prod.mk (pieceB7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (xb V c t) (ab V c t) (w2 V c t) (w3 V c t) (w4 V c t) (w5 V c t) (w6 V c t) (outsAt1 V c (t.val - 1) (Nat.lt_of_le_of_lt (Nat.sub_le _ _) t.isLt)).2.1 (outsAt1 V c (t.val - 1) (Nat.lt_of_le_of_lt (Nat.sub_le _ _) t.isLt)).2.2)
    (congrArg₂ Prod.mk (pieceB8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (xb V c t) (ab V c t) (w2 V c t) (w3 V c t) (w4 V c t) (w5 V c t) (w6 V c t) (outsAt1 V c (t.val - 1) (Nat.lt_of_le_of_lt (Nat.sub_le _ _) t.isLt)).2.1 (outsAt1 V c (t.val - 1) (Nat.lt_of_le_of_lt (Nat.sub_le _ _) t.isLt)).2.2)
      (pieceB9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (xb V c t) (ab V c t) (w2 V c t) (w3 V c t) (w4 V c t) (w5 V c t) (w6 V c t) (outsAt1 V c (t.val - 1) (Nat.lt_of_le_of_lt (Nat.sub_le _ _) t.isLt)).2.1 (outsAt1 V c (t.val - 1) (Nat.lt_of_le_of_lt (Nat.sub_le _ _) t.isLt)).2.2))

end Points

section Sums

/-- Column `j` of the update as a sequence over the row number (zero past the last row). -/
def colU (c : Dev nD) (j : Fin 128) (i : ℕ) : EReal := if h : i < 10000 then U V c (ix2 (⟨i, h⟩ : Fin 10000) j) else 0

/-- Row `r` of point `t`'s update block is entry `2000 t + r` of the column's sequence. -/
theorem colU_block (c : Dev nD) (t : Fin cfg1.N) (j : Fin 128) (r : Fin 2000) :
    Ub V c t (ix2 r j) = colU V c j (2000 * t.val + r.val) := by
  have hN : cfg1.N = 5 := N_1
  have ht := t.isLt
  have hlt : 2000 * t.val + r.val < 10000 := by omega
  unfold colU
  rw [dif_pos hlt]
  exact Ub_apply V c t r j ⟨_, hlt⟩ rfl

/-- The column sums of point `t`'s update block: a stretch of 2000 entries of the sequence. -/
theorem blksum (c : Dev nD) (t : Fin cfg1.N) (j : Fin 128) :
    ∑ r : Fin 2000, Ub V c t (ix2 r j) = ∑ i ∈ Finset.range 2000, colU V c j (2000 * t.val + i) := by
  rw [← Fin.sum_univ_eq_sum_range (fun i => colU V c j (2000 * t.val + i)) 2000]
  exact Finset.sum_congr rfl fun r _ => colU_block V c t j r

theorem blksumsq (c : Dev nD) (t : Fin cfg1.N) (j : Fin 128) :
    ∑ r : Fin 2000, Ub V c t (ix2 r j) * Ub V c t (ix2 r j)
      = ∑ i ∈ Finset.range 2000, colU V c j (2000 * t.val + i) * colU V c j (2000 * t.val + i) := by
  rw [← Fin.sum_univ_eq_sum_range (fun i => colU V c j (2000 * t.val + i) * colU V c j (2000 * t.val + i)) 2000]
  exact Finset.sum_congr rfl fun r _ => by rw [colU_block V c t j r]

/-- All 10000 entries of the sequence: the column's sum over the whole update. -/
theorem total (c : Dev nD) (j : Fin 128) : ∑ i ∈ Finset.range 10000, colU V c j i = ∑ r : Fin 10000, U V c (ix2 r j) := by
  rw [← Fin.sum_univ_eq_sum_range (fun i => colU V c j i) 10000]
  exact Finset.sum_congr rfl fun r _ => by unfold colU; rw [dif_pos r.isLt]

theorem totalsq (c : Dev nD) (j : Fin 128) :
    ∑ i ∈ Finset.range 10000, colU V c j i * colU V c j i = ∑ r : Fin 10000, U V c (ix2 r j) * U V c (ix2 r j) := by
  rw [← Fin.sum_univ_eq_sum_range (fun i => colU V c j i * colU V c j i) 10000]
  exact Finset.sum_congr rfl fun r _ => by unfold colU; rw [dif_pos r.isLt]

/-- After every point the update's buffer holds the update formula of the point's operand blocks. -/
theorem inv7 (c : Dev nD) (t : Fin cfg1.N) : (outsAt1 V c t.val t.isLt).1 = Ub V c t := by
  by_cases h0 : t.val % 5 = 0
  · rw [outs_A V c t h0]; dsimp only
    exact pay4_eq (xb V c t) (ab V c t) (w2 V c t) (w3 V c t) (w4 V c t) (w5 V c t) (w6 V c t)
  · rw [outs_B V c t h0]; dsimp only
    exact pay4_eq (xb V c t) (ab V c t) (w2 V c t) (w3 V c t) (w4 V c t) (w5 V c t) (w6 V c t)

/-- After point `n` the running sum holds, in column `j`, the sum of the first `2000 (n + 1)` entries of the column. -/
theorem inv8 (c : Dev nD) (j : Fin 128) : ∀ (n : ℕ) (h : n < cfg1.N),
    (outsAt1 V c n h).2.1 (ix2 (0 : Fin 1) j) = ∑ i ∈ Finset.range (2000 * (n + 1)), colU V c j i
  | 0, h => by
    rw [outs_A V c ⟨0, h⟩ rfl]; dsimp only
    refine (pay5_apply (xb V c ⟨0, h⟩) (ab V c ⟨0, h⟩) (w2 V c ⟨0, h⟩) (w3 V c ⟨0, h⟩) (w4 V c ⟨0, h⟩) (w5 V c ⟨0, h⟩) (w6 V c ⟨0, h⟩)
      (k1_pay2 (F := Ideal)) 0 j).trans ?_
    rw [pay2_apply, zero_add]
    refine (blksum V c ⟨0, h⟩ j).trans ?_
    show ∑ i ∈ Finset.range 2000, colU V c j (2000 * 0 + i) = ∑ i ∈ Finset.range 2000, colU V c j i
    simp only [Nat.mul_zero, Nat.zero_add]
  | n + 1, h => by
    have hN : cfg1.N = 5 := N_1
    have hB : ¬(⟨n + 1, h⟩ : Fin cfg1.N).val % 5 = 0 := by dsimp only; omega
    rw [outs_B V c ⟨n + 1, h⟩ hB]; dsimp only
    refine (pay5_apply (xb V c ⟨n + 1, h⟩) (ab V c ⟨n + 1, h⟩) (w2 V c ⟨n + 1, h⟩) (w3 V c ⟨n + 1, h⟩) (w4 V c ⟨n + 1, h⟩)
      (w5 V c ⟨n + 1, h⟩) (w6 V c ⟨n + 1, h⟩) _ 0 j).trans ?_
    rw [show 2000 * (n + 1 + 1) = 2000 * (n + 1) + 2000 by ring, Finset.sum_range_add]
    exact congrArg₂ (· + ·) (inv8 c j n (Nat.lt_of_succ_lt h)) (blksum V c ⟨n + 1, h⟩ j)

/-- After point `n` the running sum of squares holds the sum of the squares of the same entries. -/
theorem inv9 (c : Dev nD) (j : Fin 128) : ∀ (n : ℕ) (h : n < cfg1.N),
    (outsAt1 V c n h).2.2 (ix2 (0 : Fin 1) j) = ∑ i ∈ Finset.range (2000 * (n + 1)), colU V c j i * colU V c j i
  | 0, h => by
    rw [outs_A V c ⟨0, h⟩ rfl]; dsimp only
    refine (pay1_apply _ (k1_pay3 (F := Ideal)) 0 j).trans ?_
    rw [pay3_apply, zero_add,
      pay4_eq (xb V c ⟨0, h⟩) (ab V c ⟨0, h⟩) (w2 V c ⟨0, h⟩) (w3 V c ⟨0, h⟩) (w4 V c ⟨0, h⟩) (w5 V c ⟨0, h⟩) (w6 V c ⟨0, h⟩)]
    refine (blksumsq V c ⟨0, h⟩ j).trans ?_
    show ∑ i ∈ Finset.range 2000, colU V c j (2000 * 0 + i) * colU V c j (2000 * 0 + i) = ∑ i ∈ Finset.range 2000, colU V c j i * colU V c j i
    simp only [Nat.mul_zero, Nat.zero_add]
  | n + 1, h => by
    have hN : cfg1.N = 5 := N_1
    have hB : ¬(⟨n + 1, h⟩ : Fin cfg1.N).val % 5 = 0 := by dsimp only; omega
    rw [outs_B V c ⟨n + 1, h⟩ hB]; dsimp only
    refine (pay1_apply _ _ 0 j).trans ?_
    rw [pay4_eq (xb V c ⟨n + 1, h⟩) (ab V c ⟨n + 1, h⟩) (w2 V c ⟨n + 1, h⟩) (w3 V c ⟨n + 1, h⟩) (w4 V c ⟨n + 1, h⟩)
      (w5 V c ⟨n + 1, h⟩) (w6 V c ⟨n + 1, h⟩)]
    rw [show 2000 * (n + 1 + 1) = 2000 * (n + 1) + 2000 by ring, Finset.sum_range_add]
    exact congrArg₂ (· + ·) (inv9 c j n (Nat.lt_of_succ_lt h)) (blksumsq V c ⟨n + 1, h⟩ j)

/-- After the last point the running sum is the column sums of the whole update, -/
theorem sum_last (c : Dev nD) : (outsAt1 V c t1_4.val t1_4.isLt).2.1 = Spec.colSum (U V c) := funext fun i => by
  obtain ⟨q, j, rfl⟩ : ∃ (q : Fin 1) (j : Fin 128), i = ix2 q j := ⟨i 0, i 1, eq_ix2 i⟩
  obtain rfl : q = 0 := Subsingleton.elim _ _
  refine (inv8 V c j 4 t1_4.isLt).trans ?_
  exact total V c j

/-- and the running sum of squares the column sums of its squares. -/
theorem sumsq_last (c : Dev nD) : (outsAt1 V c t1_4.val t1_4.isLt).2.2 = Spec.colSumSq (U V c) := funext fun i => by
  obtain ⟨q, j, rfl⟩ : ∃ (q : Fin 1) (j : Fin 128), i = ix2 q j := ⟨i 0, i 1, eq_ix2 i⟩
  obtain rfl : q = 0 := Subsingleton.elim _ _
  refine (inv9 V c j 4 t1_4.isLt).trans ?_
  exact totalsq V c j

end Sums

section Arrays

/-- WHAT POINT `t` WRITES BACK to the update array is block `t` of the update of the whole arrays. -/
theorem flushed7_eq (c : Dev nD) (t : Fin cfg1.N) :
    (dat1 (F := Ideal) V c).flushed 7 t = ((cfg1.win 7).blk t).view.read (Elt Ideal) (U V c) := by
  show (cfg1.win 7).cut (grid1.coords t) ((dat1 (F := Ideal) V c).after 7 t) = _
  rw [after1_7, inv7 V c t]
  obtain ⟨-, -, -, -, -, -, -, -, -, -, -, -, -, -, e0, e1, -⟩ := idx_facts t
  have hN : cfg1.N = 5 := N_1
  have ht := t.isLt
  funext y
  obtain ⟨r, j, rfl⟩ : ∃ (r : Fin 2000) (j : Fin 128), y = ix2 r j := ⟨y 0, y 1, eq_ix2 y⟩
  have hlt : 2000 * t.val + r.val < 10000 := by omega
  show Ub V c t (ix2 r j) = U V c (((cfg1.win 7).blk t).view.emb (ix2 r j))
  refine (Ub_apply V c t r j ⟨_, hlt⟩ rfl).trans ?_
  refine congrArg _ (funext fun a => Fin.ext ?_)
  match a with
  | ⟨0, _⟩ => show 2000 * t.val + r.val = win1_7.index t (0 : Fin 2) * 2000 + 1 * r.val; omega
  | ⟨1, _⟩ => show j.val = win1_7.index t (1 : Fin 2) * 128 + 1 * j.val; omega

/-- An index of the update array is in point `t`'s block iff each coordinate is in the block's range on its axis. -/
theorem mem_blk7 (t : Fin cfg1.N) (i : S10000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v19_0).slice (win1_7.rect t)).set ↔ _
  rw [View.set_slice_whole, Rect.mem_set_unit]
  exact Iff.rfl

/-- The update array after the stage. -/
theorem node_u (c : Dev nD) : (dat1 (F := Ideal) V c).arrAt 7 cfg1.N = U V c :=
  (dat1 (F := Ideal) V c).arrAt_eq_of_cover 7 (U V c) (fun t _ => flushed7_eq V c t) fun i => by
    have hi0 : (i 0).val < 10000 := (i 0).isLt
    have hi1 : (i 1).val < 128 := (i 1).isLt
    have hN : cfg1.N = 5 := N_1
    obtain ⟨-, -, -, -, -, -, -, -, -, -, -, -, -, -, e0, e1, -⟩ := idx_facts ⟨(i 0).val / 2000, by omega⟩
    refine ⟨⟨(i 0).val / 2000, by omega⟩, flush1_7 _, ?_⟩
    rw [mem_blk7]
    intro a
    match a with
    | ⟨0, _⟩ =>
      show win1_7.index ⟨(i 0).val / 2000, _⟩ (0 : Fin 2) * 2000 ≤ (i 0).val ∧ (i 0).val < win1_7.index ⟨(i 0).val / 2000, _⟩ (0 : Fin 2) * 2000 + 2000
      rw [e0]; dsimp only; omega
    | ⟨1, _⟩ =>
      show win1_7.index ⟨(i 0).val / 2000, _⟩ (1 : Fin 2) * 128 ≤ (i 1).val ∧ (i 1).val < win1_7.index ⟨(i 0).val / 2000, _⟩ (1 : Fin 2) * 128 + 128
      rw [e1]; omega

/-- The one write-back of the running sum, at the last point, writes the column sums of the update: its block is the whole
    one-row array. -/
theorem flushed8_eq (c : Dev nD) (t : Fin cfg1.N) (hf : (cfg1.win 8).flush t = true) :
    (dat1 (F := Ideal) V c).flushed 8 t = ((cfg1.win 8).blk t).view.read (Elt Ideal) (Spec.colSum (U V c)) := by
  have hN : cfg1.N = 5 := N_1
  have h4 : t.val = 4 := by have := (flush1_8 t).mp hf; have := t.isLt; omega
  obtain rfl : t = t1_4 := Fin.ext h4
  show (cfg1.win 8).cut (grid1.coords t1_4) ((dat1 (F := Ideal) V c).after 8 t1_4) = _
  rw [after1_8, sum_last V c]
  obtain ⟨-, -, -, -, -, -, -, -, -, -, -, -, -, -, -, -, e0, e1, -⟩ := idx_facts t1_4
  funext y
  show Spec.colSum (U V c) y = Spec.colSum (U V c) (((cfg1.win 8).blk t1_4).view.emb y)
  refine congrArg _ (funext fun a => Fin.ext ?_)
  match a with
  | ⟨0, _⟩ => show (y 0).val = win1_8.index t1_4 (0 : Fin 2) * 1 + 1 * (y 0).val; omega
  | ⟨1, _⟩ => show (y 1).val = win1_8.index t1_4 (1 : Fin 2) * 128 + 1 * (y 1).val; omega

theorem mem_blk8 (t : Fin cfg1.N) (i : S1x128.Idx) :
    i ∈ ((cfg1.win 8).blk t).view.set ↔ ∀ a : Fin 2, win1_8.index t a * S1x128.size a ≤ (i a).val ∧ (i a).val < win1_8.index t a * S1x128.size a + S1x128.size a := by
  show i ∈ ((View.whole main_v19_1).slice (win1_8.rect t)).set ↔ _
  rw [View.set_slice_whole, Rect.mem_set_unit]
  exact Iff.rfl

/-- The running sum after the stage: the column sums of the update. -/
theorem node_sum (c : Dev nD) : (dat1 (F := Ideal) V c).arrAt 8 cfg1.N = Spec.colSum (U V c) :=
  (dat1 (F := Ideal) V c).arrAt_eq_of_cover 8 (Spec.colSum (U V c)) (flushed8_eq V c) fun i => by
    have hi0 : (i 0).val < 1 := (i 0).isLt
    have hi1 : (i 1).val < 128 := (i 1).isLt
    obtain ⟨-, -, -, -, -, -, -, -, -, -, -, -, -, -, -, -, e0, e1, -⟩ := idx_facts t1_4
    refine ⟨t1_4, (flush1_8 t1_4).mpr rfl, ?_⟩
    rw [mem_blk8]
    intro a
    match a with
    | ⟨0, _⟩ => show win1_8.index t1_4 (0 : Fin 2) * 1 ≤ (i 0).val ∧ (i 0).val < win1_8.index t1_4 (0 : Fin 2) * 1 + 1; omega
    | ⟨1, _⟩ => show win1_8.index t1_4 (1 : Fin 2) * 128 ≤ (i 1).val ∧ (i 1).val < win1_8.index t1_4 (1 : Fin 2) * 128 + 128; omega

/-- The one write-back of the running sum of squares, at the last point, writes the column sums of the squared update. -/
theorem flushed9_eq (c : Dev nD) (t : Fin cfg1.N) (hf : (cfg1.win 9).flush t = true) :
    (dat1 (F := Ideal) V c).flushed 9 t = ((cfg1.win 9).blk t).view.read (Elt Ideal) (Spec.colSumSq (U V c)) := by
  have hN : cfg1.N = 5 := N_1
  have h4 : t.val = 4 := by have := (flush1_9 t).mp hf; have := t.isLt; omega
  obtain rfl : t = t1_4 := Fin.ext h4
  show (cfg1.win 9).cut (grid1.coords t1_4) ((dat1 (F := Ideal) V c).after 9 t1_4) = _
  rw [after1_9, sumsq_last V c]
  obtain ⟨-, -, -, -, -, -, -, -, -, -, -, -, -, -, -, -, -, -, e0, e1⟩ := idx_facts t1_4
  funext y
  show Spec.colSumSq (U V c) y = Spec.colSumSq (U V c) (((cfg1.win 9).blk t1_4).view.emb y)
  refine congrArg _ (funext fun a => Fin.ext ?_)
  match a with
  | ⟨0, _⟩ => show (y 0).val = win1_9.index t1_4 (0 : Fin 2) * 1 + 1 * (y 0).val; omega
  | ⟨1, _⟩ => show (y 1).val = win1_9.index t1_4 (1 : Fin 2) * 128 + 1 * (y 1).val; omega

theorem mem_blk9 (t : Fin cfg1.N) (i : S1x128.Idx) :
    i ∈ ((cfg1.win 9).blk t).view.set ↔ ∀ a : Fin 2, win1_9.index t a * S1x128.size a ≤ (i a).val ∧ (i a).val < win1_9.index t a * S1x128.size a + S1x128.size a := by
  show i ∈ ((View.whole main_v19_2).slice (win1_9.rect t)).set ↔ _
  rw [View.set_slice_whole, Rect.mem_set_unit]
  exact Iff.rfl

/-- The running sum of squares after the stage: the column sums of the squared update. -/
theorem node_sumsq (c : Dev nD) : (dat1 (F := Ideal) V c).arrAt 9 cfg1.N = Spec.colSumSq (U V c) :=
  (dat1 (F := Ideal) V c).arrAt_eq_of_cover 9 (Spec.colSumSq (U V c)) (flushed9_eq V c) fun i => by
    have hi0 : (i 0).val < 1 := (i 0).isLt
    have hi1 : (i 1).val < 128 := (i 1).isLt
    obtain ⟨-, -, -, -, -, -, -, -, -, -, -, -, -, -, -, -, -, -, e0, e1⟩ := idx_facts t1_4
    refine ⟨t1_4, (flush1_9 t1_4).mpr rfl, ?_⟩
    rw [mem_blk9]
    intro a
    match a with
    | ⟨0, _⟩ => show win1_9.index t1_4 (0 : Fin 2) * 1 ≤ (i 0).val ∧ (i 0).val < win1_9.index t1_4 (0 : Fin 2) * 1 + 1; omega
    | ⟨1, _⟩ => show win1_9.index t1_4 (1 : Fin 2) * 128 ≤ (i 1).val ∧ (i 1).val < win1_9.index t1_4 (1 : Fin 2) * 128 + 128; omega

end Arrays

end Cert.Proof.Node

end
-- ==== Proof.Bn.lean ====
/-
  The third dense stage read off its run: after its five grid points the result array holds the normalisation with
  residual of the node and update arrays, with the statistics and affine rows found at entry.
-/
import proofs.«410922_j44427141710551_1_alg».proof.Proof.Gen.KernelIdeal.Frame
import proofs.«410922_j44427141710551_1_alg».proof.Proof.Spec
import Idealize.ShloMosaic.Lib.Pipeline.Value

set_option maxRecDepth 16384

noncomputable section

namespace Cert.Proof.Bn

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open Cert.Proof

/-! ## The body's arithmetic at an index -/

/-- A one-row matrix broadcast over 2000 rows reads, at row `p` and column `q`, its entry at column `q`. -/
theorem bcast_row (v : Vec Ideal S1x128 .f32) (p : Fin 2000) (q : Fin 128) :
    broadcastTo S2000x128 v broadcasts_S1x128_S2000x128 (ix2 p q) = v (ix2 (0 : Fin 1) q) :=
  broadcastTo_apply v broadcasts_S1x128_S2000x128 (ix2 p q) (ix2 (0 : Fin 1) q)
    (fun a => by match a with | ⟨0, _⟩ => rfl | ⟨1, _⟩ => rfl)

/-- The body's stored value is the normalisation with residual of its six loaded blocks: the variance row plus the
    stabiliser under the reciprocal square root, each row broadcast down the 2000 rows, then the difference, the two
    products, the shift and the residual sum, entry by entry. -/
theorem pay_eq (var : Vec Ideal S1x128 .f32) (u : Vec Ideal S2000x128 .f32) (mean g b : Vec Ideal S1x128 .f32)
    (x : Vec Ideal S2000x128 .f32) :
    k2_pay1 (F := Ideal) var u mean g b x = Spec.bnOut (R := 2000) x u mean var g b := by
  funext i
  obtain ⟨p, q, rfl⟩ : ∃ (p : Fin 2000) (q : Fin 128), i = ix2 p q := ⟨i 0, i 1, eq_ix2 i⟩
  unfold k2_pay1 Spec.bnOut
  simp only [shapeCast_self]
  simp only [addf_apply, mulf_apply, subf_apply]
  rw [bcast_row mean p q, bcast_row g p q, bcast_row b p q, bcast_row _ p q]
  rfl

/-- The offsets of the body's whole-buffer accesses are zero on both axes. -/
theorem hz : (![0, 0] : Fin 2 → Nat) = fun _ => 0 := funext fun a => by fin_cases a <;> rfl

/-- What the body leaves in the result buffer: the normalisation with residual of the six input blocks. -/
theorem out_eq (x0 x1 : Vec Ideal S2000x128 .f32) (x2 x3 x4 x5 : Vec Ideal S1x128 .f32) :
    out2_6 (F := Ideal) x0 x1 x2 x3 x4 x5 = Spec.bnOut (R := 2000) x0 x1 x2 x3 x4 x5 := by
  unfold out2_6
  rw [View.canon_unit_zero hz]
  simp only [View.ld_unit_zero (S := S2000x128) hz, View.ld_unit_zero (S := S1x128) hz]
  exact pay_eq x3 x1 x2 x4 x5 x0

/-- The normalisation with residual reads only row `r` of the node and update matrices (and the four rows of
    statistics and affine parameters): two settings that agree there agree at `(r, q)`. -/
theorem bnOut_local {R R' : Nat} (x u : Spec.Mat R 128) (x' u' : Spec.Mat R' 128)
    (mean var g b mean' var' g' b' : Spec.Mat 1 128) (r : Fin R) (r' : Fin R') (q : Fin 128)
    (hx : x (ix2 r q) = x' (ix2 r' q)) (hu : u (ix2 r q) = u' (ix2 r' q))
    (hm : mean (ix2 (0 : Fin 1) q) = mean' (ix2 (0 : Fin 1) q)) (hv : var (ix2 (0 : Fin 1) q) = var' (ix2 (0 : Fin 1) q))
    (hg : g (ix2 (0 : Fin 1) q) = g' (ix2 (0 : Fin 1) q)) (hb : b (ix2 (0 : Fin 1) q) = b' (ix2 (0 : Fin 1) q)) :
    Spec.bnOut x u mean var g b (ix2 r q) = Spec.bnOut x' u' mean' var' g' b' (ix2 r' q) := by
  show x (ix2 r q) + (((u (ix2 r q) - mean (ix2 (0 : Fin 1) q)) * Ideal.rsqrt (var (ix2 (0 : Fin 1) q) + Spec.eps))
        * g (ix2 (0 : Fin 1) q) + b (ix2 (0 : Fin 1) q))
      = x' (ix2 r' q) + (((u' (ix2 r' q) - mean' (ix2 (0 : Fin 1) q)) * Ideal.rsqrt (var' (ix2 (0 : Fin 1) q) + Spec.eps))
        * g' (ix2 (0 : Fin 1) q) + b' (ix2 (0 : Fin 1) q))
  rw [hx, hu, hm, hv, hg, hb]

/-! ## From the blocks to the array -/

-- the buffers as the stage finds them
variable (V : (c : Dev nD) → (b : Ref sig .tc) → Buf (Elt Ideal) ((c : Thread nD τ).loc b))

/-- The windows' block indices over the five grid points: the node, update and result windows sit at block `(t, 0)`,
    the four row windows at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Every one of the five row blocks is some point's. -/
theorem idx_onto : ∀ q0 : Fin 5, ∃ t : Fin cfg2.N, t.val = q0.val :=
  (by decide +kernel : ∀ q0 : Fin 5, ∃ t : Fin grid2.N, t.val = q0.val)

/-- The node window's block at point `t`, read at `(p, q)`, is the node array at row `2000 t + p`, column `q`. -/
theorem blk_node (c : Dev nD) (t : Fin cfg2.N) (p : Fin 2000) (q : Fin 128) (i : S10000x128.Idx)
    (h0 : (i 0).val = t.val * 2000 + p.val) (h1 : (i 1).val = q.val) :
    (iblk2 (F := Ideal) V c 0 t : Vec Ideal S2000x128 .f32) (ix2 p q) = (V c main_arg0 : Vec Ideal S10000x128 .f32) i := by
  have e := idx_facts t
  show V c main_arg0 (((cfg2.win 0).blk t).view.emb (ix2 p q)) = V c main_arg0 i
  refine congrArg _ (funext fun a => Fin.ext ?_)
  match a with
  | ⟨0, _⟩ => show win2_0.index t (0 : Fin 2) * 2000 + 1 * p.val = (i 0).val; omega
  | ⟨1, _⟩ => show win2_0.index t (1 : Fin 2) * 128 + 1 * q.val = (i 1).val; omega

/-- The update window's block at point `t`, read at `(p, q)`, is the update array at row `2000 t + p`, column `q`. -/
theorem blk_upd (c : Dev nD) (t : Fin cfg2.N) (p : Fin 2000) (q : Fin 128) (i : S10000x128.Idx)
    (h0 : (i 0).val = t.val * 2000 + p.val) (h1 : (i 1).val = q.val) :
    (iblk2 (F := Ideal) V c 1 t : Vec Ideal S2000x128 .f32) (ix2 p q) = (V c main_v19_0 : Vec Ideal S10000x128 .f32) i := by
  have e := idx_facts t
  show V c main_v19_0 (((cfg2.win 1).blk t).view.emb (ix2 p q)) = V c main_v19_0 i
  refine congrArg _ (funext fun a => Fin.ext ?_)
  match a with
  | ⟨0, _⟩ => show win2_1.index t (0 : Fin 2) * 2000 + 1 * p.val = (i 0).val; omega
  | ⟨1, _⟩ => show win2_1.index t (1 : Fin 2) * 128 + 1 * q.val = (i 1).val; omega

/-- The mean window's block at every point is the whole mean row. -/
theorem blk_mean (c : Dev nD) (t : Fin cfg2.N) (q : Fin 128) :
    (iblk2 (F := Ideal) V c 2 t : Vec Ideal S1x128 .f32) (ix2 (0 : Fin 1) q) = (V c main_v28 : Vec Ideal S1x128 .f32) (ix2 (0 : Fin 1) q) := by
  have e := idx_facts t
  show V c main_v28 (((cfg2.win 2).blk t).view.emb (ix2 (0 : Fin 1) q)) = V c main_v28 (ix2 (0 : Fin 1) q)
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-- The variance window's block at every point is the whole variance row. -/
theorem blk_var (c : Dev nD) (t : Fin cfg2.N) (q : Fin 128) :
    (iblk2 (F := Ideal) V c 3 t : Vec Ideal S1x128 .f32) (ix2 (0 : Fin 1) q) = (V c main_v29 : Vec Ideal S1x128 .f32) (ix2 (0 : Fin 1) q) := by
  have e := idx_facts t
  show V c main_v29 (((cfg2.win 3).blk t).view.emb (ix2 (0 : Fin 1) q)) = V c main_v29 (ix2 (0 : Fin 1) q)
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- The scale window's block at every point is the whole scale row. -/
theorem blk_gamma (c : Dev nD) (t : Fin cfg2.N) (q : Fin 128) :
    (iblk2 (F := Ideal) V c 4 t : Vec Ideal S1x128 .f32) (ix2 (0 : Fin 1) q) = (V c main_v30 : Vec Ideal S1x128 .f32) (ix2 (0 : Fin 1) q) := by
  have e := idx_facts t
  show V c main_v30 (((cfg2.win 4).blk t).view.emb (ix2 (0 : Fin 1) q)) = V c main_v30 (ix2 (0 : Fin 1) q)
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- The shift window's block at every point is the whole shift row. -/
theorem blk_beta (c : Dev nD) (t : Fin cfg2.N) (q : Fin 128) :
    (iblk2 (F := Ideal) V c 5 t : Vec Ideal S1x128 .f32) (ix2 (0 : Fin 1) q) = (V c main_v31 : Vec Ideal S1x128 .f32) (ix2 (0 : Fin 1) q) := by
  have e := idx_facts t
  show V c main_v31 (((cfg2.win 5).blk t).view.emb (ix2 (0 : Fin 1) q)) = V c main_v31 (ix2 (0 : Fin 1) q)
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

/-- Point `t`'s result block sits at rows `2000 t …` of the result array: its entry `j` is the array's entry at row
    `2000 t + j₀`, column `j₁`. -/
theorem emb_out (t : Fin cfg2.N) (j : S2000x128.Idx) (r : Fin 10000) (hr : r.val = t.val * 2000 + (j 0).val) :
    ((cfg2.win 6).blk t).view.emb j = (ix2 r (j 1) : S10000x128.Idx) := by
  have e := idx_facts t
  funext a; apply Fin.ext
  match a with
  | ⟨0, _⟩ => show win2_6.index t (0 : Fin 2) * 2000 + 1 * (j 0).val = r.val; omega
  | ⟨1, _⟩ => show win2_6.index t (1 : Fin 2) * 128 + 1 * (j 1).val = (j 1).val; omega

/-- What point `t` writes back is block `t` of the normalisation with residual of the whole operand arrays. -/
theorem flushed_eq (c : Dev nD) (t : Fin cfg2.N) :
    (dat2 (F := Ideal) V c).flushed 6 t
      = ((cfg2.win 6).blk t).view.read (Elt Ideal)
          (Spec.bnOut (R := 10000) (V c main_arg0) (V c main_v19_0) (V c main_v28) (V c main_v29) (V c main_v30) (V c main_v31)) := by
  show (cfg2.win 6).cut (grid2.coords t) ((dat2 V c).after 6 t) = _
  rw [after2_6, out_eq]
  funext j
  have ht : t.val < 5 := lt_of_lt_of_eq t.isLt N_2
  have hp : (j 0).val < 2000 := (j 0).isLt
  have hr : t.val * 2000 + (j 0).val < 10000 := by omega
  show Spec.bnOut (R := 2000) (iblk2 V c 0 t) (iblk2 V c 1 t) (iblk2 V c 2 t) (iblk2 V c 3 t) (iblk2 V c 4 t) (iblk2 V c 5 t) (ix2 (j 0) (j 1))
      = (Spec.bnOut (R := 10000) (V c main_arg0) (V c main_v19_0) (V c main_v28) (V c main_v29) (V c main_v30) (V c main_v31)) (((cfg2.win 6).blk t).view.emb j)
  rw [emb_out t j ⟨t.val * 2000 + (j 0).val, hr⟩ rfl]
  exact bnOut_local _ _ _ _ _ _ _ _ _ _ _ _ (j 0) ⟨t.val * 2000 + (j 0).val, hr⟩ (j 1)
    (blk_node V c t (j 0) (j 1) _ rfl rfl) (blk_upd V c t (j 0) (j 1) _ rfl rfl)
    (blk_mean V c t (j 1)) (blk_var V c t (j 1)) (blk_gamma V c t (j 1)) (blk_beta V c t (j 1))

/-- An index of the result array is in point `t`'s block iff each coordinate is in the block's range on its axis. -/
theorem mem_blk (t : Fin cfg2.N) (i : S10000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v32).slice (win2_6.rect t)).set ↔ _
  rw [View.set_slice_whole, Rect.mem_set_unit]
  exact Iff.rfl

/-- The five blocks of 2000 rows fill the 10000 rows: row `r` is in the block of point `r / 2000`. -/
theorem cover (i : S10000x128.Idx) :
    ∃ t : Fin cfg2.N, (cfg2.win 6).flush t = true ∧ i ∈ ((cfg2.win 6).blk t).view.set := by
  have hi0 : (i 0).val < 10000 := (i 0).isLt
  have hi1 : (i 1).val < 128 := (i 1).isLt
  obtain ⟨t, ht⟩ := idx_onto ⟨(i 0).val / 2000, by omega⟩
  have ht' : t.val = (i 0).val / 2000 := ht
  have e := idx_facts t
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The result array after the stage: `Spec.bnOut` of the whole operand arrays. -/
theorem bn_final (c : Dev nD) :
    (dat2 (F := Ideal) V c).arrAt 6 cfg2.N
      = Spec.bnOut (R := 10000) (V c main_arg0) (V c main_v19_0) (V c main_v28) (V c main_v29) (V c main_v30) (V c main_v31) :=
  (dat2 (F := Ideal) V c).arrAt_eq_of_cover 6 _ (fun t _ => flushed_eq V c t) cover

end Cert.Proof.Bn

end
-- ==== Proof.KChain.lean ====
/-
  The kernel program's result array as one function of its arguments: the contents at the last segment boundary, read
  back through the three dense stages (by their value lemmas) and the host stretches between them (each buffer at the
  term of the operations that wrote it, every buffer nobody wrote at what it held before).
-/
import proofs.«410922_j44427141710551_1_alg».proof.Proof.Gen.KernelIdeal.Frame
import proofs.«410922_j44427141710551_1_alg».proof.Proof.Spec
import proofs.«410922_j44427141710551_1_alg».proof.Proof.KFn
import proofs.«410922_j44427141710551_1_alg».proof.Proof.Edge
import proofs.«410922_j44427141710551_1_alg».proof.Proof.Node
import proofs.«410922_j44427141710551_1_alg».proof.Proof.Bn

set_option maxRecDepth 16384

noncomputable section

namespace Cert.Proof.KChain

open Idealize.ShloMosaic Idealize.ShloMosaic.TcCoe Idealize.SL.Sem
open Cert.KernelIdeal Cert.KernelIdeal.Gen
open Cert.Proof

variable (m : (ℓ : Loc nD τ sig) → Buf (Elt Ideal) ℓ) (ρ : Dev nD → PrngReg)

/-! ## The host stretches, at any contents

Each stretch is a straight line of host operations. A buffer it does not write keeps its contents; a buffer it
writes holds the term of the operations that made it, read at the contents the stretch found. -/

section Stretch

variable {F : FTy → Type} [FloatOps F] (Vp : Valuation τ sig (Elt F))

/-- Every operation of the stretch writes only references of the given list. -/
local macro "writes_sub" : tactic => `(tactic| (
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes,
      Finset.singleton_subset_iff, List.mem_toFinset]
    exact List.mem_map_of_mem (by decide)))

/-- The references each stretch writes. -/
abbrev ops0_W : List (Ref sig .tc) := [main_v0, main_v1, main_v2, main_v3]
abbrev ops0_1_W : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v4]
abbrev ops0_2_W : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v5]
abbrev ops0_3_W : List (Ref sig .tc) := [main_v6, main_v7, main_v8, main_v9, main_v10]
abbrev ops1_W : List (Ref sig .tc) := [main_cst, main_v12, main_v13, main_v14, main_v15, main_v16, main_v17, main_v18]
abbrev ops2_W : List (Ref sig .tc) :=
  [main_v20, main_cst_0, main_v21, main_v22, main_v23, main_cst_1, main_v24, main_v25, main_v26, main_v27, main_v28,
   main_v29, main_v30, main_v31]

theorem ops0_writes : (hostOps0 : List (HloOp τ sig (Elt F))).Forall fun op =>
    op.writes ⊆ (ops0_W.map (Proc.devRef (τ := τ) .tc)).toFinset := by writes_sub
theorem ops0_1_writes : (hostOps0_1 : List (HloOp τ sig (Elt F))).Forall fun op =>
    op.writes ⊆ (ops0_1_W.map (Proc.devRef (τ := τ) .tc)).toFinset := by writes_sub
theorem ops0_2_writes : (hostOps0_2 : List (HloOp τ sig (Elt F))).Forall fun op =>
    op.writes ⊆ (ops0_2_W.map (Proc.devRef (τ := τ) .tc)).toFinset := by writes_sub
theorem ops0_3_writes : (hostOps0_3 : List (HloOp τ sig (Elt F))).Forall fun op =>
    op.writes ⊆ (ops0_3_W.map (Proc.devRef (τ := τ) .tc)).toFinset := by writes_sub
theorem ops1_writes : (hostOps1 : List (HloOp τ sig (Elt F))).Forall fun op =>
    op.writes ⊆ (ops1_W.map (Proc.devRef (τ := τ) .tc)).toFinset := by writes_sub
theorem ops2_writes : (hostOps2 : List (HloOp τ sig (Elt F))).Forall fun op =>
    op.writes ⊆ (ops2_W.map (Proc.devRef (τ := τ) .tc)).toFinset := by writes_sub

/-- The two index rows: slices of the edge table, flattened. -/
theorem ops0_v1 : (StableHlo.after (hostOps0 (F := F)) Vp (Proc.devRef .tc main_v1) : IVec S320000 32)
    = KFn.idxRow0 (Vp (Proc.devRef .tc main_arg12)) := by
  after_results
  rfl
theorem ops0_v3 : (StableHlo.after (hostOps0 (F := F)) Vp (Proc.devRef .tc main_v3) : IVec S320000 32)
    = KFn.idxRow1 (Vp (Proc.devRef .tc main_arg12)) := by
  after_results
  rfl

/-- The two takes: node rows gathered at the wrapped index, the fill value where the index leaves the table. -/
theorem ops0_1_v4 : (StableHlo.after (hostOps0_1 (F := F)) Vp (Proc.devRef .tc main_v4) : FVec F S320000x128 .f32)
    = KFn.takeRows (F := F) (Vp (Proc.devRef .tc main_arg0)) (Vp (Proc.devRef .tc main_v1)) := by
  after_results_simp
  simp only [StableHlo.TRef.ofBuf, StableHlo.TRef.toBuf, cast_eq]
  rfl
theorem ops0_2_v5 : (StableHlo.after (hostOps0_2 (F := F)) Vp (Proc.devRef .tc main_v5) : FVec F S320000x128 .f32)
    = KFn.takeRows (F := F) (Vp (Proc.devRef .tc main_arg0)) (Vp (Proc.devRef .tc main_v3)) := by
  after_results_simp
  simp only [StableHlo.TRef.ofBuf, StableHlo.TRef.toBuf, cast_eq]
  rfl

/-- The row blocks of the first edge weight matrix and the two edge biases as one-row matrices. -/
theorem ops0_3_v6 : (StableHlo.after (hostOps0_3 (F := F)) Vp (Proc.devRef .tc main_v6) : FVec F S128x128 .f32)
    = KFn.We1s (F := F) (Vp (Proc.devRef .tc main_arg2)) := by
  after_results
  rfl
theorem ops0_3_v7 : (StableHlo.after (hostOps0_3 (F := F)) Vp (Proc.devRef .tc main_v7) : FVec F S128x128 .f32)
    = KFn.We1d (F := F) (Vp (Proc.devRef .tc main_arg2)) := by
  after_results
  rfl
theorem ops0_3_v8 : (StableHlo.after (hostOps0_3 (F := F)) Vp (Proc.devRef .tc main_v8) : FVec F S64x128 .f32)
    = KFn.We1e (F := F) (Vp (Proc.devRef .tc main_arg2)) := by
  after_results
  rfl
theorem ops0_3_v9 : (StableHlo.after (hostOps0_3 (F := F)) Vp (Proc.devRef .tc main_v9) : FVec F S1x128 .f32)
    = KFn.row (F := F) (Vp (Proc.devRef .tc main_arg3)) := by
  after_results
  rfl
theorem ops0_3_v10 : (StableHlo.after (hostOps0_3 (F := F)) Vp (Proc.devRef .tc main_v10) : FVec F S1x128 .f32)
    = KFn.row (F := F) (Vp (Proc.devRef .tc main_arg5)) := by
  after_results
  rfl

/-- The aggregate, the row blocks of the first node weight matrix and the two node biases as one-row matrices. -/
theorem ops1_v14 : (StableHlo.after (hostOps1 (F := F)) Vp (Proc.devRef .tc main_v14) : FVec F S10000x128 .f32)
    = KFn.scatterMsg (F := F) (Vp (Proc.devRef .tc main_v3)) (Vp (Proc.devRef .tc main_v11)) := by
  after_results
  rfl
theorem ops1_v15 : (StableHlo.after (hostOps1 (F := F)) Vp (Proc.devRef .tc main_v15) : FVec F S128x128 .f32)
    = KFn.Wn1n (F := F) (Vp (Proc.devRef .tc main_arg6)) := by
  after_results
  rfl
theorem ops1_v16 : (StableHlo.after (hostOps1 (F := F)) Vp (Proc.devRef .tc main_v16) : FVec F S128x128 .f32)
    = KFn.Wn1a (F := F) (Vp (Proc.devRef .tc main_arg6)) := by
  after_results
  rfl
theorem ops1_v17 : (StableHlo.after (hostOps1 (F := F)) Vp (Proc.devRef .tc main_v17) : FVec F S1x128 .f32)
    = KFn.row (F := F) (Vp (Proc.devRef .tc main_arg7)) := by
  after_results
  rfl
theorem ops1_v18 : (StableHlo.after (hostOps1 (F := F)) Vp (Proc.devRef .tc main_v18) : FVec F S1x128 .f32)
    = KFn.row (F := F) (Vp (Proc.devRef .tc main_arg9)) := by
  after_results
  rfl

/-- The batch statistics from the two accumulators, and the affine parameters, as one-row matrices. -/
theorem ops2_v28 : (StableHlo.after (hostOps2 (F := F)) Vp (Proc.devRef .tc main_v28) : FVec F S1x128 .f32)
    = KFn.row (F := F) (KFn.kMean (Vp (Proc.devRef .tc main_v19_1))) := by
  after_results
  rfl
theorem ops2_v29 : (StableHlo.after (hostOps2 (F := F)) Vp (Proc.devRef .tc main_v29) : FVec F S1x128 .f32)
    = KFn.row (F := F) (KFn.kVar (Vp (Proc.devRef .tc main_v19_1)) (Vp (Proc.devRef .tc main_v19_2))) := by
  after_results
  rfl
theorem ops2_v30 : (StableHlo.after (hostOps2 (F := F)) Vp (Proc.devRef .tc main_v30) : FVec F S1x128 .f32)
    = KFn.row (F := F) (Vp (Proc.devRef .tc main_arg10)) := by
  after_results
  rfl
theorem ops2_v31 : (StableHlo.after (hostOps2 (F := F)) Vp (Proc.devRef .tc main_v31) : FVec F S1x128 .f32)
    = KFn.row (F := F) (Vp (Proc.devRef .tc main_arg11)) := by
  after_results
  rfl

end Stretch

/-! ## The fold, boundary by boundary, at the ideal instance -/

section Fold

variable (c : Dev nD)

/-- What the launch memory holds at a TensorCore reference of device `c`. -/
abbrev L0 (r : Ref sig .tc) : Buf (Elt Ideal) ((c.tc : Thread nD τ).loc r) := m ((c.tc : Thread nD τ).loc r)

theorem W0_eq (r : Ref sig .tc) : W0 (F := Ideal) m ρ c (Proc.devRef .tc r) = L0 m c r := rfl

/-! ### A buffer a stretch does not write, through that stretch -/

theorem W1_of (r : Ref sig .tc) (h : r ∉ ops0_W := by decide) :
    W1 (F := Ideal) m ρ c (Proc.devRef .tc r) = W0 (F := Ideal) m ρ c (Proc.devRef .tc r) :=
  StableHlo.after_of_writes_sub _ _ ops0_writes h
theorem W2_of (r : Ref sig .tc) (h : r ∉ ops0_1_W := by decide) :
    W2 (F := Ideal) m ρ c (Proc.devRef .tc r) = W1 (F := Ideal) m ρ c (Proc.devRef .tc r) :=
  StableHlo.after_of_writes_sub _ _ ops0_1_writes h
theorem W3_of (r : Ref sig .tc) (h : r ∉ ops0_2_W := by decide) :
    W3 (F := Ideal) m ρ c (Proc.devRef .tc r) = W2 (F := Ideal) m ρ c (Proc.devRef .tc r) :=
  StableHlo.after_of_writes_sub _ _ ops0_2_writes h
theorem W4_of (r : Ref sig .tc) (h : r ∉ ops0_3_W := by decide) :
    W4 (F := Ideal) m ρ c (Proc.devRef .tc r) = W3 (F := Ideal) m ρ c (Proc.devRef .tc r) :=
  StableHlo.after_of_writes_sub _ _ ops0_3_writes h
theorem W6_of (r : Ref sig .tc) (h : r ∉ ops1_W := by decide) :
    W6 (F := Ideal) m ρ c (Proc.devRef .tc r) = W5 (F := Ideal) m ρ c (Proc.devRef .tc r) :=
  StableHlo.after_of_writes_sub _ _ ops1_writes h
theorem W8_of (r : Ref sig .tc) (h : r ∉ ops2_W := by decide) :
    W8 (F := Ideal) m ρ c (Proc.devRef .tc r) = W7 (F := Ideal) m ρ c (Proc.devRef .tc r) :=
  StableHlo.after_of_writes_sub _ _ ops2_writes h

/-! ### A buffer nobody has written yet holds its launch contents -/

theorem W1_arg (r : Ref sig .tc) (h1 : r ∉ ops0_W := by decide) :
    W1 (F := Ideal) m ρ c (Proc.devRef .tc r) = L0 m c r := W1_of m ρ c r h1
theorem W2_arg (r : Ref sig .tc) (h1 : r ∉ ops0_W := by decide) (h2 : r ∉ ops0_1_W := by decide) :
    W2 (F := Ideal) m ρ c (Proc.devRef .tc r) = L0 m c r := (W2_of m ρ c r h2).trans (W1_arg m ρ c r h1)
theorem W3_arg (r : Ref sig .tc) (h1 : r ∉ ops0_W := by decide) (h2 : r ∉ ops0_1_W := by decide)
    (h3 : r ∉ ops0_2_W := by decide) :
    W3 (F := Ideal) m ρ c (Proc.devRef .tc r) = L0 m c r := (W3_of m ρ c r h3).trans (W2_arg m ρ c r h1 h2)
theorem W4_arg (r : Ref sig .tc) (h1 : r ∉ ops0_W := by decide) (h2 : r ∉ ops0_1_W := by decide)
    (h3 : r ∉ ops0_2_W := by decide) (h4 : r ∉ ops0_3_W := by decide) :
    W4 (F := Ideal) m ρ c (Proc.devRef .tc r) = L0 m c r := (W4_of m ρ c r h4).trans (W3_arg m ρ c r h1 h2 h3)
theorem W5_arg (r : Ref sig .tc) (h1 : r ∉ ops0_W := by decide) (h2 : r ∉ ops0_1_W := by decide)
    (h3 : r ∉ ops0_2_W := by decide) (h4 : r ∉ ops0_3_W := by decide)
    (h5 : ∀ w, Pipeline.arrRef spec0 w ≠ r := by decide) :
    W5 (F := Ideal) m ρ c (Proc.devRef .tc r) = L0 m c r :=
  (W5_of_ne m ρ c r h5).trans (W4_arg m ρ c r h1 h2 h3 h4)
theorem W6_arg (r : Ref sig .tc) (h1 : r ∉ ops0_W := by decide) (h2 : r ∉ ops0_1_W := by decide)
    (h3 : r ∉ ops0_2_W := by decide) (h4 : r ∉ ops0_3_W := by decide)
    (h5 : ∀ w, Pipeline.arrRef spec0 w ≠ r := by decide) (h6 : r ∉ ops1_W := by decide) :
    W6 (F := Ideal) m ρ c (Proc.devRef .tc r) = L0 m c r :=
  (W6_of m ρ c r h6).trans (W5_arg m ρ c r h1 h2 h3 h4 h5)
theorem W7_arg (r : Ref sig .tc) (h1 : r ∉ ops0_W := by decide) (h2 : r ∉ ops0_1_W := by decide)
    (h3 : r ∉ ops0_2_W := by decide) (h4 : r ∉ ops0_3_W := by decide)
    (h5 : ∀ w, Pipeline.arrRef spec0 w ≠ r := by decide) (h6 : r ∉ ops1_W := by decide)
    (h7 : ∀ w, Pipeline.arrRef spec1 w ≠ r := by decide) :
    W7 (F := Ideal) m ρ c (Proc.devRef .tc r) = L0 m c r :=
  (W7_of_ne m ρ c r h7).trans (W6_arg m ρ c r h1 h2 h3 h4 h5 h6)

/-! ### The two index rows -/

theorem W1_v1 : (W1 (F := Ideal) m ρ c (Proc.devRef .tc main_v1) : IVec S320000 32) = KFn.idxRow0 (L0 m c main_arg12) :=
  ops0_v1 (W0 (F := Ideal) m ρ c)
theorem W1_v3 : (W1 (F := Ideal) m ρ c (Proc.devRef .tc main_v3) : IVec S320000 32) = KFn.idxRow1 (L0 m c main_arg12) :=
  ops0_v3 (W0 (F := Ideal) m ρ c)
theorem W2_v3 : (W2 (F := Ideal) m ρ c (Proc.devRef .tc main_v3) : IVec S320000 32) = KFn.idxRow1 (L0 m c main_arg12) :=
  (W2_of m ρ c main_v3).trans (W1_v3 m ρ c)
theorem W5_v3 : (W5 (F := Ideal) m ρ c (Proc.devRef .tc main_v3) : IVec S320000 32) = KFn.idxRow1 (L0 m c main_arg12) :=
  (W5_of_ne m ρ c main_v3 (by decide)).trans ((W4_of m ρ c main_v3).trans ((W3_of m ρ c main_v3).trans (W2_v3 m ρ c)))

end Fold

section Entry

variable (c : Dev nD)

/-! ### What the first dense stage finds -/

theorem V4_v4 : (V4 (F := Ideal) m ρ c main_v4 : FVec Ideal S320000x128 .f32)
    = KFn.takeRows (F := Ideal) (L0 m c main_arg0) (KFn.idxRow0 (L0 m c main_arg12)) := by
  refine (W4_of m ρ c main_v4).trans ((W3_of m ρ c main_v4).trans ((ops0_1_v4 (W1 (F := Ideal) m ρ c)).trans ?_))
  rw [W1_arg m ρ c main_arg0, W1_v1 m ρ c]
theorem V4_v5 : (V4 (F := Ideal) m ρ c main_v5 : FVec Ideal S320000x128 .f32)
    = KFn.takeRows (F := Ideal) (L0 m c main_arg0) (KFn.idxRow1 (L0 m c main_arg12)) := by
  refine (W4_of m ρ c main_v5).trans ((ops0_2_v5 (W2 (F := Ideal) m ρ c)).trans ?_)
  rw [W2_arg m ρ c main_arg0, W2_v3 m ρ c]
theorem V4_arg1 : V4 (F := Ideal) m ρ c main_arg1 = L0 m c main_arg1 := W4_arg m ρ c main_arg1
theorem V4_arg4 : V4 (F := Ideal) m ρ c main_arg4 = L0 m c main_arg4 := W4_arg m ρ c main_arg4
theorem V4_v6 : (V4 (F := Ideal) m ρ c main_v6 : FVec Ideal S128x128 .f32) = KFn.We1s (F := Ideal) (L0 m c main_arg2) := by
  refine (ops0_3_v6 (W3 (F := Ideal) m ρ c)).trans ?_
  rw [W3_arg m ρ c main_arg2]
theorem V4_v7 : (V4 (F := Ideal) m ρ c main_v7 : FVec Ideal S128x128 .f32) = KFn.We1d (F := Ideal) (L0 m c main_arg2) := by
  refine (ops0_3_v7 (W3 (F := Ideal) m ρ c)).trans ?_
  rw [W3_arg m ρ c main_arg2]
theorem V4_v8 : (V4 (F := Ideal) m ρ c main_v8 : FVec Ideal S64x128 .f32) = KFn.We1e (F := Ideal) (L0 m c main_arg2) := by
  refine (ops0_3_v8 (W3 (F := Ideal) m ρ c)).trans ?_
  rw [W3_arg m ρ c main_arg2]
theorem V4_v9 : (V4 (F := Ideal) m ρ c main_v9 : FVec Ideal S1x128 .f32) = KFn.row (F := Ideal) (L0 m c main_arg3) := by
  refine (ops0_3_v9 (W3 (F := Ideal) m ρ c)).trans ?_
  rw [W3_arg m ρ c main_arg3]
theorem V4_v10 : (V4 (F := Ideal) m ρ c main_v10 : FVec Ideal S1x128 .f32) = KFn.row (F := Ideal) (L0 m c main_arg5) := by
  refine (ops0_3_v10 (W3 (F := Ideal) m ρ c)).trans ?_
  rw [W3_arg m ρ c main_arg5]

/-- The message array after the first dense stage. -/
theorem W5_v11 : (W5 (F := Ideal) m ρ c (Proc.devRef .tc main_v11) : FVec Ideal S320000x128 .f32)
    = KFn.kMsg (L0 m c main_arg0) (L0 m c main_arg1) (L0 m c main_arg2) (L0 m c main_arg3) (L0 m c main_arg4)
        (L0 m c main_arg5) (L0 m c main_arg12) := by
  refine (W5_arr m ρ c 9).trans ((Edge.edge_final (V4 (F := Ideal) m ρ) c).trans ?_)
  rw [V4_v4 m ρ c, V4_v5 m ρ c, V4_arg1 m ρ c, V4_v6 m ρ c, V4_v7 m ρ c, V4_v8 m ρ c, V4_v9 m ρ c, V4_arg4 m ρ c,
    V4_v10 m ρ c]
  rfl

end Entry

section Exit

variable (c : Dev nD)

/-- The node updates before normalisation, of the launch contents. -/
abbrev kU0 : FVec Ideal S10000x128 .f32 :=
  KFn.kU (L0 m c main_arg0) (L0 m c main_arg1) (L0 m c main_arg2) (L0 m c main_arg3) (L0 m c main_arg4)
    (L0 m c main_arg5) (L0 m c main_arg6) (L0 m c main_arg7) (L0 m c main_arg8) (L0 m c main_arg9) (L0 m c main_arg12)

/-! ### What the second dense stage finds -/

theorem V6_arg0 : V6 (F := Ideal) m ρ c main_arg0 = L0 m c main_arg0 := W6_arg m ρ c main_arg0
theorem V6_arg8 : V6 (F := Ideal) m ρ c main_arg8 = L0 m c main_arg8 := W6_arg m ρ c main_arg8
theorem V6_v14 : (V6 (F := Ideal) m ρ c main_v14 : FVec Ideal S10000x128 .f32)
    = KFn.scatterMsg (F := Ideal) (KFn.idxRow1 (L0 m c main_arg12))
        (KFn.kMsg (L0 m c main_arg0) (L0 m c main_arg1) (L0 m c main_arg2) (L0 m c main_arg3) (L0 m c main_arg4)
          (L0 m c main_arg5) (L0 m c main_arg12)) := by
  refine (ops1_v14 (W5 (F := Ideal) m ρ c)).trans ?_
  rw [W5_v3 m ρ c, W5_v11 m ρ c]
theorem V6_v15 : (V6 (F := Ideal) m ρ c main_v15 : FVec Ideal S128x128 .f32) = KFn.Wn1n (F := Ideal) (L0 m c main_arg6) := by
  refine (ops1_v15 (W5 (F := Ideal) m ρ c)).trans ?_
  rw [W5_arg m ρ c main_arg6]
theorem V6_v16 : (V6 (F := Ideal) m ρ c main_v16 : FVec Ideal S128x128 .f32) = KFn.Wn1a (F := Ideal) (L0 m c main_arg6) := by
  refine (ops1_v16 (W5 (F := Ideal) m ρ c)).trans ?_
  rw [W5_arg m ρ c main_arg6]
theorem V6_v17 : (V6 (F := Ideal) m ρ c main_v17 : FVec Ideal S1x128 .f32) = KFn.row (F := Ideal) (L0 m c main_arg7) := by
  refine (ops1_v17 (W5 (F := Ideal) m ρ c)).trans ?_
  rw [W5_arg m ρ c main_arg7]
theorem V6_v18 : (V6 (F := Ideal) m ρ c main_v18 : FVec Ideal S1x128 .f32) = KFn.row (F := Ideal) (L0 m c main_arg9) := by
  refine (ops1_v18 (W5 (F := Ideal) m ρ c)).trans ?_
  rw [W5_arg m ρ c main_arg9]

/-- The update the second dense stage computes is that of the launch contents. -/
theorem U6_eq : Node.U (V6 (F := Ideal) m ρ) c = kU0 m c := by
  unfold Node.U
  rw [V6_arg0 m ρ c, V6_v14 m ρ c, V6_v15 m ρ c, V6_v16 m ρ c, V6_v17 m ρ c, V6_arg8 m ρ c, V6_v18 m ρ c]
  rfl

/-- The three arrays the second dense stage leaves. -/
theorem W7_v19_0 : (W7 (F := Ideal) m ρ c (Proc.devRef .tc main_v19_0) : FVec Ideal S10000x128 .f32) = kU0 m c :=
  (W7_arr m ρ c 7).trans ((Node.node_u (V6 (F := Ideal) m ρ) c).trans (U6_eq m ρ c))
theorem W7_v19_1 : (W7 (F := Ideal) m ρ c (Proc.devRef .tc main_v19_1) : FVec Ideal S1x128 .f32) = Spec.colSum (kU0 m c) :=
  (W7_arr m ρ c 8).trans ((Node.node_sum (V6 (F := Ideal) m ρ) c).trans (congrArg Spec.colSum (U6_eq m ρ c)))
theorem W7_v19_2 : (W7 (F := Ideal) m ρ c (Proc.devRef .tc main_v19_2) : FVec Ideal S1x128 .f32) = Spec.colSumSq (kU0 m c) :=
  (W7_arr m ρ c 9).trans ((Node.node_sumsq (V6 (F := Ideal) m ρ) c).trans (congrArg Spec.colSumSq (U6_eq m ρ c)))

/-! ### What the third dense stage finds -/

/-- The node array is an input window of the second dense stage, which leaves it as found. -/
theorem V8_arg0 : V8 (F := Ideal) m ρ c main_arg0 = L0 m c main_arg0 :=
  (W8_of m ρ c main_arg0).trans
    (((W7_arr m ρ c 0).trans (((dat1 (V6 (F := Ideal) m ρ) c).arrAt_in 0 rfl _).trans (A_eq1 (V6 (F := Ideal) m ρ) c 0))).trans
      (V6_arg0 m ρ c))
theorem V8_v19_0 : (V8 (F := Ideal) m ρ c main_v19_0 : FVec Ideal S10000x128 .f32) = kU0 m c :=
  (W8_of m ρ c main_v19_0).trans (W7_v19_0 m ρ c)
theorem V8_v28 : (V8 (F := Ideal) m ρ c main_v28 : FVec Ideal S1x128 .f32)
    = KFn.row (F := Ideal) (KFn.kMean (Spec.colSum (kU0 m c))) := by
  refine (ops2_v28 (W7 (F := Ideal) m ρ c)).trans ?_
  rw [W7_v19_1 m ρ c]
theorem V8_v29 : (V8 (F := Ideal) m ρ c main_v29 : FVec Ideal S1x128 .f32)
    = KFn.row (F := Ideal) (KFn.kVar (Spec.colSum (kU0 m c)) (Spec.colSumSq (kU0 m c))) := by
  refine (ops2_v29 (W7 (F := Ideal) m ρ c)).trans ?_
  rw [W7_v19_1 m ρ c, W7_v19_2 m ρ c]
theorem V8_v30 : (V8 (F := Ideal) m ρ c main_v30 : FVec Ideal S1x128 .f32) = KFn.row (F := Ideal) (L0 m c main_arg10) := by
  refine (ops2_v30 (W7 (F := Ideal) m ρ c)).trans ?_
  rw [W7_arg m ρ c main_arg10]
theorem V8_v31 : (V8 (F := Ideal) m ρ c main_v31 : FVec Ideal S1x128 .f32) = KFn.row (F := Ideal) (L0 m c main_arg11) := by
  refine (ops2_v31 (W7 (F := Ideal) m ρ c)).trans ?_
  rw [W7_arg m ρ c main_arg11]

end Exit

/-- The result array at the last boundary is `KFn.kOut` of the launch contents of the thirteen arguments. -/
theorem result_eq (c : Dev nD) :
    W9 (F := Ideal) m ρ c (Proc.devRef .tc main_v32)
      = KFn.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  refine (W9_arr m ρ c 6).trans ((Bn.bn_final (V8 (F := Ideal) m ρ) c).trans ?_)
  rw [V8_arg0 m ρ c, V8_v19_0 m ρ c, V8_v28 m ρ c, V8_v29 m ρ c, V8_v30 m ρ c, V8_v31 m ρ c]
  rfl

end Cert.Proof.KChain

end
-- ==== Proof.RefFn.lean ====
/-
  The reference program's stages as functions of whole arrays: each definition is the reference's own chain of host
  operations for one stage of the layer, applied to that stage's inputs. The reference's result is their composition
  (`refOut`).
-/
import proofs.«410922_j44427141710551_1_alg».proof.ReferenceIdeal

noncomputable section

namespace Cert.Proof.RefFn

open Idealize.ShloMosaic Cert.ReferenceIdeal
open Cert.ReferenceIdeal.Facts₀ Cert.ReferenceIdeal.Facts

variable [Cert.ReferenceIdeal.Facts] {F : FTy → Type} [FloatOps F]

/-- Row `0` of the edge table: the source node of each edge. -/
def idxRow0 (ei : IVec S2x320000 32) : IVec S320000 32 :=
  shapeCast S320000 (extractStridedSlice S1x320000 ![0, 0] ei slices_S2x320000_S1x320000_0_0) shapeCasts_S1x320000_S320000

/-- Row `1` of the edge table: the destination node of each edge. -/
def idxRow1 (ei : IVec S2x320000 32) : IVec S320000 32 :=
  shapeCast S320000 (extractStridedSlice S1x320000 ![1, 0] ei slices_S2x320000_S1x320000_1_0) shapeCasts_S1x320000_S320000

/-- A negative index counts from the end; the result as a column of start indices. -/
def wrapIdx (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

/-- The rows of the node table at a column of start indices. -/
def gatherRows (nf : FVec F S10000x128 .f32) (ix : IVec S320000x1 32) : FVec F S320000x128 .f32 :=
  Host.gather gather_S10000x128_S320000x1_S320000x128_1_0_n_n_0_1_1128 nf ix

/-- A vector along the columns of a matrix with `320000` rows. -/
def bcE (v : FVec F S128 .f32) : FVec F S320000x128 .f32 :=
  broadcastInDim S320000x128 ![0, 1] bcast_S1x128_S320000x128_0_1 (broadcastInDim S1x128 ![1] bcast_S128_S1x128_1 v)

/-- A vector along the columns of a matrix with `10000` rows. -/
def bcN (v : FVec F S128 .f32) : FVec F S10000x128 .f32 :=
  broadcastInDim S10000x128 ![0, 1] bcast_S1x128_S10000x128_0_1 (broadcastInDim S1x128 ![1] bcast_S128_S1x128_1 v)

/-- The edge stage: the gated message of every edge. -/
def refEdge (src dst : FVec F S320000x128 .f32) (ef : FVec F S320000x64 .f32) (We1 : FVec F S320x128 .f32)
    (be1 : FVec F S128 .f32) (We2 : FVec F S128x128 .f32) (be2 : FVec F S128 .f32) : FVec F S320000x128 .f32 :=
  mulf src
    (Host.divf (broadcastInDim S320000x128 ![] bcast_S_S320000x128 (constant S_ .f32 0x3F800000#32))
      (addf (broadcastInDim S320000x128 ![] bcast_S_S320000x128 (constant S_ .f32 0x3F800000#32))
        (Host.exp (Host.negf
          (addf
            (Host.dotGeneral dot_S320000x128_S128x128_S320000x128_1_0_0_1_n_n none
              (maximumf
                (addf
                  (Host.dotGeneral dot_S320000x320_S320x128_S320000x128_1_0_0_1_n_n none
                    (concatenate S320000x320 1 [⟨S320000x128, src⟩, ⟨S320000x128, dst⟩, ⟨S320000x64, ef⟩]
                      concatenates_S320000x128_S320000x128_S320000x64_S320000x320_d1) We1)
                  (bcE be1))
                (broadcastInDim S320000x128 ![] bcast_S_S320000x128 (constant S_ .f32 0x00000000#32)))
              We2)
            (bcE be2))))))

/-- The aggregation: each message added onto its destination node's row of a zero table. -/
def refScatter (dstIdx : IVec S320000 32) (msg : FVec F S320000x128 .f32) : FVec F S10000x128 .f32 :=
  Host.scatterAdd scatter_S10000x128_S320000x1_S320000x128_1_0_0_1
    (broadcastInDim S10000x128 ![] bcast_S_S10000x128 (constant S_ .f32 0x00000000#32))
    (broadcastInDim S320000x1 ![0] bcast_S320000_S320000x1_0 dstIdx) msg

/-- The node stage: the update of every node before normalisation. -/
def refNode (nf agg : FVec F S10000x128 .f32) (Wn1 : FVec F S256x128 .f32) (bn1 : FVec F S128 .f32)
    (Wn2 : FVec F S128x128 .f32) (bn2 : FVec F S128 .f32) : FVec F S10000x128 .f32 :=
  addf
    (Host.dotGeneral dot_S10000x128_S128x128_S10000x128_1_0_0_1_n_n none
      (maximumf
        (addf
          (Host.dotGeneral dot_S10000x256_S256x128_S10000x128_1_0_0_1_n_n none
            (concatenate S10000x256 1 [⟨S10000x128, nf⟩, ⟨S10000x128, agg⟩] concatenates_S10000x128_S10000x128_S10000x256_d1) Wn1)
          (bcN bn1))
        (broadcastInDim S10000x128 ![] bcast_S_S10000x128 (constant S_ .f32 0x00000000#32)))
      Wn2)
    (bcN bn2)

/-- The column sums of a `10000 × 128` matrix. -/
def refColSum (u : FVec F S10000x128 .f32) : FVec F S128 .f32 :=
  Host.reduceAdd u (constant S_ .f32 0x00000000#32) reducesTo_S10000x128_S128_d0 h_S_

/-- The batch mean of every column. -/
def refMean (u : FVec F S10000x128 .f32) : FVec F S128 .f32 :=
  Host.divf (refColSum u) (broadcastInDim S128 ![] bcast_S_S128 (constant S_ .f32 0x461C4000#32))

/-- The number of rows less the degrees of freedom removed (none), as the reference computes it. -/
def refCount : FVec F S_ .f32 :=
  subf (constant S_ .f32 0x461C4000#32) (sitofp .f32 (constantI S_ 32 0#32))

/-- The deviations from the column mean, as the variance routine forms them. -/
def refCentered (u : FVec F S10000x128 .f32) : FVec F S10000x128 .f32 :=
  subf u (broadcastInDim S10000x128 ![0, 1] bcast_S1x128_S10000x128_0_1
    (Host.divf (broadcastInDim S1x128 ![1] bcast_S128_S1x128_1 (refColSum u))
      (broadcastInDim S1x128 ![] bcast_S_S1x128 (constant S_ .f32 0x461C4000#32))))

/-- The biased batch variance of every column: the mean squared deviation, guarded by the count's sign. -/
def refVar (u : FVec F S10000x128 .f32) : FVec F S128 .f32 :=
  select (broadcastInDim S128 ![] bcast_S_S128 (cmpf .ogt (refCount (F := F)) (constant S_ .f32 0x00000000#32)))
    (Host.divf
      (Host.reduceAdd (mulf (refCentered u) (refCentered u)) (constant S_ .f32 0x00000000#32) reducesTo_S10000x128_S128_d0 h_S_)
      (broadcastInDim S128 ![] bcast_S_S128 (refCount (F := F))))
    (broadcastInDim S128 ![] bcast_S_S128 (id (constant S_ .f32 0x7FC00000#32)))

/-- The normalisation stage with the residual. -/
def refBn (nf u : FVec F S10000x128 .f32) (gamma beta : FVec F S128 .f32) : FVec F S10000x128 .f32 :=
  addf nf
    (addf
      (mulf
        (mulf (subf u (bcN (refMean u)))
          (bcN (Host.rsqrt (addf (refVar u) (broadcastInDim S128 ![] bcast_S_S128 (constant S_ .f32 0x3727C5AC#32))))))
        (bcN gamma))
      (bcN beta))

/-- The reference's result as one function of its thirteen arguments. -/
def refOut (nf : FVec F S10000x128 .f32) (ef : FVec F S320000x64 .f32) (We1 : FVec F S320x128 .f32) (be1 : FVec F S128 .f32)
    (We2 : FVec F S128x128 .f32) (be2 : FVec F S128 .f32) (Wn1 : FVec F S256x128 .f32) (bn1 : FVec F S128 .f32)
    (Wn2 : FVec F S128x128 .f32) (bn2 : FVec F S128 .f32) (gamma beta : FVec F S128 .f32) (ei : IVec S2x320000 32) :
    FVec F S10000x128 .f32 :=
  refBn nf
    (refNode nf
      (refScatter (idxRow1 ei)
        (refEdge (gatherRows nf (wrapIdx (idxRow0 ei))) (gatherRows nf (wrapIdx (idxRow1 ei))) ef We1 be1 We2 be2))
      Wn1 bn1 Wn2 bn2)
    gamma beta

end Cert.Proof.RefFn

end
-- ==== Proof.RefRun.lean ====
/-
  The reference program's run: every weakly fair execution of its host operations terminates, nothing faulting, with
  the result array at the composition of its stages (`RefFn.refOut`) of the launch contents of the arguments, and the
  arguments as launched.

  The program is a straight line of 104 host operations once the three outlined functions (the two rectifiers and the
  variance, which itself calls the guarded select) are unfolded at their call sites over each call's own buffers. The line
  is read in six consecutive stretches: the index preparation and the two gathers; the edge stage; the aggregation and
  the node stage; the column mean; the variance; the normalisation with the residual. Each stretch's result is the
  corresponding stage function of the contents it starts from, and a buffer a stretch does not write keeps its contents
  through it; composing the six gives the result at `RefFn.refOut` of the launch contents.
-/
import proofs.«410922_j44427141710551_1_alg».proof.ReferenceIdeal
import proofs.«410922_j44427141710551_1_alg».proof.Proof.Gen.ReferenceIdeal
import proofs.«410922_j44427141710551_1_alg».proof.Proof.RefFn
import Idealize.ShloMosaic.Lib.StableHlo.Run
import Idealize.ShloMosaic.PureOps.Ideal

noncomputable section

namespace Cert.Proof.RefRun

open Idealize.ShloMosaic Idealize.ShloMosaic.TcCoe Idealize.SL.Sem
open Cert.ReferenceIdeal
open Cert.Proof

variable [Cert.ReferenceIdeal.Facts]

open Cert.ReferenceIdeal.Facts₀ Cert.ReferenceIdeal.Facts

section Line

variable {F : FTy → Type} [FloatOps F]

/-- Two stretches run one after the other are their concatenation run as one. -/
theorem after_append : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_append l₁ l₂]

/-- The index preparation and the two gathers: both rows of the edge table, each wrapped and made a column of start indices, and the node table's rows at them. -/
abbrev w1 : List (HloOp τ sig (Elt F)) :=
  [ StableHlo.unary main_arg12 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg12 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_c (constantI S_ 32 0#32),
    StableHlo.unary main_c main_v4 (broadcastInDim S320000 ![] bcast_S_S320000 : (⟨S_, .i32⟩ : BufTy).Contents (Elt F) → (⟨S320000, .i32⟩ : BufTy).Contents (Elt F)),
    StableHlo.binary main_v1 main_v4 main_v5 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 10000#32),
    StableHlo.unary main_c_0 main_v6 (broadcastInDim S320000 ![] bcast_S_S320000 : (⟨S_, .i32⟩ : BufTy).Contents (Elt F) → (⟨S320000, .i32⟩ : BufTy).Contents (Elt F)),
    StableHlo.binary main_v1 main_v6 main_v7 (addi : (⟨S320000, .i32⟩ : BufTy).Contents (Elt F) → (⟨S320000, .i32⟩ : BufTy).Contents (Elt F) → (⟨S320000, .i32⟩ : BufTy).Contents (Elt F)),
    StableHlo.ternary main_v5 main_v7 main_v1 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v8 main_v9 (broadcastInDim S320000x1 ![0] bcast_S320000_S320000x1_0 : (⟨S320000, .i32⟩ : BufTy).Contents (Elt F) → (⟨S320000x1, .i32⟩ : BufTy).Contents (Elt F)),
    StableHlo.binary main_arg0 main_v9 main_v10 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nullary main_c_1 (constantI S_ 32 0#32),
    StableHlo.unary main_c_1 main_v11 (broadcastInDim S320000 ![] bcast_S_S320000 : (⟨S_, .i32⟩ : BufTy).Contents (Elt F) → (⟨S320000, .i32⟩ : BufTy).Contents (Elt F)),
    StableHlo.binary main_v3 main_v11 main_v12 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 10000#32),
    StableHlo.unary main_c_2 main_v13 (broadcastInDim S320000 ![] bcast_S_S320000 : (⟨S_, .i32⟩ : BufTy).Contents (Elt F) → (⟨S320000, .i32⟩ : BufTy).Contents (Elt F)),
    StableHlo.binary main_v3 main_v13 main_v14 (addi : (⟨S320000, .i32⟩ : BufTy).Contents (Elt F) → (⟨S320000, .i32⟩ : BufTy).Contents (Elt F) → (⟨S320000, .i32⟩ : BufTy).Contents (Elt F)),
    StableHlo.ternary main_v12 main_v14 main_v3 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v15 main_v16 (broadcastInDim S320000x1 ![0] bcast_S320000_S320000x1_0 : (⟨S320000, .i32⟩ : BufTy).Contents (Elt F) → (⟨S320000x1, .i32⟩ : BufTy).Contents (Elt F)),
    StableHlo.binary main_arg0 main_v16 main_v17 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)) ]

/-- The buffers that stretch writes. -/
abbrev W1 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17]

/-- The edge stage: the concatenation, the two affine maps with the rectifier between them, the logistic gate, the product with the source rows. -/
abbrev w2 : List (HloOp τ sig (Elt F)) :=
  [ StableHlo.nary ![main_v10, main_v17, main_arg1] main_v18 (fun u => concatenate S320000x320 1 [⟨S320000x128, u 0⟩, ⟨S320000x128, u 1⟩, ⟨S320000x64, u 2⟩] concatenates_S320000x128_S320000x128_S320000x64_S320000x320_d1),
    StableHlo.binary main_v18 main_arg2 main_v19 ((fun l r => Host.dotGeneral dot_S320000x320_S320x128_S320000x128_1_0_0_1_n_n none l r) : (⟨S320000x320, .f32⟩ : BufTy).Contents (Elt F) → (⟨S320x128, .f32⟩ : BufTy).Contents (Elt F) → (⟨S320000x128, .f32⟩ : BufTy).Contents (Elt F)),
    StableHlo.unary main_arg3 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S320000x128 ![0, 1] bcast_S1x128_S320000x128_0_1 : (⟨S1x128, .f32⟩ : BufTy).Contents (Elt F) → (⟨S320000x128, .f32⟩ : BufTy).Contents (Elt F)),
    StableHlo.binary main_v19 main_v21 main_v22 (addf : (⟨S320000x128, .f32⟩ : BufTy).Contents (Elt F) → (⟨S320000x128, .f32⟩ : BufTy).Contents (Elt F) → (⟨S320000x128, .f32⟩ : BufTy).Contents (Elt F)),
    StableHlo.TRef.nullary main_call0.cst (constant S_ .f32 0x00000000#32),
    StableHlo.TRef.unary main_call0.cst main_call0.v0 (broadcastInDim S320000x128 ![] bcast_S_S320000x128),
    StableHlo.TRef.binary (.of main_v22) main_call0.v0 main_call0.v1 maximumf,
    StableHlo.binary main_v23 main_arg4 main_v24 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg5 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S320000x128 ![0, 1] bcast_S1x128_S320000x128_0_1 : (⟨S1x128, .f32⟩ : BufTy).Contents (Elt F) → (⟨S320000x128, .f32⟩ : BufTy).Contents (Elt F)),
    StableHlo.binary main_v24 main_v26 main_v27 (addf : (⟨S320000x128, .f32⟩ : BufTy).Contents (Elt F) → (⟨S320000x128, .f32⟩ : BufTy).Contents (Elt F) → (⟨S320000x128, .f32⟩ : BufTy).Contents (Elt F)),
    StableHlo.unary main_v27 main_v28 (Host.negf : (⟨S320000x128, .f32⟩ : BufTy).Contents (Elt F) → (⟨S320000x128, .f32⟩ : BufTy).Contents (Elt F)),
    StableHlo.unary main_v28 main_v29 (Host.exp : (⟨S320000x128, .f32⟩ : BufTy).Contents (Elt F) → (⟨S320000x128, .f32⟩ : BufTy).Contents (Elt F)),
    StableHlo.nullary main_cst (constant S_ .f32 0x3F800000#32),
    StableHlo.unary main_cst main_v30 (broadcastInDim S320000x128 ![] bcast_S_S320000x128 : (⟨S_, .f32⟩ : BufTy).Contents (Elt F) → (⟨S320000x128, .f32⟩ : BufTy).Contents (Elt F)),
    StableHlo.binary main_v30 main_v29 main_v31 (addf : (⟨S320000x128, .f32⟩ : BufTy).Contents (Elt F) → (⟨S320000x128, .f32⟩ : BufTy).Contents (Elt F) → (⟨S320000x128, .f32⟩ : BufTy).Contents (Elt F)),
    StableHlo.nullary main_cst_3 (constant S_ .f32 0x3F800000#32),
    StableHlo.unary main_cst_3 main_v32 (broadcastInDim S320000x128 ![] bcast_S_S320000x128 : (⟨S_, .f32⟩ : BufTy).Contents (Elt F) → (⟨S320000x128, .f32⟩ : BufTy).Contents (Elt F)),
    StableHlo.binary main_v32 main_v31 main_v33 (Host.divf : (⟨S320000x128, .f32⟩ : BufTy).Contents (Elt F) → (⟨S320000x128, .f32⟩ : BufTy).Contents (Elt F) → (⟨S320000x128, .f32⟩ : BufTy).Contents (Elt F)),
    StableHlo.binary main_v10 main_v33 main_v34 (mulf : (⟨S320000x128, .f32⟩ : BufTy).Contents (Elt F) → (⟨S320000x128, .f32⟩ : BufTy).Contents (Elt F) → (⟨S320000x128, .f32⟩ : BufTy).Contents (Elt F)) ]

/-- The buffers that stretch writes. -/
abbrev W2 : List (Ref sig .tc) := [main_v18, main_v19, main_v20, main_v21, main_v22, main_call0_cst, main_call0_v0, main_v23, main_v24, main_v25, main_v26, main_v27, main_v28, main_v29, main_cst, main_v30, main_v31, main_cst_3, main_v32, main_v33, main_v34]

/-- The aggregation onto a zero table and the node stage: the concatenation, the two affine maps with the rectifier between them. -/
abbrev w3 : List (HloOp τ sig (Elt F)) :=
  [ StableHlo.nullary main_cst_4 (constant S_ .f32 0x00000000#32),
    StableHlo.unary main_cst_4 main_v35 (broadcastInDim S10000x128 ![] bcast_S_S10000x128 : (⟨S_, .f32⟩ : BufTy).Contents (Elt F) → (⟨S10000x128, .f32⟩ : BufTy).Contents (Elt F)),
    StableHlo.unary main_v3 main_v36 (broadcastInDim S320000x1 ![0] bcast_S320000_S320000x1_0 : (⟨S320000, .i32⟩ : BufTy).Contents (Elt F) → (⟨S320000x1, .i32⟩ : BufTy).Contents (Elt F)),
    StableHlo.ternary main_v35 main_v36 main_v34 main_v37 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    StableHlo.binary main_arg0 main_v37 main_v38 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.binary main_v38 main_arg6 main_v39 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S10000x128 ![0, 1] bcast_S1x128_S10000x128_0_1 : (⟨S1x128, .f32⟩ : BufTy).Contents (Elt F) → (⟨S10000x128, .f32⟩ : BufTy).Contents (Elt F)),
    StableHlo.binary main_v39 main_v41 main_v42 (addf : (⟨S10000x128, .f32⟩ : BufTy).Contents (Elt F) → (⟨S10000x128, .f32⟩ : BufTy).Contents (Elt F) → (⟨S10000x128, .f32⟩ : BufTy).Contents (Elt F)),
    StableHlo.TRef.nullary main_call1.cst (constant S_ .f32 0x00000000#32),
    StableHlo.TRef.unary main_call1.cst main_call1.v0 (broadcastInDim S10000x128 ![] bcast_S_S10000x128),
    StableHlo.TRef.binary (.of main_v42) main_call1.v0 main_call1.v1 maximumf,
    StableHlo.binary main_v43 main_arg8 main_v44 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg9 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S10000x128 ![0, 1] bcast_S1x128_S10000x128_0_1 : (⟨S1x128, .f32⟩ : BufTy).Contents (Elt F) → (⟨S10000x128, .f32⟩ : BufTy).Contents (Elt F)),
    StableHlo.binary main_v44 main_v46 main_v47 (addf : (⟨S10000x128, .f32⟩ : BufTy).Contents (Elt F) → (⟨S10000x128, .f32⟩ : BufTy).Contents (Elt F) → (⟨S10000x128, .f32⟩ : BufTy).Contents (Elt F)) ]

/-- The buffers that stretch writes. -/
abbrev W3 : List (Ref sig .tc) := [main_cst_4, main_v35, main_v36, main_v37, main_v38, main_v39, main_v40, main_v41, main_v42, main_call1_cst, main_call1_v0, main_v43, main_v44, main_v45, main_v46, main_v47]

/-- The column mean of the node stage's result. -/
abbrev w4 : List (HloOp τ sig (Elt F)) :=
  [ StableHlo.nullary main_cst_5 (constant S_ .f32 0x00000000#32),
    StableHlo.binary main_v47 main_cst_5 main_v48 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_6 (constant S_ .f32 0x461C4000#32),
    StableHlo.unary main_cst_6 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)) ]

/-- The buffers that stretch writes. -/
abbrev W4 : List (Ref sig .tc) := [main_cst_5, main_v48, main_cst_6, main_v49, main_v50]

/-- The variance of the node stage's result, by the outlined routine and its guarded select. -/
abbrev w5 : List (HloOp τ sig (Elt F)) :=
  [ StableHlo.nullary main_c_7 (constantI S_ 32 0#32),
    StableHlo.TRef.nullary main_call2.cst (constant S_ .f32 0x00000000#32),
    StableHlo.TRef.binary (.of main_v47) main_call2.cst main_call2.v0 (fun x v => Host.reduceAdd x v reducesTo_S10000x128_S128_d0 h_S_),
    StableHlo.TRef.unary main_call2.v0 main_call2.v1 (broadcastInDim S1x128 ![1] bcast_S128_S1x128_1),
    StableHlo.TRef.nullary main_call2.cst_0 (constant S_ .f32 0x461C4000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S10000x128 ![0, 1] bcast_S1x128_S10000x128_0_1),
    StableHlo.TRef.binary (.of main_v47) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x461C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S10000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- The buffers that stretch writes. -/
abbrev W5 : List (Ref sig .tc) := [main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51]

/-- The normalisation with scale, shift and the residual. -/
abbrev w6 : List (HloOp τ sig (Elt F)) :=
  [ StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S10000x128 ![0, 1] bcast_S1x128_S10000x128_0_1 : (⟨S1x128, .f32⟩ : BufTy).Contents (Elt F) → (⟨S10000x128, .f32⟩ : BufTy).Contents (Elt F)),
    StableHlo.binary main_v47 main_v53 main_v54 (subf : (⟨S10000x128, .f32⟩ : BufTy).Contents (Elt F) → (⟨S10000x128, .f32⟩ : BufTy).Contents (Elt F) → (⟨S10000x128, .f32⟩ : BufTy).Contents (Elt F)),
    StableHlo.nullary main_cst_8 (constant S_ .f32 0x3727C5AC#32),
    StableHlo.unary main_cst_8 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S10000x128 ![0, 1] bcast_S1x128_S10000x128_0_1 : (⟨S1x128, .f32⟩ : BufTy).Contents (Elt F) → (⟨S10000x128, .f32⟩ : BufTy).Contents (Elt F)),
    StableHlo.binary main_v54 main_v59 main_v60 (mulf : (⟨S10000x128, .f32⟩ : BufTy).Contents (Elt F) → (⟨S10000x128, .f32⟩ : BufTy).Contents (Elt F) → (⟨S10000x128, .f32⟩ : BufTy).Contents (Elt F)),
    StableHlo.unary main_arg10 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S10000x128 ![0, 1] bcast_S1x128_S10000x128_0_1 : (⟨S1x128, .f32⟩ : BufTy).Contents (Elt F) → (⟨S10000x128, .f32⟩ : BufTy).Contents (Elt F)),
    StableHlo.binary main_v60 main_v62 main_v63 (mulf : (⟨S10000x128, .f32⟩ : BufTy).Contents (Elt F) → (⟨S10000x128, .f32⟩ : BufTy).Contents (Elt F) → (⟨S10000x128, .f32⟩ : BufTy).Contents (Elt F)),
    StableHlo.unary main_arg11 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S10000x128 ![0, 1] bcast_S1x128_S10000x128_0_1 : (⟨S1x128, .f32⟩ : BufTy).Contents (Elt F) → (⟨S10000x128, .f32⟩ : BufTy).Contents (Elt F)),
    StableHlo.binary main_v63 main_v65 main_v66 (addf : (⟨S10000x128, .f32⟩ : BufTy).Contents (Elt F) → (⟨S10000x128, .f32⟩ : BufTy).Contents (Elt F) → (⟨S10000x128, .f32⟩ : BufTy).Contents (Elt F)),
    StableHlo.binary main_arg0 main_v66 main_v67 (addf : (⟨S10000x128, .f32⟩ : BufTy).Contents (Elt F) → (⟨S10000x128, .f32⟩ : BufTy).Contents (Elt F) → (⟨S10000x128, .f32⟩ : BufTy).Contents (Elt F)) ]

/-- The buffers that stretch writes. -/
abbrev W6 : List (Ref sig .tc) := [main_v52, main_v53, main_v54, main_cst_8, main_v55, main_v56, main_v57, main_v58, main_v59, main_v60, main_v61, main_v62, main_v63, main_v64, main_v65, main_v66, main_v67]

/-- The whole line: the six stretches in order. -/
abbrev ops : List (HloOp τ sig (Elt F)) := w1 ++ (w2 ++ (w3 ++ (w4 ++ (w5 ++ w6))))

/-- A property of every operation of the six stretches is one of every operation of the line. -/
theorem forall_ops {p : HloOp τ sig (Elt F) → Prop} (h1 : (w1 : List (HloOp τ sig (Elt F))).Forall p)
    (h2 : (w2 : List (HloOp τ sig (Elt F))).Forall p) (h3 : (w3 : List (HloOp τ sig (Elt F))).Forall p)
    (h4 : (w4 : List (HloOp τ sig (Elt F))).Forall p) (h5 : (w5 : List (HloOp τ sig (Elt F))).Forall p)
    (h6 : (w6 : List (HloOp τ sig (Elt F))).Forall p) : ∀ op ∈ (ops : List (HloOp τ sig (Elt F))), p op := by
  intro op h
  rcases List.mem_append.1 h with h | h
  · exact List.forall_iff_forall_mem.1 h1 op h
  rcases List.mem_append.1 h with h | h
  · exact List.forall_iff_forall_mem.1 h2 op h
  rcases List.mem_append.1 h with h | h
  · exact List.forall_iff_forall_mem.1 h3 op h
  rcases List.mem_append.1 h with h | h
  · exact List.forall_iff_forall_mem.1 h4 op h
  rcases List.mem_append.1 h with h | h
  · exact List.forall_iff_forall_mem.1 h5 op h
  · exact List.forall_iff_forall_mem.1 h6 op h

/-- Every buffer stretch 1 touches is a TensorCore reference. -/
theorem w1_sub : (w1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

/-- Every operation of stretch 1 determines its results. -/
theorem w1_fresh : (w1 : List (HloOp τ sig (Elt F))).Forall fun op => op.fresh = ∅ := by
  simp only [List.Forall]
  and_intros <;> rfl

/-- Stretch 1 writes only the buffers listed. -/
theorem w1_writes : (w1 : List (HloOp τ sig (Elt F))).Forall fun op =>
    op.writes ⊆ (W1.map (Proc.devRef (τ := τ) .tc)).toFinset := by
  simp only [List.Forall]
  and_intros <;> exact Finset.singleton_subset_iff.mpr (List.mem_toFinset.mpr (List.mem_map_of_mem (by decide)))

/-- The device's buffer contents after the first 1 stretch. -/
def val1 (V : Valuation τ sig (Elt F)) : Valuation τ sig (Elt F) := StableHlo.after w1 V

/-- A buffer that stretch 1 does not write keeps its contents through it. -/
theorem val1_keep (V : Valuation τ sig (Elt F)) (r : Ref sig .tc) (h : r ∉ W1) :
    val1 V (no_index (Proc.devRef .tc r)) = V (Proc.devRef .tc r) :=
  StableHlo.after_of_writes_sub w1 _ w1_writes h

/-- Every buffer stretch 2 touches is a TensorCore reference. -/
theorem w2_sub : (w2 : List (HloOp τ sig (Elt F))).Forall fun op => op.bufs ⊆ StableHlo.tcRefs τ sig :=
  ⟨StableHlo.nary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

/-- Every operation of stretch 2 determines its results. -/
theorem w2_fresh : (w2 : List (HloOp τ sig (Elt F))).Forall fun op => op.fresh = ∅ := by
  simp only [List.Forall]
  and_intros <;> rfl

/-- Stretch 2 writes only the buffers listed. -/
theorem w2_writes : (w2 : List (HloOp τ sig (Elt F))).Forall fun op =>
    op.writes ⊆ (W2.map (Proc.devRef (τ := τ) .tc)).toFinset := by
  simp only [List.Forall]
  and_intros <;> exact Finset.singleton_subset_iff.mpr (List.mem_toFinset.mpr (List.mem_map_of_mem (by decide)))

/-- The device's buffer contents after the first 2 stretches. -/
def val2 (V : Valuation τ sig (Elt F)) : Valuation τ sig (Elt F) := StableHlo.after w2 (val1 V)

/-- A buffer that stretch 2 does not write keeps its contents through it. -/
theorem val2_keep (V : Valuation τ sig (Elt F)) (r : Ref sig .tc) (h : r ∉ W2) :
    val2 V (no_index (Proc.devRef .tc r)) = (val1 V) (Proc.devRef .tc r) :=
  StableHlo.after_of_writes_sub w2 _ w2_writes h

/-- Every buffer stretch 3 touches is a TensorCore reference. -/
theorem w3_sub : (w3 : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- Every operation of stretch 3 determines its results. -/
theorem w3_fresh : (w3 : List (HloOp τ sig (Elt F))).Forall fun op => op.fresh = ∅ := by
  simp only [List.Forall]
  and_intros <;> rfl

/-- Stretch 3 writes only the buffers listed. -/
theorem w3_writes : (w3 : List (HloOp τ sig (Elt F))).Forall fun op =>
    op.writes ⊆ (W3.map (Proc.devRef (τ := τ) .tc)).toFinset := by
  simp only [List.Forall]
  and_intros <;> exact Finset.singleton_subset_iff.mpr (List.mem_toFinset.mpr (List.mem_map_of_mem (by decide)))

/-- The device's buffer contents after the first 3 stretches. -/
def val3 (V : Valuation τ sig (Elt F)) : Valuation τ sig (Elt F) := StableHlo.after w3 (val2 V)

/-- A buffer that stretch 3 does not write keeps its contents through it. -/
theorem val3_keep (V : Valuation τ sig (Elt F)) (r : Ref sig .tc) (h : r ∉ W3) :
    val3 V (no_index (Proc.devRef .tc r)) = (val2 V) (Proc.devRef .tc r) :=
  StableHlo.after_of_writes_sub w3 _ w3_writes h

/-- Every buffer stretch 4 touches is a TensorCore reference. -/
theorem w4_sub : (w4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub ..⟩

/-- Every operation of stretch 4 determines its results. -/
theorem w4_fresh : (w4 : List (HloOp τ sig (Elt F))).Forall fun op => op.fresh = ∅ := by
  simp only [List.Forall]
  and_intros <;> rfl

/-- Stretch 4 writes only the buffers listed. -/
theorem w4_writes : (w4 : List (HloOp τ sig (Elt F))).Forall fun op =>
    op.writes ⊆ (W4.map (Proc.devRef (τ := τ) .tc)).toFinset := by
  simp only [List.Forall]
  and_intros <;> exact Finset.singleton_subset_iff.mpr (List.mem_toFinset.mpr (List.mem_map_of_mem (by decide)))

/-- The device's buffer contents after the first 4 stretches. -/
def val4 (V : Valuation τ sig (Elt F)) : Valuation τ sig (Elt F) := StableHlo.after w4 (val3 V)

/-- A buffer that stretch 4 does not write keeps its contents through it. -/
theorem val4_keep (V : Valuation τ sig (Elt F)) (r : Ref sig .tc) (h : r ∉ W4) :
    val4 V (no_index (Proc.devRef .tc r)) = (val3 V) (Proc.devRef .tc r) :=
  StableHlo.after_of_writes_sub w4 _ w4_writes h

/-- Every buffer stretch 5 touches is a TensorCore reference. -/
theorem w5_sub : (w5 : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Every operation of stretch 5 determines its results. -/
theorem w5_fresh : (w5 : List (HloOp τ sig (Elt F))).Forall fun op => op.fresh = ∅ := by
  simp only [List.Forall]
  and_intros <;> rfl

/-- Stretch 5 writes only the buffers listed. -/
theorem w5_writes : (w5 : List (HloOp τ sig (Elt F))).Forall fun op =>
    op.writes ⊆ (W5.map (Proc.devRef (τ := τ) .tc)).toFinset := by
  simp only [List.Forall]
  and_intros <;> exact Finset.singleton_subset_iff.mpr (List.mem_toFinset.mpr (List.mem_map_of_mem (by decide)))

/-- The device's buffer contents after the first 5 stretches. -/
def val5 (V : Valuation τ sig (Elt F)) : Valuation τ sig (Elt F) := StableHlo.after w5 (val4 V)

/-- A buffer that stretch 5 does not write keeps its contents through it. -/
theorem val5_keep (V : Valuation τ sig (Elt F)) (r : Ref sig .tc) (h : r ∉ W5) :
    val5 V (no_index (Proc.devRef .tc r)) = (val4 V) (Proc.devRef .tc r) :=
  StableHlo.after_of_writes_sub w5 _ w5_writes h

/-- Every buffer stretch 6 touches is a TensorCore reference. -/
theorem w6_sub : (w6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub ..⟩

/-- Every operation of stretch 6 determines its results. -/
theorem w6_fresh : (w6 : List (HloOp τ sig (Elt F))).Forall fun op => op.fresh = ∅ := by
  simp only [List.Forall]
  and_intros <;> rfl

/-- Stretch 6 writes only the buffers listed. -/
theorem w6_writes : (w6 : List (HloOp τ sig (Elt F))).Forall fun op =>
    op.writes ⊆ (W6.map (Proc.devRef (τ := τ) .tc)).toFinset := by
  simp only [List.Forall]
  and_intros <;> exact Finset.singleton_subset_iff.mpr (List.mem_toFinset.mpr (List.mem_map_of_mem (by decide)))

/-- The device's buffer contents after the first 6 stretches. -/
def val6 (V : Valuation τ sig (Elt F)) : Valuation τ sig (Elt F) := StableHlo.after w6 (val5 V)

/-- A buffer that stretch 6 does not write keeps its contents through it. -/
theorem val6_keep (V : Valuation τ sig (Elt F)) (r : Ref sig .tc) (h : r ∉ W6) :
    val6 V (no_index (Proc.devRef .tc r)) = (val5 V) (Proc.devRef .tc r) :=
  StableHlo.after_of_writes_sub w6 _ w6_writes h

/-- The index row of the destination nodes after the first stretch. -/
theorem val1_v3 (V : Valuation τ sig (Elt F)) :
    val1 V (no_index (main_v3 : DevRef τ sig)) = RefFn.idxRow1 (V (main_arg12 : DevRef τ sig)) := by
  unfold val1; simp only [w1]; after_results; rfl

/-- The source rows after the first stretch. -/
theorem val1_v10 (V : Valuation τ sig (Elt F)) :
    val1 V (no_index (main_v10 : DevRef τ sig))
      = RefFn.gatherRows (V (main_arg0 : DevRef τ sig)) (RefFn.wrapIdx (RefFn.idxRow0 (V (main_arg12 : DevRef τ sig)))) := by
  unfold val1; simp only [w1]; after_results; rfl

/-- The destination rows after the first stretch. -/
theorem val1_v17 (V : Valuation τ sig (Elt F)) :
    val1 V (no_index (main_v17 : DevRef τ sig))
      = RefFn.gatherRows (V (main_arg0 : DevRef τ sig)) (RefFn.wrapIdx (RefFn.idxRow1 (V (main_arg12 : DevRef τ sig)))) := by
  unfold val1; simp only [w1]; after_results; rfl

/-- The gated messages after the second stretch. -/
theorem val2_v34 (V : Valuation τ sig (Elt F)) :
    val2 V (no_index (main_v34 : DevRef τ sig))
      = RefFn.refEdge (val1 V (main_v10 : DevRef τ sig)) (val1 V (main_v17 : DevRef τ sig)) (val1 V (main_arg1 : DevRef τ sig))
          (val1 V (main_arg2 : DevRef τ sig)) (val1 V (main_arg3 : DevRef τ sig)) (val1 V (main_arg4 : DevRef τ sig)) (val1 V (main_arg5 : DevRef τ sig)) := by
  unfold val2; simp only [w2]; after_results; rfl

/-- The node update after the third stretch. -/
theorem val3_v47 (V : Valuation τ sig (Elt F)) :
    val3 V (no_index (main_v47 : DevRef τ sig))
      = RefFn.refNode (val2 V (main_arg0 : DevRef τ sig)) (RefFn.refScatter (val2 V (main_v3 : DevRef τ sig)) (val2 V (main_v34 : DevRef τ sig)))
          (val2 V (main_arg6 : DevRef τ sig)) (val2 V (main_arg7 : DevRef τ sig)) (val2 V (main_arg8 : DevRef τ sig)) (val2 V (main_arg9 : DevRef τ sig)) := by
  unfold val3; simp only [w3]; after_results; rfl

/-- The column mean after the fourth stretch. -/
theorem val4_v50 (V : Valuation τ sig (Elt F)) :
    val4 V (no_index (main_v50 : DevRef τ sig)) = RefFn.refMean (val3 V (main_v47 : DevRef τ sig)) := by
  unfold val4; simp only [w4]; after_results; rfl

/-- The column variance after the fifth stretch. -/
theorem val5_v51 (V : Valuation τ sig (Elt F)) :
    val5 V (no_index (main_v51 : DevRef τ sig)) = RefFn.refVar (val4 V (main_v47 : DevRef τ sig)) := by
  unfold val5; simp only [w5]; after_results; rfl

/-- The normalisation with the residual, of a given mean and variance. -/
def bnOf (nf u : FVec F S10000x128 .f32) (mean var gamma beta : FVec F S128 .f32) : FVec F S10000x128 .f32 :=
  addf nf
    (addf
      (mulf
        (mulf (subf u (RefFn.bcN mean))
          (RefFn.bcN (Host.rsqrt (addf var (broadcastInDim S128 ![] bcast_S_S128 (constant S_ .f32 0x3727C5AC#32))))))
        (RefFn.bcN gamma))
      (RefFn.bcN beta))

/-- The normalisation stage is that, at the batch mean and variance. -/
theorem refBn_eq (nf u : FVec F S10000x128 .f32) (gamma beta : FVec F S128 .f32) :
    RefFn.refBn nf u gamma beta = bnOf nf u (RefFn.refMean u) (RefFn.refVar u) gamma beta := rfl

/-- The result after the sixth stretch. -/
theorem val6_v67 (V : Valuation τ sig (Elt F)) :
    val6 V (no_index (main_v67 : DevRef τ sig))
      = bnOf (val5 V (main_arg0 : DevRef τ sig)) (val5 V (main_v47 : DevRef τ sig)) (val5 V (main_v50 : DevRef τ sig)) (val5 V (main_v51 : DevRef τ sig))
          (val5 V (main_arg10 : DevRef τ sig)) (val5 V (main_arg11 : DevRef τ sig)) := by
  unfold val6; simp only [w6]; after_results_simp; rfl

/-- The contents after the whole line are those after the sixth stretch. -/
theorem after_ops (V : Valuation τ sig (Elt F)) : StableHlo.after ops V = val6 V := by
  unfold val6 val5 val4 val3 val2 val1
  show StableHlo.after (w1 ++ (w2 ++ (w3 ++ (w4 ++ (w5 ++ w6))))) V = _
  rw [after_append, after_append, after_append, after_append, after_append]

/-- The result buffer after the whole line: the composition of the stages. -/
theorem out_eq (V : Valuation τ sig (Elt F)) :
    StableHlo.after ops V (main_v67 : DevRef τ sig)
      = RefFn.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops]
  simp (disch := decide) only [val6_v67, val5_v51, val4_v50, val3_v47, val2_v34, val1_v10, val1_v17, val1_v3,
    val6_keep, val5_keep, val4_keep, val3_keep, val2_keep, val1_keep]
  rw [← refBn_eq]
  rfl

/-- A buffer no stretch writes keeps its contents through the whole line. -/
theorem ops_keep (V : Valuation τ sig (Elt F)) (r : Ref sig .tc) (h1 : r ∉ W1) (h2 : r ∉ W2) (h3 : r ∉ W3) (h4 : r ∉ W4)
    (h5 : r ∉ W5) (h6 : r ∉ W6) : StableHlo.after ops V (Proc.devRef .tc r) = V (Proc.devRef .tc r) := by
  rw [after_ops, val6_keep V r h6, val5_keep V r h5, val4_keep V r h4, val3_keep V r h3, val2_keep V r h2, val1_keep V r h1]

set_option maxRecDepth 8192 in
set_option maxHeartbeats 4000000 in
/-- The program is that straight line: the outlined functions unfolded at their calls and the calls' records at their
    fields, both sides are one chain of host steps once sequencing is reassociated. -/
theorem main_eq (c : Dev nD) : main (F := F) c = StableHlo.seq ops := by
  simp only [main, main_part0, main_part1, fn_relu.body, fn_relu_0.body, fn_var.body, fn_where.body, ops, w1, w2, w3, w4, w5, w6,
    List.cons_append, List.nil_append, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every buffer the line touches is a TensorCore reference. -/
theorem ops_sub : (ops : List (HloOp τ sig (Elt F))).Forall fun op => op.bufs ⊆ StableHlo.tcRefs τ sig :=
  List.forall_iff_forall_mem.2 (forall_ops w1_sub w2_sub w3_sub w4_sub w5_sub w6_sub)

/-- Every operation of the line determines its results. -/
theorem ops_fresh : ∀ op ∈ (ops : List (HloOp τ sig (Elt F))), op.fresh = ∅ :=
  forall_ops w1_fresh w2_fresh w3_fresh w4_fresh w5_fresh w6_fresh

end Line

variable (m : (ℓ : Loc nD τ sig) → Buf (Elt Ideal) ℓ) (ρ : Dev nD → PrngReg)

/-- The reference's run with its result named. -/
theorem run : θ_run (defs (F := Ideal)) (onTc (τ := τ) (main (F := Ideal))) ⟨m, fun _ => 0, ρ⟩ (fun r => ∀ c : Dev nD,
      r.2.mem ((c.tc : Thread nD τ).loc main_v67)
        = RefFn.refOut (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  exact (θ_run (defs (F := Ideal)) _ _).mono
    (fun _ h c => ⟨(h c main_v67).trans (out_eq _),
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide))⟩)
    (StableHlo.run_seq scopedRefs_eq scopedSems_eq defs main (fun _ => ops) main_eq (fun _ => ops_sub) m ρ
      (fun _ => ops_fresh))

end Cert.Proof.RefRun

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.Take.lean ====
/-
  Index handling shared by the two programs: under the range hypothesis on the edge table the kernel's take (gather,
  then a fill outside the table) is the reference's plain gather; the two programs' index rows and aggregations are
  the same terms; gathered rows of a finite table and the aggregate of finite messages are finite.
-/
import proofs.«410922_j44427141710551_1_alg».proof.Proof.Spec
import proofs.«410922_j44427141710551_1_alg».proof.Proof.KFn
import proofs.«410922_j44427141710551_1_alg».proof.Proof.RefFn
import proofs.«410922_j44427141710551_1_alg».proof.Proof.LibGatherScatter
import Idealize.ShloMosaic.Lib.StableHlo.Predicate
import Idealize.ShloMosaic.Lib.ValueLayout
import Idealize.ShloMosaic.Lib.Affine
import Idealize.ShloMosaic.Lib.IdealHost

open scoped BigOperators

noncomputable section

namespace Cert.Proof.Take

open Idealize.ShloMosaic Idealize.ShloMosaic.ValueIdx
open Cert.Proof Cert.Proof.Spec

variable [Cert.KernelIdeal.Facts] [Cert.ReferenceIdeal.Facts]

/-- Every entry of an index vector is a row number of the node table. -/
def InRange (v : IVec ⟨1, ![320000]⟩ 32) : Prop := ∀ i, 0 ≤ (v i).toInt ∧ (v i).toInt < 10000

/-- Every entry of the edge table is a row number of the node table. -/
def TableInRange (ei : IVec ⟨2, ![2, 320000]⟩ 32) : Prop := ∀ i, 0 ≤ (ei i).toInt ∧ (ei i).toInt < 10000

theorem idxRow0_eq (ei : IVec ⟨2, ![2, 320000]⟩ 32) : KFn.idxRow0 ei = RefFn.idxRow0 ei := rfl

theorem idxRow1_eq (ei : IVec ⟨2, ![2, 320000]⟩ 32) : KFn.idxRow1 ei = RefFn.idxRow1 ei := rfl

/-! ## The index rows are rows of the edge table -/

/-- Entry `e` of the first index row is entry `(0, e)` of the edge table: the one-row slice at row 0, its unit axis
    dropped. -/
theorem idxRow0_apply (ei : IVec ⟨2, ![2, 320000]⟩ 32) (e : Fin 320000) :
    KFn.idxRow0 ei (ix1 e) = ei (ix2 (0 : Fin 2) e) := by
  unfold KFn.idxRow0
  refine (shapeCast_1a_a_apply _ _ e).trans ?_
  exact slice2_axis0_apply 0 ei _ (0 : Fin 1) e (0 : Fin 2) rfl

/-- Entry `e` of the second index row is entry `(1, e)` of the edge table. -/
theorem idxRow1_apply (ei : IVec ⟨2, ![2, 320000]⟩ 32) (e : Fin 320000) :
    KFn.idxRow1 ei (ix1 e) = ei (ix2 (1 : Fin 2) e) := by
  unfold KFn.idxRow1
  refine (shapeCast_1a_a_apply _ _ e).trans ?_
  exact slice2_axis0_apply 1 ei _ (0 : Fin 1) e (1 : Fin 2) rfl

theorem idxRow0_inRange (ei : IVec ⟨2, ![2, 320000]⟩ 32) (h : TableInRange ei) : InRange (KFn.idxRow0 ei) := by
  intro i
  obtain ⟨e, rfl⟩ : ∃ e : Fin 320000, i = ix1 e := ⟨i 0, eq_ix1 i⟩
  rw [idxRow0_apply]
  exact h _

theorem idxRow1_inRange (ei : IVec ⟨2, ![2, 320000]⟩ 32) (h : TableInRange ei) : InRange (KFn.idxRow1 ei) := by
  intro i
  obtain ⟨e, rfl⟩ : ∃ e : Fin 320000, i = ix1 e := ⟨i 0, eq_ix1 i⟩
  rw [idxRow1_apply]
  exact h _

/-! ## Inside the table the take is the gather -/

/-- A left fold by `and` from the one bit over one bits is the one bit. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a]
    exact foldl_andi_ones x hx l

/-- The wrap leaves a row number alone: it is not negative, so the comparison with zero is the zero bit and the select
    keeps the index; the column of start indices at `(e, 0)` is the vector's entry `e`. -/
theorem wrapIdx_apply (v : IVec ⟨1, ![320000]⟩ 32) (h : InRange v) (e : Fin 320000) (u : Fin 1) :
    RefFn.wrapIdx v (ix2 e u) = v (ix1 e) := by
  unfold RefFn.wrapIdx
  refine (broadcastInDim_apply _ _ _ (ix2 e u) (ix1 e) (fun a => by match a with | ⟨0, _⟩ => rfl)).trans ?_
  rw [select_apply]
  have hc : cmpi .slt v (broadcastInDim Cert.ReferenceIdeal.S320000 ![] Cert.ReferenceIdeal.Facts₀.bcast_S_S320000
      (constantI Cert.ReferenceIdeal.S_ 32 0#32)) (ix1 e) = 0#1 := by
    apply eq_zero_of_ne_one
    show ¬ IntOp.cmpi .slt (v (ix1 e)) 0#32 = 1#1
    rw [IntOp.cmpi_slt]
    have h0 := (h (ix1 e)).1
    have hz : (0#32).toInt = 0 := by decide
    rw [hz]
    omega
  rw [hc, select_zero]

/-- On row numbers the range test holds at every edge: both comparisons are the one bit, and the conjunction over the
    one-entry axis from the one bit is the one bit. -/
theorem inTable_one (i5 : IVec ⟨2, ![320000, 1]⟩ 32) (h : ∀ i, 0 ≤ (i5 i).toInt ∧ (i5 i).toInt < 10000)
    (j : (⟨1, ![320000]⟩ : Shape).Idx) : KFn.inTable i5 j = 1#1 := by
  unfold KFn.inTable
  rw [Host.reduce_eq_foldl]
  refine foldl_andi_ones _ (fun i => ?_) _
  show IntOp.andi (IntOp.cmpi .sge (i5 i) 0#32) (IntOp.cmpi .sle (i5 i) 9999#32) = 1#1
  rw [IntOp.andi_eq_one, IntOp.cmpi_sge, IntOp.cmpi_sle]
  have hz : (0#32).toInt = 0 := by decide
  have hn : (9999#32).toInt = 9999 := by decide
  rw [hz, hn]
  have := h i
  omega

/-- Inside the table the take is the gather: the wrap leaves a non-negative index alone, the range test holds on
    every edge, and the fill is never selected. -/
theorem take_eq_gather {F : FTy → Type} [FloatOps F] (nf : FVec F ⟨2, ![10000, 128]⟩ .f32) (v : IVec ⟨1, ![320000]⟩ 32)
    (h : InRange v) : KFn.takeRows nf v = RefFn.gatherRows nf (RefFn.wrapIdx v) := by
  have hw : KFn.wrapIdx v = RefFn.wrapIdx v := rfl
  funext i
  obtain ⟨e, q, rfl⟩ : ∃ (e : Fin 320000) (q : Fin 128), i = ix2 e q := ⟨i 0, i 1, eq_ix2 i⟩
  unfold KFn.takeRows RefFn.gatherRows
  rw [select_apply, hw]
  have hc : broadcastInDim Cert.KernelIdeal.S320000x128 ![0] Cert.KernelIdeal.Facts₀.bcast_S320000_S320000x128_0
      (KFn.inTable (RefFn.wrapIdx v)) (ix2 e q) = 1#1 := by
    refine (broadcastInDim_apply _ _ _ (ix2 e q) (ix1 e) (fun a => by match a with | ⟨0, _⟩ => rfl)).trans ?_
    refine inTable_one _ (fun k => ?_) _
    obtain ⟨e', u, rfl⟩ : ∃ (e' : Fin 320000) (u : Fin 1), k = ix2 e' u := ⟨k 0, k 1, eq_ix2 k⟩
    rw [wrapIdx_apply v h e' u]
    exact h _
  rw [hc, select_one]
  rfl

/-- The two programs aggregate by the same operation. -/
theorem scatter_eq {F : FTy → Type} [FloatOps F] (d : IVec ⟨1, ![320000]⟩ 32) (msg : FVec F ⟨2, ![320000, 128]⟩ .f32) :
    KFn.scatterMsg d msg = RefFn.refScatter d msg := rfl

/-! ## Finite tables give finite rows and finite aggregates -/

/-- An extended real is a real number exactly when it is the image of one. -/
theorem isReal_iff (x : EReal) : IsReal x ↔ ∃ r : ℝ, x = (r : EReal) := by
  constructor
  · rintro ⟨hb, ht⟩
    exact ⟨x.toReal, (EReal.coe_toReal ht hb).symm⟩
  · rintro ⟨r, rfl⟩
    exact ⟨EReal.coe_ne_bot r, EReal.coe_ne_top r⟩

theorem isReal_zero : IsReal (0 : EReal) := (isReal_iff 0).mpr ⟨0, EReal.coe_zero.symm⟩

/-- The sum of two real numbers is a real number. -/
theorem isReal_add {a b : EReal} (ha : IsReal a) (hb : IsReal b) : IsReal (a + b) := by
  obtain ⟨r, rfl⟩ := (isReal_iff a).mp ha
  obtain ⟨s, rfl⟩ := (isReal_iff b).mp hb
  exact (isReal_iff _).mpr ⟨r + s, (EReal.coe_add r s).symm⟩

/-- A finite sum of real numbers is a real number. -/
theorem isReal_sum {ι : Type} (s : Finset ι) (f : ι → EReal) (h : ∀ e ∈ s, IsReal (f e)) : IsReal (∑ e ∈ s, f e) := by
  classical
  induction s using Finset.induction_on with
  | empty => rw [Finset.sum_empty]; exact isReal_zero
  | insert a s ha ih =>
    rw [Finset.sum_insert ha]
    exact isReal_add (h a (Finset.mem_insert_self a s)) (ih fun e he => h e (Finset.mem_insert_of_mem he))

/-- A gathered row is a row of the table (a start index outside it is clamped): finite when the table is. -/
theorem gatherRows_isReal (nf : FVec Ideal ⟨2, ![10000, 128]⟩ .f32) (hnf : ∀ i, IsReal (nf i)) (ix : IVec ⟨2, ![320000, 1]⟩ 32) :
    ∀ i, IsReal (RefFn.gatherRows (F := Ideal) nf ix i) := by
  intro i
  obtain ⟨e, q, rfl⟩ : ∃ (e : Fin 320000) (q : Fin 128), i = ix2 e q := ⟨i 0, i 1, eq_ix2 i⟩
  have hg : RefFn.gatherRows (F := Ideal) nf ix (ix2 e q)
      = nf (ix2 (GS.row (N := 10000) (by decide) (ix (ix2 e (0 : Fin 1)))) q) :=
    GS.gather_gathD_apply (N := 10000) (E := 320000) (D := 128) (by decide)
      Cert.ReferenceIdeal.Facts₀.gather_S10000x128_S320000x1_S320000x128_1_0_n_n_0_1_1128_wf nf ix e q
  rw [hg]
  exact hnf _

/-- The aggregate of finite messages onto a zero table is finite: each entry is zero plus a finite sum of them. -/
theorem refScatter_isReal (d : IVec ⟨1, ![320000]⟩ 32) (msg : FVec Ideal ⟨2, ![320000, 128]⟩ .f32) (hmsg : ∀ i, IsReal (msg i)) :
    ∀ i, IsReal (RefFn.refScatter (F := Ideal) d msg i) := by
  intro i
  obtain ⟨n, q, rfl⟩ : ∃ (n : Fin 10000) (q : Fin 128), i = ix2 n q := ⟨i 0, i 1, eq_ix2 i⟩
  unfold RefFn.refScatter
  have e := GS.scatterAdd_scatD_apply (N := 10000) (E := 320000) (D := 128)
    Cert.ReferenceIdeal.Facts₀.scatter_S10000x128_S320000x1_S320000x128_1_0_0_1_wf
    (broadcastInDim Cert.ReferenceIdeal.S10000x128 ![] Cert.ReferenceIdeal.Facts₀.bcast_S_S10000x128
      (constant (F := Ideal) Cert.ReferenceIdeal.S_ .f32 0x00000000#32))
    (broadcastInDim Cert.ReferenceIdeal.S320000x1 ![0] Cert.ReferenceIdeal.Facts₀.bcast_S320000_S320000x1_0 d) msg n q
  refine (congrArg IsReal e).mpr ?_
  refine isReal_add ?_ (isReal_sum _ _ fun e _ => hmsg _)
  rw [broadcastInDim_scalar_apply, constant_apply, Ideal.ofBits_zero_f32]
  exact isReal_zero

end Cert.Proof.Take

end
-- ==== Proof.Finite.lean ====
/-
  Finiteness through the dense stages: the logistic gate is a real number at every extended real, so a message is
  finite as soon as its source row is; the node update is finite when its operands are. Row blocks and one-row forms
  of finite weights are finite.
-/
import proofs.«410922_j44427141710551_1_alg».proof.Proof.Spec
import proofs.«410922_j44427141710551_1_alg».proof.Proof.KFn
import proofs.«410922_j44427141710551_1_alg».proof.Proof.RefFn

open scoped BigOperators

noncomputable section

namespace Cert.Proof.Finite

open Idealize.ShloMosaic Idealize.ShloMosaic.ValueIdx
open Cert.Proof Cert.Proof.Spec

variable [Cert.KernelIdeal.Facts] [Cert.ReferenceIdeal.Facts]

/-! ### Real numbers among the extended reals are closed under the ring operations -/

theorem isReal_coe (r : ℝ) : IsReal (r : EReal) := ⟨EReal.coe_ne_bot r, EReal.coe_ne_top r⟩

theorem isReal_zero : IsReal (0 : EReal) := by
  rw [← EReal.coe_zero]; exact isReal_coe 0

theorem isReal_one : IsReal (1 : EReal) := by
  rw [← EReal.coe_one]; exact isReal_coe 1

/-- A real number among the extended reals is the image of a real number. -/
theorem isReal_exists_coe {x : EReal} (h : IsReal x) : ∃ r : ℝ, x = (r : EReal) := by
  induction x using EReal.rec with
  | bot => exact absurd rfl h.1
  | coe r => exact ⟨r, rfl⟩
  | top => exact absurd rfl h.2

theorem isReal_add {x y : EReal} (hx : IsReal x) (hy : IsReal y) : IsReal (x + y) := by
  obtain ⟨a, rfl⟩ := isReal_exists_coe hx
  obtain ⟨b, rfl⟩ := isReal_exists_coe hy
  rw [← EReal.coe_add]; exact isReal_coe _

theorem isReal_mul {x y : EReal} (hx : IsReal x) (hy : IsReal y) : IsReal (x * y) := by
  obtain ⟨a, rfl⟩ := isReal_exists_coe hx
  obtain ⟨b, rfl⟩ := isReal_exists_coe hy
  rw [← EReal.coe_mul]; exact isReal_coe _

/-- The larger of a real number and zero is one of the two. -/
theorem isReal_max_zero {x : EReal} (hx : IsReal x) : IsReal (max x 0) := by
  rcases max_choice x 0 with h | h
  · rw [h]; exact hx
  · rw [h]; exact isReal_zero

theorem isReal_sum {ι : Type} (s : Finset ι) (f : ι → EReal) (h : ∀ k ∈ s, IsReal (f k)) : IsReal (∑ k ∈ s, f k) :=
  Finset.sum_induction f IsReal (fun _ _ => isReal_add) isReal_zero h

theorem rowDot_isReal {R K C : Nat} (x : Mat R K) (W : Mat K C) (hx : ∀ i, IsReal (x i)) (hW : ∀ i, IsReal (W i))
    (r : Fin R) (j : Fin C) : IsReal (rowDot x W r j) := by
  unfold rowDot
  exact isReal_sum _ _ (fun k _ => isReal_mul (hx _) (hW _))

/-! ### The gate -/

/-- The logistic function is `0` at `⊥`, `1` at `⊤`, and the inverse of the positive real `1 + e^(-r)` at a real `r`. -/
theorem logistic_isReal (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A message is its source entry times a gate in `[0, 1]`. -/
theorem edgeMsg_isReal {R : Nat} (src dst : Mat R 128) (ef : Mat R 64) (Ws Wd : Mat 128 128) (We : Mat 64 128)
    (b1 : Mat 1 128) (W2 : Mat 128 128) (b2 : Mat 1 128) (hsrc : ∀ i, IsReal (src i)) :
    ∀ i, IsReal (edgeMsg src dst ef Ws Wd We b1 W2 b2 i) := by
  intro i
  unfold edgeMsg
  exact isReal_mul (hsrc _) (logistic_isReal _)

theorem nodeHidden_isReal {R : Nat} (x agg : Mat R 128) (Wn Wa : Mat 128 128) (b1 : Mat 1 128)
    (hx : ∀ i, IsReal (x i)) (hagg : ∀ i, IsReal (agg i)) (hWn : ∀ i, IsReal (Wn i)) (hWa : ∀ i, IsReal (Wa i))
    (hb1 : ∀ i, IsReal (b1 i)) (r : Fin R) (k : Fin 128) : IsReal (nodeHidden x agg Wn Wa b1 r k) := by
  unfold nodeHidden
  exact isReal_add (isReal_add (rowDot_isReal x Wn hx hWn r k) (rowDot_isReal agg Wa hagg hWa r k)) (hb1 _)

/-- Finite sums of products of reals, a rectifier, again. -/
theorem nodeU_isReal {R : Nat} (x agg : Mat R 128) (Wn Wa : Mat 128 128) (b1 : Mat 1 128) (W2 : Mat 128 128) (b2 : Mat 1 128)
    (hx : ∀ i, IsReal (x i)) (hagg : ∀ i, IsReal (agg i)) (hWn : ∀ i, IsReal (Wn i)) (hWa : ∀ i, IsReal (Wa i))
    (hb1 : ∀ i, IsReal (b1 i)) (hW2 : ∀ i, IsReal (W2 i)) (hb2 : ∀ i, IsReal (b2 i)) :
    ∀ i, IsReal (nodeU x agg Wn Wa b1 W2 b2 i) := by
  intro i
  unfold nodeU
  exact isReal_add
    (isReal_sum _ _ (fun k _ =>
      isReal_mul (isReal_max_zero (nodeHidden_isReal x agg Wn Wa b1 hx hagg hWn hWa hb1 (i 0) k)) (hW2 _)))
    (hb2 _)

/-! ### Row blocks and one-row forms: every entry of the result is an entry of the operand -/

theorem Wn1n_isReal (W : FVec Ideal ⟨2, ![256, 128]⟩ .f32) (h : ∀ i, IsReal (W i)) : ∀ i, IsReal (KFn.Wn1n W i) := by
  intro i
  unfold KFn.Wn1n extractStridedSlice
  exact h _

theorem Wn1a_isReal (W : FVec Ideal ⟨2, ![256, 128]⟩ .f32) (h : ∀ i, IsReal (W i)) : ∀ i, IsReal (KFn.Wn1a W i) := by
  intro i
  unfold KFn.Wn1a extractStridedSlice
  exact h _

theorem row_isReal (v : FVec Ideal ⟨1, ![128]⟩ .f32) (h : ∀ i, IsReal (v i)) : ∀ i, IsReal (KFn.row v i) := by
  intro i
  unfold KFn.row shapeCast
  exact h _

end Cert.Proof.Finite

end
-- ==== Proof.BridgeEdge.lean ====
/-
  The reference's edge stage is the message formula: its one contraction over the concatenated `[src | dst | ef]`
  row against the whole first weight matrix splits into the three contractions against the matrix's row blocks, its
  bias broadcasts read the one-row forms, and its explicit `1 / (1 + exp(−x))` is the logistic function.
-/
import proofs.«410922_j44427141710551_1_alg».proof.Proof.Spec
import proofs.«410922_j44427141710551_1_alg».proof.Proof.KFn
import proofs.«410922_j44427141710551_1_alg».proof.Proof.RefFn
import Idealize.ShloMosaic.PureOps.Ideal.Laws
import Idealize.ShloMosaic.Lib.Pipeline.Value
import Idealize.ShloMosaic.Lib.ValueLayout

open scoped BigOperators

noncomputable section

namespace Cert.Proof.BridgeEdge

open Idealize.ShloMosaic Idealize.ShloMosaic.ValueIdx
open Cert.Proof Cert.Proof.Spec

/-! ## The operations of the edge stage read at an index, over variables -/

/-- The single-precision word `0x3F800000` is the number one. -/
theorem ofBits_one_f32 : Ideal.ofBits .f32 0x3F800000#32 = 1 := by
  simp [Ideal.ofBits, Ideal.ieee, -EReal.coe_mul]; norm_num

/-- The explicit quotient `1 / (1 + exp(−x))` with both ones spelled as words is the logistic function. -/
theorem div_one_add_exp_neg (x : EReal) :
    Ideal.div (Ideal.ofBits .f32 0x3F800000#32) (Ideal.ofBits .f32 0x3F800000#32 + Ideal.exp (-x)) = Ideal.logistic x := by
  rw [ofBits_one_f32]; rfl

/-- A sum over `a + b + c` positions is the sum over the first `a`, the next `b` and the last `c`. -/
theorem sum_three_blocks {M : Type} [AddCommMonoid M] (a b c : Nat) (f : Fin (a + b + c) → M) :
    ∑ K : Fin (a + b + c), f K
      = (∑ k : Fin a, f (Fin.castAdd c (Fin.castAdd b k)) + ∑ k : Fin b, f (Fin.castAdd c (Fin.natAdd a k)))
        + ∑ k : Fin c, f (Fin.natAdd (a + b) k) := by
  rw [Fin.sum_univ_add, Fin.sum_univ_add]

/-- A product of an `m × k` by a `k × n` matrix, contracting the left columns against the right rows, read at
    `(a, b)`: the sum over the contracted coordinate of the products of the entries. -/
theorem dot_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Three matrices of `R` rows laid side by side, read at row `e` and a column: the piece whose span holds the column,
    at the column less the widths before it. -/
theorem cat3_apply_fst {R a b c n : Nat} {α : Type} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1)
    (e : Fin R) (k : Fin a) (K : Fin n) (hK : K.val = k.val) :
    concatenate ⟨2, ![R, n]⟩ 1 [⟨⟨2, ![R, a]⟩, x⟩, ⟨⟨2, ![R, b]⟩, y⟩, ⟨⟨2, ![R, c]⟩, z⟩] h (ix2 e K) = x (ix2 e k) := by
  refine concatenate_apply_piece (t := ⟨2, ![R, n]⟩) 1 [⟨⟨2, ![R, a]⟩, x⟩, ⟨⟨2, ![R, b]⟩, y⟩, ⟨⟨2, ![R, c]⟩, z⟩] h (ix2 e K) 0 (by simp) ⟨2, ![R, a]⟩ x rfl rfl 0 rfl (ix2 e k) ?_ ?_
  · intro ax hax
    match ax with
    | ⟨0, _⟩ => rfl
    | ⟨1, _⟩ => exact absurd rfl hax
  · show 0 + k.val = K.val
    omega

theorem cat3_apply_snd {R a b c n : Nat} {α : Type} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1)
    (e : Fin R) (k : Fin b) (K : Fin n) (hK : K.val = a + k.val) :
    concatenate ⟨2, ![R, n]⟩ 1 [⟨⟨2, ![R, a]⟩, x⟩, ⟨⟨2, ![R, b]⟩, y⟩, ⟨⟨2, ![R, c]⟩, z⟩] h (ix2 e K) = y (ix2 e k) := by
  refine concatenate_apply_piece (t := ⟨2, ![R, n]⟩) 1 [⟨⟨2, ![R, a]⟩, x⟩, ⟨⟨2, ![R, b]⟩, y⟩, ⟨⟨2, ![R, c]⟩, z⟩] h (ix2 e K) 1 (by simp) ⟨2, ![R, b]⟩ y rfl rfl a ?_ (ix2 e k) ?_ ?_
  · simp
  · intro ax hax
    match ax with
    | ⟨0, _⟩ => rfl
    | ⟨1, _⟩ => exact absurd rfl hax
  · show a + k.val = K.val
    omega

theorem cat3_apply_trd {R a b c n : Nat} {α : Type} (x : (⟨2, ![R, a]⟩ : Shape).Idx → α) (y : (⟨2, ![R, b]⟩ : Shape).Idx → α)
    (z : (⟨2, ![R, c]⟩ : Shape).Idx → α)
    (h : Shape.Concatenates [⟨2, ![R, a]⟩, ⟨2, ![R, b]⟩, ⟨2, ![R, c]⟩] ⟨2, ![R, n]⟩ 1)
    (e : Fin R) (k : Fin c) (K : Fin n) (hK : K.val = a + b + k.val) :
    concatenate ⟨2, ![R, n]⟩ 1 [⟨⟨2, ![R, a]⟩, x⟩, ⟨⟨2, ![R, b]⟩, y⟩, ⟨⟨2, ![R, c]⟩, z⟩] h (ix2 e K) = z (ix2 e k) := by
  refine concatenate_apply_piece (t := ⟨2, ![R, n]⟩) 1 [⟨⟨2, ![R, a]⟩, x⟩, ⟨⟨2, ![R, b]⟩, y⟩, ⟨⟨2, ![R, c]⟩, z⟩] h (ix2 e K) 2 (by simp) ⟨2, ![R, c]⟩ z rfl rfl (a + b) ?_ (ix2 e k) ?_ ?_
  · simp
  · intro ax hax
    match ax with
    | ⟨0, _⟩ => rfl
    | ⟨1, _⟩ => exact absurd rfl hax
  · show a + b + k.val = K.val
    omega

/-- A vector broadcast along the columns of a one-row matrix, then down the rows of an `R`-row matrix, read at
    `(e, j)`: the vector at `j`. -/
theorem bcast_cols_rows_apply {R C : Nat} {α : Type} (hC : C ≠ 1) (v : (⟨1, ![C]⟩ : Shape).Idx → α)
    (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2)) (e : Fin R) (j : Fin C) :
    broadcastInDim ⟨2, ![R, C]⟩ ![0, 1] h2 (broadcastInDim ⟨2, ![1, C]⟩ ![1] h1 v) (ix2 e j) = v (ix1 j) := by
  rw [broadcastInDim_apply ![0, 1] h2 _ (ix2 e j) (ix2 (0 : Fin 1) j) (fun ax => by
    match ax with
    | ⟨0, _⟩ => exact (if_pos rfl).symm
    | ⟨1, _⟩ => exact (if_neg hC).symm)]
  exact broadcastInDim_apply ![1] h1 v (ix2 (0 : Fin 1) j) (ix1 j) (fun ax => by
    match ax with
    | ⟨0, _⟩ => exact (if_neg hC).symm)

/-! ## The edge stage of this layer -/

variable [Cert.KernelIdeal.Facts] [Cert.ReferenceIdeal.Facts]

/-- The host's exponential and negation at an index. -/
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl
theorem hostDivf_apply' {s : Shape} {φ : FTy} (a b : FVec Ideal s φ) (i : s.Idx) : Host.divf a b i = Ideal.div (a i) (b i) := rfl

/-- A single-precision word broadcast to a whole array reads the word's value everywhere. -/
theorem scalar_bcast_eq (b : BitVec FTy.f32.bits) :
    broadcastInDim Cert.ReferenceIdeal.S320000x128 ![] Cert.ReferenceIdeal.Facts₀.bcast_S_S320000x128
      (constant (F := Ideal) Cert.ReferenceIdeal.S_ .f32 b) = fun _ => Ideal.ofBits .f32 b := rfl

/-- The three row blocks of the first weight matrix at an index: rows `0…127`, `128…255`, `256…319`. -/
theorem We1s_apply (W : FVec Ideal ⟨2, ![320, 128]⟩ .f32) (k j : Fin 128) :
    KFn.We1s W (ix2 k j) = W (ix2 ⟨k.val, by omega⟩ j) := by
  unfold KFn.We1s
  exact slice2_axis0_apply 0 W _ k j ⟨k.val, by omega⟩ (by simp)
theorem We1d_apply (W : FVec Ideal ⟨2, ![320, 128]⟩ .f32) (k j : Fin 128) :
    KFn.We1d W (ix2 k j) = W (ix2 ⟨128 + k.val, by omega⟩ j) := by
  unfold KFn.We1d
  exact slice2_axis0_apply 128 W _ k j ⟨128 + k.val, by omega⟩ rfl
theorem We1e_apply (W : FVec Ideal ⟨2, ![320, 128]⟩ .f32) (k : Fin 64) (j : Fin 128) :
    KFn.We1e W (ix2 k j) = W (ix2 ⟨256 + k.val, by omega⟩ j) := by
  unfold KFn.We1e
  exact slice2_axis0_apply 256 W _ k j ⟨256 + k.val, by omega⟩ rfl

/-- A bias vector as a one-row matrix, and broadcast down the edges' rows, both read the vector at the column. -/
theorem row_apply (v : FVec Ideal ⟨1, ![128]⟩ .f32) (j : Fin 128) : KFn.row v (ix2 (0 : Fin 1) j) = v (ix1 j) := by
  unfold KFn.row
  exact shapeCast_a_1a_apply v _ 0 j
theorem bcE_apply (v : FVec Ideal ⟨1, ![128]⟩ .f32) (e : Fin 320000) (j : Fin 128) :
    RefFn.bcE (F := Ideal) v (ix2 e j) = v (ix1 j) := by
  unfold RefFn.bcE
  exact bcast_cols_rows_apply (by decide) v _ _ e j

/-- The two contractions of the reference's edge stage at an index. -/
theorem dot1_apply (A : FVec Ideal ⟨2, ![320000, 320]⟩ .f32) (B : FVec Ideal ⟨2, ![320, 128]⟩ .f32) (e : Fin 320000) (k : Fin 128) :
    Host.dotGeneral Cert.ReferenceIdeal.dot_S320000x320_S320x128_S320000x128_1_0_0_1_n_n none A B (ix2 e k)
      = ∑ c : Fin 320, A (ix2 e c) * B (ix2 c k) :=
  dot_apply Cert.ReferenceIdeal.Facts₀.dot_S320000x320_S320x128_S320000x128_1_0_0_1_n_n_wf none A B e k
theorem dot2_apply (A : FVec Ideal ⟨2, ![320000, 128]⟩ .f32) (B : FVec Ideal ⟨2, ![128, 128]⟩ .f32) (e : Fin 320000) (j : Fin 128) :
    Host.dotGeneral Cert.ReferenceIdeal.dot_S320000x128_S128x128_S320000x128_1_0_0_1_n_n none A B (ix2 e j)
      = ∑ c : Fin 128, A (ix2 e c) * B (ix2 c j) :=
  dot_apply Cert.ReferenceIdeal.Facts₀.dot_S320000x128_S128x128_S320000x128_1_0_0_1_n_n_wf none A B e j

/-- The contraction of the concatenated row `[src | dst | ef]` against the whole first weight matrix is the sum of the
    three contractions against its row blocks. -/
theorem hidden_apply (src dst : FVec Ideal ⟨2, ![320000, 128]⟩ .f32) (ef : FVec Ideal ⟨2, ![320000, 64]⟩ .f32)
    (We1 : FVec Ideal ⟨2, ![320, 128]⟩ .f32) (e : Fin 320000) (k : Fin 128) :
    Host.dotGeneral Cert.ReferenceIdeal.dot_S320000x320_S320x128_S320000x128_1_0_0_1_n_n none
        (concatenate Cert.ReferenceIdeal.S320000x320 1
          [⟨Cert.ReferenceIdeal.S320000x128, src⟩, ⟨Cert.ReferenceIdeal.S320000x128, dst⟩, ⟨Cert.ReferenceIdeal.S320000x64, ef⟩]
          Cert.ReferenceIdeal.Facts₀.concatenates_S320000x128_S320000x128_S320000x64_S320000x320_d1) We1 (ix2 e k)
      = (rowDot src (KFn.We1s We1) e k + rowDot dst (KFn.We1d We1) e k) + rowDot ef (KFn.We1e We1) e k := by
  rw [dot1_apply]
  refine (sum_three_blocks 128 128 64 _).trans ?_
  unfold rowDot
  refine congrArg₂ (· + ·) (congrArg₂ (· + ·) ?_ ?_) ?_
  · refine Finset.sum_congr rfl fun c _ => ?_
    exact congrArg₂ (· * ·) (cat3_apply_fst src dst ef _ e c _ rfl) (We1s_apply We1 c k).symm
  · refine Finset.sum_congr rfl fun c _ => ?_
    exact congrArg₂ (· * ·) (cat3_apply_snd src dst ef _ e c _ rfl) (We1d_apply We1 c k).symm
  · refine Finset.sum_congr rfl fun c _ => ?_
    exact congrArg₂ (· * ·) (cat3_apply_trd src dst ef _ e c _ rfl) (We1e_apply We1 c k).symm

theorem refEdge_eq (src dst : FVec Ideal ⟨2, ![320000, 128]⟩ .f32) (ef : FVec Ideal ⟨2, ![320000, 64]⟩ .f32)
    (We1 : FVec Ideal ⟨2, ![320, 128]⟩ .f32) (be1 : FVec Ideal ⟨1, ![128]⟩ .f32) (We2 : FVec Ideal ⟨2, ![128, 128]⟩ .f32)
    (be2 : FVec Ideal ⟨1, ![128]⟩ .f32) :
    RefFn.refEdge (F := Ideal) src dst ef We1 be1 We2 be2
      = edgeMsg (R := 320000) src dst ef (KFn.We1s We1) (KFn.We1d We1) (KFn.We1e We1) (KFn.row be1) We2 (KFn.row be2) := by
  funext i
  obtain ⟨e, j, rfl⟩ : ∃ (e : Fin 320000) (j : Fin 128), i = ix2 e j := ⟨i 0, i 1, eq_ix2 i⟩
  show _ = src (ix2 e j) * Ideal.logistic
    (edgeGateArg src dst ef (KFn.We1s We1) (KFn.We1d We1) (KFn.We1e We1) (KFn.row be1) We2 (KFn.row be2) e j)
  unfold RefFn.refEdge edgeGateArg edgeHidden
  rw [scalar_bcast_eq, scalar_bcast_eq]
  simp only [mulf_apply, hostDivf_apply', addf_apply, hostExp_apply, hostNegf_apply, div_one_add_exp_neg,
    dot2_apply, maximumf_apply, hidden_apply, bcE_apply, row_apply, Ideal.ofBits_zero_f32]

end Cert.Proof.BridgeEdge

end
-- ==== Proof.BridgeNode.lean ====
/-
  The reference's node stage is the update formula: its one contraction over the concatenated `[x | agg]` row against
  the whole first weight matrix splits into the two contractions against the matrix's row blocks, and its bias
  broadcasts read the one-row forms.
-/
import proofs.«410922_j44427141710551_1_alg».proof.Proof.Spec
import proofs.«410922_j44427141710551_1_alg».proof.Proof.KFn
import proofs.«410922_j44427141710551_1_alg».proof.Proof.RefFn
import Idealize.ShloMosaic.PureOps.Ideal.Laws
import Idealize.ShloMosaic.Lib.Pipeline.Value
import Idealize.ShloMosaic.Lib.ValueLayout

open scoped BigOperators

noncomputable section

namespace Cert.Proof.BridgeNode

open Idealize.ShloMosaic Idealize.ShloMosaic.ValueIdx
open Cert.Proof Cert.Proof.Spec

variable [Cert.KernelIdeal.Facts] [Cert.ReferenceIdeal.Facts]

/-! ## The operations of the stage, each read at one index -/

/-- A matrix product on the host, read at `(a, b)`: the sum over the contracted coordinate of the products of the
    entries of row `a` and column `b`. -/
theorem dot2_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

section Layout
variable {α : Type}

/-- A vector laid along the one row of a one-row matrix reads, at `(u, c)`, the vector at `c`. -/
theorem bcast_row_apply {b : Nat} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A one-row matrix repeated down `a` rows reads, at `(p, c)`, its one row at `c`. -/
theorem bcast_rows_apply {a b : Nat} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- Two matrices of 128 columns side by side: a column below 128 reads the first. -/
theorem cat_left {R : Nat} (x₁ x₂ : (⟨2, ![R, 128]⟩ : Shape).Idx → α)
    (h : Shape.Concatenates [(⟨2, ![R, 128]⟩ : Shape), ⟨2, ![R, 128]⟩] ⟨2, ![R, 256]⟩ 1)
    (r : Fin R) (c : Fin 128) (c' : Fin 256) (hc : c'.val = c.val) :
    concatenate ⟨2, ![R, 256]⟩ 1 [⟨⟨2, ![R, 128]⟩, x₁⟩, ⟨⟨2, ![R, 128]⟩, x₂⟩] h (ix2 r c') = x₁ (ix2 r c) :=
  concatenate_pair_apply_left 1 x₁ x₂ h (ix2 r c') rfl (ix2 r c) (fun b => by
    match b with
    | ⟨0, _⟩ => rfl
    | ⟨1, _⟩ => exact hc.symm)

/-- Two matrices of 128 columns side by side: a column `128 + c` reads the second at `c`. -/
theorem cat_right {R : Nat} (x₁ x₂ : (⟨2, ![R, 128]⟩ : Shape).Idx → α)
    (h : Shape.Concatenates [(⟨2, ![R, 128]⟩ : Shape), ⟨2, ![R, 128]⟩] ⟨2, ![R, 256]⟩ 1)
    (r : Fin R) (c : Fin 128) (c' : Fin 256) (hc : c'.val = 128 + c.val) :
    concatenate ⟨2, ![R, 256]⟩ 1 [⟨⟨2, ![R, 128]⟩, x₁⟩, ⟨⟨2, ![R, 128]⟩, x₂⟩] h (ix2 r c') = x₂ (ix2 r c) :=
  concatenate_pair_apply_right 1 x₁ x₂ h (ix2 r c') rfl rfl (ix2 r c) (fun b hb => by
    match b, hb with
    | ⟨0, _⟩, _ => rfl
    | ⟨1, _⟩, hb => exact absurd rfl hb)
    (by show c.val + 128 = c'.val; omega)

end Layout

/-- A sum over 256 positions is the sum over the first 128 plus the sum over the last 128. -/
theorem sum_split (f : Fin 256 → EReal) :
    ∑ c : Fin 256, f c = ∑ c : Fin 128, f ⟨c.val, by omega⟩ + ∑ c : Fin 128, f ⟨128 + c.val, by omega⟩ :=
  Fin.sum_univ_add (a := 128) (b := 128) f

/-- The zero splat reads `0` everywhere. -/
theorem zero_splat_apply {t : Shape} (h : (⟨0, ![]⟩ : Shape).BroadcastsInDim t ![]) (j : t.Idx) :
    broadcastInDim t ![] h (constant (F := Ideal) ⟨0, ![]⟩ .f32 0x00000000#32) j = 0 := by
  rw [broadcastInDim_apply ![] h _ j ix0 (fun a => a.elim0), constant_apply, Ideal.ofBits_zero_f32]

/-! ## The reference's and the kernel program's own terms at an index -/

/-- The reference's bias broadcast reads the bias at the column. -/
theorem bcN_apply (v : FVec Ideal ⟨1, ![128]⟩ .f32) (r : Fin 10000) (j : Fin 128) :
    RefFn.bcN (F := Ideal) v (ix2 r j) = v (ix1 j) :=
  (bcast_rows_apply _ _ r j).trans (bcast_row_apply v _ 0 j)

/-- The one-row form of a bias reads the bias at the column. -/
theorem row_apply (v : FVec Ideal ⟨1, ![128]⟩ .f32) (j : Fin 128) :
    KFn.row (F := Ideal) v (ix2 (0 : Fin 1) j) = v (ix1 j) :=
  shapeCast_a_1a_apply v _ 0 j

/-- The upper row block of the first weight matrix. -/
theorem Wn1n_apply (W : FVec Ideal ⟨2, ![256, 128]⟩ .f32) (c j : Fin 128) :
    KFn.Wn1n (F := Ideal) W (ix2 c j) = W (ix2 ⟨c.val, by omega⟩ j) :=
  slice2_axis0_apply 0 W _ c j ⟨c.val, by omega⟩ (Nat.zero_add _).symm

/-- The lower row block of the first weight matrix. -/
theorem Wn1a_apply (W : FVec Ideal ⟨2, ![256, 128]⟩ .f32) (c j : Fin 128) :
    KFn.Wn1a (F := Ideal) W (ix2 c j) = W (ix2 ⟨128 + c.val, by omega⟩ j) :=
  slice2_axis0_apply 128 W _ c j ⟨128 + c.val, by omega⟩ rfl

/-- The first contraction: row `r` of `[x | agg]` against column `k` of the whole first weight matrix. -/
theorem dotA_apply (X : FVec Ideal ⟨2, ![10000, 256]⟩ .f32) (W : FVec Ideal ⟨2, ![256, 128]⟩ .f32) (r : Fin 10000) (k : Fin 128) :
    Host.dotGeneral Cert.ReferenceIdeal.dot_S10000x256_S256x128_S10000x128_1_0_0_1_n_n none X W (ix2 r k)
      = ∑ c : Fin 256, X (ix2 r c) * W (ix2 c k) :=
  dot2_apply _ none X W r k

/-- The second contraction: row `r` of the hidden layer against column `j` of the second weight matrix. -/
theorem dotB_apply (X : FVec Ideal ⟨2, ![10000, 128]⟩ .f32) (W : FVec Ideal ⟨2, ![128, 128]⟩ .f32) (r : Fin 10000) (j : Fin 128) :
    Host.dotGeneral Cert.ReferenceIdeal.dot_S10000x128_S128x128_S10000x128_1_0_0_1_n_n none X W (ix2 r j)
      = ∑ c : Fin 128, X (ix2 r c) * W (ix2 c j) :=
  dot2_apply _ none X W r j

/-! ## The hidden layer and the stage -/

/-- The reference's hidden layer before its rectifier is the formula's: the contraction over the 256 concatenated
    columns is the sum of the two contractions over 128 columns against the two row blocks. -/
theorem hidden_apply (nf agg : FVec Ideal ⟨2, ![10000, 128]⟩ .f32) (Wn1 : FVec Ideal ⟨2, ![256, 128]⟩ .f32)
    (bn1 : FVec Ideal ⟨1, ![128]⟩ .f32) (r : Fin 10000) (k : Fin 128) :
    addf
        (Host.dotGeneral Cert.ReferenceIdeal.dot_S10000x256_S256x128_S10000x128_1_0_0_1_n_n none
          (concatenate ⟨2, ![10000, 256]⟩ 1 [⟨⟨2, ![10000, 128]⟩, nf⟩, ⟨⟨2, ![10000, 128]⟩, agg⟩]
            Cert.ReferenceIdeal.Facts₀.concatenates_S10000x128_S10000x128_S10000x256_d1) Wn1)
        (RefFn.bcN (F := Ideal) bn1) (ix2 r k)
      = nodeHidden nf agg (KFn.Wn1n Wn1) (KFn.Wn1a Wn1) (KFn.row bn1) r k := by
  rw [addf_apply, bcN_apply, dotA_apply, sum_split]
  unfold nodeHidden rowDot
  rw [row_apply]
  congr 1
  congr 1
  · refine Finset.sum_congr rfl fun c _ => ?_
    rw [cat_left nf agg _ r c ⟨c.val, by omega⟩ rfl, Wn1n_apply]
  · refine Finset.sum_congr rfl fun c _ => ?_
    rw [cat_right nf agg _ r c ⟨128 + c.val, by omega⟩ rfl, Wn1a_apply]

/-- The reference's node stage is the node update formula over the two row blocks of the first weight matrix and the
    one-row forms of the two biases, for all arrays. -/
theorem refNode_eq (nf agg : FVec Ideal ⟨2, ![10000, 128]⟩ .f32) (Wn1 : FVec Ideal ⟨2, ![256, 128]⟩ .f32)
    (bn1 : FVec Ideal ⟨1, ![128]⟩ .f32) (Wn2 : FVec Ideal ⟨2, ![128, 128]⟩ .f32) (bn2 : FVec Ideal ⟨1, ![128]⟩ .f32) :
    RefFn.refNode (F := Ideal) nf agg Wn1 bn1 Wn2 bn2
      = nodeU (R := 10000) nf agg (KFn.Wn1n Wn1) (KFn.Wn1a Wn1) (KFn.row bn1) Wn2 (KFn.row bn2) := by
  funext i
  obtain ⟨r, j, rfl⟩ : ∃ (r : Fin 10000) (j : Fin 128), i = ix2 r j := ⟨i 0, i 1, eq_ix2 i⟩
  unfold RefFn.refNode nodeU
  rw [addf_apply, bcN_apply, dotB_apply]
  refine congrArg₂ (· + ·) (Finset.sum_congr rfl fun k _ => ?_) (row_apply bn2 j).symm
  rw [maximumf_apply, hidden_apply]
  have hz := zero_splat_apply Cert.ReferenceIdeal.Facts₀.bcast_S_S10000x128 (ix2 r k)
  rw [hz]

end Cert.Proof.BridgeNode

end
-- ==== Proof.BridgeBn.lean ====
/-
  The reference's normalisation is the kernel's: the means agree term by term; the reference's variance, the mean
  squared deviation, is the mean square less the squared mean whenever every update entry is a real number
  (over the reals `Σ(u − Σu/n)²/n = Σu²/n − (Σu/n)²`; at an infinite entry the two sides differ); the rest is the same
  arithmetic on the same operands.
-/
import proofs.«410922_j44427141710551_1_alg».proof.Proof.Spec
import proofs.«410922_j44427141710551_1_alg».proof.Proof.KFn
import proofs.«410922_j44427141710551_1_alg».proof.Proof.RefFn
import Idealize.ShloMosaic.PureOps.Ideal.Laws
import Idealize.ShloMosaic.Lib.Pipeline.Value
import Idealize.ShloMosaic.Lib.ValueLayout
import Idealize.ShloMosaic.Lib.IdealHost

open scoped BigOperators

noncomputable section

namespace Cert.Proof.BridgeBn

open Idealize.ShloMosaic Idealize.ShloMosaic.ValueIdx
open Cert.Proof Cert.Proof.Spec

variable [Cert.KernelIdeal.Facts] [Cert.ReferenceIdeal.Facts]

/-- Over the reals: the mean squared deviation is the mean square less the squared mean, with the mean and the
    division written as products with the reciprocal c of the number of terms. -/
theorem var_identity {ι : Type} [Fintype ι] (a : ι → ℝ) (c : ℝ) (hc : c * (Fintype.card ι : ℝ) = 1) :
    (∑ i, (a i - (∑ k, a k) * c) * (a i - (∑ k, a k) * c)) * c
      = (∑ i, a i * a i) * c - ((∑ k, a k) * c) * ((∑ k, a k) * c) := by
  have h : ∑ i, (a i - (∑ k, a k) * c) * (a i - (∑ k, a k) * c)
      = (∑ i, a i * a i) - 2 * ((∑ k, a k) * c) * (∑ k, a k)
        + (Fintype.card ι : ℝ) * (((∑ k, a k) * c) * ((∑ k, a k) * c)) := by
    simp only [sub_mul, mul_sub, Finset.sum_sub_distrib, ← Finset.mul_sum, ← Finset.sum_mul, Finset.sum_const,
      Finset.card_univ, nsmul_eq_mul]
    ring
  rw [h]
  linear_combination (((∑ k, a k) * c) * ((∑ k, a k) * c)) * hc

/-- A finite sum of real numbers, each read as an extended real, is the real sum read as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert _ _ h ih => rw [Finset.sum_insert h, Finset.sum_insert h, ih, EReal.coe_add]

/-- The word 0x461C4000 is the single-precision 10000. -/
theorem ofBits_tenThousand : Ideal.ofBits .f32 0x461C4000#32 = ((10000 : ℝ) : EReal) := by
  simp [Ideal.ofBits, Ideal.ieee, -EReal.coe_mul]
  norm_num

/-- The reciprocal of the number of rows, the factor a division by 10000 multiplies by. -/
def cN : ℝ := 1 / 10000

theorem div_tenThousand (x : EReal) : Ideal.div x ((10000 : ℝ) : EReal) = x * ((cN : ℝ) : EReal) :=
  Ideal.div_coe (by norm_num) x

theorem cN_card : cN * (Fintype.card (Fin 10000) : ℝ) = 1 := by
  unfold cN; rw [Fintype.card_fin]; norm_num

section Reference

open Cert.ReferenceIdeal Cert.ReferenceIdeal.Facts₀ Cert.ReferenceIdeal.Facts

/-- A vector along the columns of a matrix with 10000 rows, read at an index: the vector at the column. -/
theorem bcN_apply (v : FVec Ideal ⟨1, ![128]⟩ .f32) (r : Fin 10000) (j : Fin 128) :
    RefFn.bcN (F := Ideal) v (ix2 r j) = v (ix1 j) := by
  unfold RefFn.bcN
  rw [broadcastInDim_apply _ _ _ (ix2 r j) (ix2 (0 : Fin 1) j) (fun a => match a with | ⟨0, _⟩ => rfl | ⟨1, _⟩ => rfl)]
  exact broadcastInDim_apply _ _ _ (ix2 (0 : Fin 1) j) (ix1 j) (fun a => match a with | ⟨0, _⟩ => rfl)

/-- The host's sum over the rows from the zero word, at a column: the sum down the column. -/
theorem colReduce_apply (x : FVec Ideal ⟨2, ![10000, 128]⟩ .f32) (j : Fin 128) :
    Host.reduceAdd x (constant (F := Ideal) S_ .f32 0x00000000#32) reducesTo_S10000x128_S128_d0 h_S_ (ix1 j)
      = ∑ r : Fin 10000, x (ix2 r j) := by
  rw [hostReduceAdd_apply, Ideal.hostReduceAdd_single _ (by decide), constant_apply, Ideal.ofBits_zero_f32, zero_add]
  refine Finset.sum_congr rfl (fun k _ => congrArg x (funext fun c => ?_))
  match c with
  | ⟨0, _⟩ => exact Fin.ext rfl
  | ⟨1, _⟩ => exact Fin.ext rfl

/-- The reference's column sums at a column. -/
theorem refColSum_apply (u : FVec Ideal ⟨2, ![10000, 128]⟩ .f32) (j : Fin 128) :
    RefFn.refColSum (F := Ideal) u (ix1 j) = ∑ r : Fin 10000, u (ix2 r j) := by
  unfold RefFn.refColSum; exact colReduce_apply u j

/-- The reference's batch mean at a column: the column sum times the reciprocal of the row count. -/
theorem refMean_apply (u : FVec Ideal ⟨2, ![10000, 128]⟩ .f32) (j : Fin 128) :
    RefFn.refMean (F := Ideal) u (ix1 j) = (∑ r : Fin 10000, u (ix2 r j)) * ((cN : ℝ) : EReal) := by
  unfold RefFn.refMean
  rw [hostDivf_apply, refColSum_apply, broadcastInDim_scalar_apply, constant_apply, ofBits_tenThousand, div_tenThousand]

/-- The reference's count, the row count less zero, is 10000. -/
theorem refCount_apply : RefFn.refCount (F := Ideal) ix0 = ((10000 : ℝ) : EReal) := by
  unfold RefFn.refCount
  rw [subf_apply, constant_apply, sitofp_apply, constantI_apply, ofBits_tenThousand]
  show ((10000 : ℝ) : EReal) - (((0#32 : BitVec 32).toInt : ℝ) : EReal) = _
  rw [BitVec.toInt_zero, Int.cast_zero, EReal.coe_zero, sub_zero]

/-- The guard of the reference's variance, that the count is positive, is the set bit. -/
theorem refGuard_apply :
    cmpf .ogt (RefFn.refCount (F := Ideal)) (constant (F := Ideal) S_ .f32 0x00000000#32) ix0 = 1#1 := by
  rw [cmpf_apply, refCount_apply, constant_apply, Ideal.ofBits_zero_f32, Ideal.cmpf_def]
  have h : (0 : EReal) < ((10000 : ℝ) : EReal) := EReal.coe_pos.mpr (by norm_num)
  simp [Ideal.cmp, h]

/-- The reference's deviations from the column mean at an index. -/
theorem refCentered_apply (u : FVec Ideal ⟨2, ![10000, 128]⟩ .f32) (r : Fin 10000) (j : Fin 128) :
    RefFn.refCentered (F := Ideal) u (ix2 r j)
      = u (ix2 r j) - (∑ k : Fin 10000, u (ix2 k j)) * ((cN : ℝ) : EReal) := by
  unfold RefFn.refCentered
  rw [subf_apply,
    broadcastInDim_apply _ _ _ (ix2 r j) (ix2 (0 : Fin 1) j) (fun a => match a with | ⟨0, _⟩ => rfl | ⟨1, _⟩ => rfl),
    hostDivf_apply,
    broadcastInDim_apply _ _ _ (ix2 (0 : Fin 1) j) (ix1 j) (fun a => match a with | ⟨0, _⟩ => rfl),
    refColSum_apply, broadcastInDim_scalar_apply, constant_apply, ofBits_tenThousand, div_tenThousand]

/-- The reference's variance at a column: the guard holds, so it is the mean squared deviation. -/
theorem refVar_apply (u : FVec Ideal ⟨2, ![10000, 128]⟩ .f32) (j : Fin 128) :
    RefFn.refVar (F := Ideal) u (ix1 j)
      = (∑ r : Fin 10000, (u (ix2 r j) - (∑ k : Fin 10000, u (ix2 k j)) * ((cN : ℝ) : EReal))
            * (u (ix2 r j) - (∑ k : Fin 10000, u (ix2 k j)) * ((cN : ℝ) : EReal))) * ((cN : ℝ) : EReal) := by
  unfold RefFn.refVar
  rw [select_apply, broadcastInDim_scalar_apply, refGuard_apply, select_one, hostDivf_apply, colReduce_apply,
    broadcastInDim_scalar_apply, refCount_apply, div_tenThousand]
  simp only [mulf_apply, refCentered_apply]

end Reference

section Kernel

open Cert.KernelIdeal Cert.KernelIdeal.Facts₀ Cert.KernelIdeal.Facts

/-- A vector as a one-row matrix, read at a column. -/
theorem row_apply (v : FVec Ideal ⟨1, ![128]⟩ .f32) (j : Fin 128) : KFn.row v (ix2 (0 : Fin 1) j) = v (ix1 j) := by
  unfold KFn.row; exact shapeCast_a_1a_apply v _ 0 j

/-- The kernel's batch mean at a column: the column sum times the reciprocal of the row count. -/
theorem kMean_apply (u : FVec Ideal ⟨2, ![10000, 128]⟩ .f32) (j : Fin 128) :
    KFn.kMean (Spec.colSum u) (ix1 j) = (∑ r : Fin 10000, u (ix2 r j)) * ((cN : ℝ) : EReal) := by
  unfold KFn.kMean
  rw [hostDivf_apply, shapeCast_1a_a_apply, broadcastInDim_scalar_apply, constant_apply, ofBits_tenThousand,
    div_tenThousand]
  rfl

/-- The kernel's batch variance at a column: the mean square less the squared mean. -/
theorem kVar_apply (u : FVec Ideal ⟨2, ![10000, 128]⟩ .f32) (j : Fin 128) :
    KFn.kVar (Spec.colSum u) (Spec.colSumSq u) (ix1 j)
      = (∑ r : Fin 10000, u (ix2 r j) * u (ix2 r j)) * ((cN : ℝ) : EReal)
        - ((∑ r : Fin 10000, u (ix2 r j)) * ((cN : ℝ) : EReal)) * ((∑ r : Fin 10000, u (ix2 r j)) * ((cN : ℝ) : EReal)) := by
  unfold KFn.kVar
  rw [subf_apply, mulf_apply, kMean_apply, hostDivf_apply, shapeCast_1a_a_apply, broadcastInDim_scalar_apply,
    constant_apply, ofBits_tenThousand, div_tenThousand]
  rfl

end Kernel

/-- When every entry of a column is a real number, the reference's variance of the column is the kernel's. -/
theorem refVar_eq_kVar (u : FVec Ideal ⟨2, ![10000, 128]⟩ .f32) (hu : ∀ i, IsReal (u i)) (j : Fin 128) :
    RefFn.refVar (F := Ideal) u (ix1 j) = KFn.kVar (Spec.colSum u) (Spec.colSumSq u) (ix1 j) := by
  rw [refVar_apply, kVar_apply]
  have hex : ∀ r : Fin 10000, ∃ x : ℝ, u (ix2 r j) = ((x : ℝ) : EReal) :=
    fun r => ⟨_, (EReal.coe_toReal (hu _).2 (hu _).1).symm⟩
  choose a hr using hex
  simp only [hr, coe_sum, ← EReal.coe_mul, ← EReal.coe_sub]
  exact congrArg _ (var_identity a cN cN_card)

/-- The host's reciprocal square root at an index. -/
theorem hostRsqrt_apply {s : Shape} (v : FVec Ideal s .f32) (i : s.Idx) : Host.rsqrt v i = Ideal.rsqrt (v i) := rfl

theorem refBn_eq (nf u : FVec Ideal ⟨2, ![10000, 128]⟩ .f32) (gamma beta : FVec Ideal ⟨1, ![128]⟩ .f32)
    (hu : ∀ i, IsReal (u i)) :
    RefFn.refBn (F := Ideal) nf u gamma beta = KFn.kBn nf u gamma beta := by
  funext i
  obtain ⟨r, j, rfl⟩ : ∃ (r : Fin 10000) (j : Fin 128), i = ix2 r j := ⟨i 0, i 1, eq_ix2 i⟩
  unfold RefFn.refBn KFn.kBn Spec.bnOut
  simp only [addf_apply, mulf_apply, subf_apply, bcN_apply, row_apply]
  rw [refMean_apply, kMean_apply, hostRsqrt_apply, addf_apply, broadcastInDim_scalar_apply, constant_apply,
    refVar_eq_kVar u hu j]
  rfl

end Cert.Proof.BridgeBn

end
-- ==== Proof.Bridge.lean ====
/-
  The two programs compute one function. Under the range hypothesis on the edge table the kernel's takes are the
  reference's gathers; the edge and node stages are the same index-by-index formulas; the aggregations are one
  operation; and because the node table and the node network's parameters are finite, every node update is a real
  number (a message is its source entry times a gate in `[0, 1]`, an aggregate a finite sum of messages), which is what
  the two forms of the batch variance need to agree.
-/
import proofs.«410922_j44427141710551_1_alg».proof.Proof.Spec
import proofs.«410922_j44427141710551_1_alg».proof.Proof.KFn
import proofs.«410922_j44427141710551_1_alg».proof.Proof.RefFn
import proofs.«410922_j44427141710551_1_alg».proof.Proof.Take
import proofs.«410922_j44427141710551_1_alg».proof.Proof.Finite
import proofs.«410922_j44427141710551_1_alg».proof.Proof.BridgeEdge
import proofs.«410922_j44427141710551_1_alg».proof.Proof.BridgeNode
import proofs.«410922_j44427141710551_1_alg».proof.Proof.BridgeBn

noncomputable section

namespace Cert.Proof.Bridge

open Idealize.ShloMosaic
open Cert.Proof Cert.Proof.Spec

variable [Cert.KernelIdeal.Facts] [Cert.ReferenceIdeal.Facts]

variable (nf : FVec Ideal ⟨2, ![10000, 128]⟩ .f32) (ef : FVec Ideal ⟨2, ![320000, 64]⟩ .f32)
  (We1 : FVec Ideal ⟨2, ![320, 128]⟩ .f32) (be1 : FVec Ideal ⟨1, ![128]⟩ .f32) (We2 : FVec Ideal ⟨2, ![128, 128]⟩ .f32)
  (be2 : FVec Ideal ⟨1, ![128]⟩ .f32) (Wn1 : FVec Ideal ⟨2, ![256, 128]⟩ .f32) (bn1 : FVec Ideal ⟨1, ![128]⟩ .f32)
  (Wn2 : FVec Ideal ⟨2, ![128, 128]⟩ .f32) (bn2 : FVec Ideal ⟨1, ![128]⟩ .f32) (gamma beta : FVec Ideal ⟨1, ![128]⟩ .f32)
  (ei : IVec ⟨2, ![2, 320000]⟩ 32)

/-- The kernel's source rows are the reference's. -/
theorem src_eq (hr : Take.TableInRange ei) :
    KFn.takeRows nf (KFn.idxRow0 ei) = RefFn.gatherRows nf (RefFn.wrapIdx (RefFn.idxRow0 ei)) := by
  rw [Take.take_eq_gather nf _ (Take.idxRow0_inRange ei hr), Take.idxRow0_eq]

/-- The kernel's destination rows are the reference's. -/
theorem dst_eq (hr : Take.TableInRange ei) :
    KFn.takeRows nf (KFn.idxRow1 ei) = RefFn.gatherRows nf (RefFn.wrapIdx (RefFn.idxRow1 ei)) := by
  rw [Take.take_eq_gather nf _ (Take.idxRow1_inRange ei hr), Take.idxRow1_eq]

/-- The kernel's messages are the reference's. -/
theorem msg_eq (hr : Take.TableInRange ei) :
    KFn.kMsg nf ef We1 be1 We2 be2 ei
      = RefFn.refEdge (F := Ideal) (RefFn.gatherRows nf (RefFn.wrapIdx (RefFn.idxRow0 ei)))
          (RefFn.gatherRows nf (RefFn.wrapIdx (RefFn.idxRow1 ei))) ef We1 be1 We2 be2 := by
  unfold KFn.kMsg
  rw [src_eq nf ei hr, dst_eq nf ei hr, BridgeEdge.refEdge_eq]

/-- The kernel's node updates are the reference's. -/
theorem u_eq (hr : Take.TableInRange ei) :
    KFn.kU nf ef We1 be1 We2 be2 Wn1 bn1 Wn2 bn2 ei
      = RefFn.refNode (F := Ideal) nf
          (RefFn.refScatter (RefFn.idxRow1 ei)
            (RefFn.refEdge (RefFn.gatherRows nf (RefFn.wrapIdx (RefFn.idxRow0 ei)))
              (RefFn.gatherRows nf (RefFn.wrapIdx (RefFn.idxRow1 ei))) ef We1 be1 We2 be2))
          Wn1 bn1 Wn2 bn2 := by
  unfold KFn.kU
  rw [msg_eq nf ef We1 be1 We2 be2 ei hr, Take.scatter_eq, Take.idxRow1_eq, BridgeNode.refNode_eq]

/-- Every message is a real number: its source entry is an entry of the finite node table. -/
theorem msg_isReal (hnf : ∀ i, IsReal (nf i)) (hr : Take.TableInRange ei) :
    ∀ i, IsReal (KFn.kMsg nf ef We1 be1 We2 be2 ei i) := by
  unfold KFn.kMsg
  refine Finite.edgeMsg_isReal _ _ _ _ _ _ _ _ _ ?_
  rw [src_eq nf ei hr]
  exact Take.gatherRows_isReal nf hnf _

/-- Every node update is a real number. -/
theorem u_isReal (hnf : ∀ i, IsReal (nf i)) (hWn1 : ∀ i, IsReal (Wn1 i)) (hbn1 : ∀ i, IsReal (bn1 i))
    (hWn2 : ∀ i, IsReal (Wn2 i)) (hbn2 : ∀ i, IsReal (bn2 i)) (hr : Take.TableInRange ei) :
    ∀ i, IsReal (KFn.kU nf ef We1 be1 We2 be2 Wn1 bn1 Wn2 bn2 ei i) := by
  unfold KFn.kU
  refine Finite.nodeU_isReal _ _ _ _ _ _ _ hnf ?_ (Finite.Wn1n_isReal Wn1 hWn1) (Finite.Wn1a_isReal Wn1 hWn1)
    (Finite.row_isReal bn1 hbn1) hWn2 (Finite.row_isReal bn2 hbn2)
  rw [Take.scatter_eq]
  exact Take.refScatter_isReal _ _ (msg_isReal nf ef We1 be1 We2 be2 ei hnf hr)

/-- The kernel program's value is the reference's. -/
theorem kOut_eq_refOut (hnf : ∀ i, IsReal (nf i)) (hWn1 : ∀ i, IsReal (Wn1 i)) (hbn1 : ∀ i, IsReal (bn1 i))
    (hWn2 : ∀ i, IsReal (Wn2 i)) (hbn2 : ∀ i, IsReal (bn2 i)) (hr : Take.TableInRange ei) :
    KFn.kOut nf ef We1 be1 We2 be2 Wn1 bn1 Wn2 bn2 gamma beta ei
      = RefFn.refOut (F := Ideal) nf ef We1 be1 We2 be2 Wn1 bn1 Wn2 bn2 gamma beta ei := by
  unfold KFn.kOut RefFn.refOut
  rw [← u_eq nf ef We1 be1 We2 be2 Wn1 bn1 Wn2 bn2 ei hr]
  exact (BridgeBn.refBn_eq nf _ gamma beta (u_isReal nf ef We1 be1 We2 be2 Wn1 bn1 Wn2 bn2 ei hnf hWn1 hbn1 hWn2 hbn2 hr)).symm

end Cert.Proof.Bridge

end
-- ==== Proof.PreDecode.lean ====
/-
  What the precondition says of the arrays: its value is one conjunction, over all entries, of "the magnitude is below
  infinity" for each float argument and of "at least 0" and "below 10000" for the edge table; when it is all ones,
  every conjunct holds at every entry.
-/
import proofs.«410922_j44427141710551_1_alg».proof.Pre_finite_inputs
import proofs.«410922_j44427141710551_1_alg».proof.Proof.Gen.Pre_finite_inputs
import proofs.«410922_j44427141710551_1_alg».proof.Proof.Spec
import Idealize.ShloMosaic.Lib.ReduceAll
import Idealize.ShloMosaic.Lib.StableHlo.Predicate

noncomputable section

namespace Cert.Proof.PreDecode

open Idealize.ShloMosaic
open Cert.Proof.Spec
open Cert.Pre_finite_inputs

variable [Cert.Pre_finite_inputs.Facts]

/-- The shape of a scalar has one index. -/
instance : Subsingleton S_.Idx := ⟨fun a b => funext fun d => d.elim0⟩

/-- The pattern with exponent all ones and significand zero denotes plus infinity. -/
theorem inf_bits : Ideal.ofBits .f32 0x7F800000#32 = (⊤ : EReal) := by simp [Ideal.ofBits, Ideal.ieee]

/-- A magnitude strictly below plus infinity belongs to a real number. -/
theorem isReal_of_abs_lt (x : EReal) (h : Ideal.cmp .olt (max x (-x)) (Ideal.ofBits .f32 0x7F800000#32) = 1#1) :
    IsReal x := by
  rw [inf_bits] at h
  unfold Ideal.cmp at h
  rw [StableHlo.Predicate.ofBool_eq_one_iff, decide_eq_true_eq, max_lt_iff] at h
  obtain ⟨h1, h2⟩ := h
  refine ⟨?_, ne_of_lt h1⟩
  rintro rfl
  simp at h2

/-- One conjunct "every magnitude is below infinity" being one: every entry is a real number. -/
theorem all_real {s : Shape} {axes : List (Fin s.rank)} (x : FVec Ideal s .f32) (hb : S_.BroadcastsInDim s (![] : Fin 0 → Fin s.rank))
    (hr : s.ReducesTo axes S_) (h0 : 0 < S_.numel) (j : S_.Idx)
    (e : Host.reduce IntOp.andi (cmpf .olt (Host.absf x) (broadcastInDim s ![] hb (constant (F := Ideal) S_ .f32 0x7F800000#32)))
          (constantI S_ 1 1#1) hr h0 j = 1#1) (i : s.Idx) : IsReal (x i) :=
  isReal_of_abs_lt (x i) (Host.reduce_andi_all _ _ hr h0 j e i)

/-- One conjunct "every word is at least zero, signed" being one. -/
theorem all_sge {s : Shape} {axes : List (Fin s.rank)} (x : IVec s 32) (hb : S_.BroadcastsInDim s (![] : Fin 0 → Fin s.rank))
    (hr : s.ReducesTo axes S_) (h0 : 0 < S_.numel) (j : S_.Idx)
    (e : Host.reduce IntOp.andi (cmpi .sge x (broadcastInDim s ![] hb (constantI S_ 32 0#32)))
          (constantI S_ 1 1#1) hr h0 j = 1#1) (i : s.Idx) : 0 ≤ (x i).toInt := by
  have h := Host.reduce_andi_all _ _ hr h0 j e i
  have h' : IntOp.cmpi .sge (x i) 0#32 = 1#1 := h
  unfold IntOp.cmpi at h'
  rw [StableHlo.Predicate.ofBool_eq_one_iff] at h'
  simpa [BitVec.sle] using h'

/-- One conjunct "every word is below 10000, signed" being one. -/
theorem all_slt {s : Shape} {axes : List (Fin s.rank)} (x : IVec s 32) (hb : S_.BroadcastsInDim s (![] : Fin 0 → Fin s.rank))
    (hr : s.ReducesTo axes S_) (h0 : 0 < S_.numel) (j : S_.Idx)
    (e : Host.reduce IntOp.andi (cmpi .slt x (broadcastInDim s ![] hb (constantI S_ 32 10000#32)))
          (constantI S_ 1 1#1) hr h0 j = 1#1) (i : s.Idx) : (x i).toInt < 10000 := by
  have h := Host.reduce_andi_all _ _ hr h0 j e i
  have h' : IntOp.cmpi .slt (x i) 10000#32 = 1#1 := h
  unfold IntOp.cmpi at h'
  rw [StableHlo.Predicate.ofBool_eq_one_iff] at h'
  have c : (10000#32 : BitVec 32).toInt = 10000 := by decide
  simpa [BitVec.slt, c] using h'

/-- The precondition all ones: the node table and the node network's weights and biases are finite everywhere, and
    every entry of the edge table is a row number of the node table. -/
theorem decode (a0 : FVec Ideal S10000x128 .f32) (a1 : FVec Ideal S320000x64 .f32) (a2 : FVec Ideal S320x128 .f32)
    (a3 : FVec Ideal S128 .f32) (a4 : FVec Ideal S128x128 .f32) (a5 : FVec Ideal S128 .f32) (a6 : FVec Ideal S256x128 .f32)
    (a7 : FVec Ideal S128 .f32) (a8 : FVec Ideal S128x128 .f32) (a9 : FVec Ideal S128 .f32) (a10 : FVec Ideal S128 .f32)
    (a11 : FVec Ideal S128 .f32) (a12 : IVec S2x320000 32)
    (h : Cert.Pre_finite_inputs.fn (F := Ideal) a0 a1 a2 a3 a4 a5 a6 a7 a8 a9 a10 a11 a12 = fun _ => 1#1) :
    (∀ i, IsReal (a0 i)) ∧ (∀ i, IsReal (a6 i)) ∧ (∀ i, IsReal (a7 i)) ∧ (∀ i, IsReal (a8 i)) ∧ (∀ i, IsReal (a9 i))
      ∧ (∀ i, 0 ≤ (a12 i).toInt ∧ (a12 i).toInt < 10000) := by
  have e := congrFun h ValueIdx.ix0
  simp only [fn, fn_part1, fn_part2, fn_part3, andi, IntOp.andi_eq_one] at e
  obtain ⟨⟨⟨⟨⟨⟨⟨⟨⟨⟨⟨⟨⟨h0, h1⟩, h2⟩, h3⟩, h4⟩, h5⟩, h6⟩, h7⟩, h8⟩, h9⟩, h10⟩, h11⟩, hge⟩, hlt⟩ := e
  exact ⟨all_real a0 _ _ _ _ h0, all_real a6 _ _ _ _ h6, all_real a7 _ _ _ _ h7, all_real a8 _ _ _ _ h8,
    all_real a9 _ _ _ _ h9, fun i => ⟨all_sge a12 _ _ _ _ hge i, all_slt a12 _ _ _ _ hlt i⟩⟩

end Cert.Proof.PreDecode

end
-- ==== Proof.lean ====
/-
  One crystal-graph convolution layer — gather the node rows of each edge, a gated edge network, the messages summed
  onto their destination nodes, a node network, batch normalisation over the nodes with the residual — computed by
  three tiled dense stages among host operations, against the plain array program.

  The frames of the two tiled programs are the generated ones; the reference's frame is its run with the result
  dropped. For the value claim both runs end at ONE function of the thirteen argument arrays: the tiled program's
  result array, read back through its three stages and the host operations between them, is `KFn.kOut`; the reference's
  is `RefFn.refOut`; and under the precondition — the float arguments finite, every entry of the edge table a row
  number of the node table — the two agree (`Bridge.kOut_eq_refOut`): inside the table a take is a gather; a
  contraction against a stacked weight matrix is the sum of the contractions against its row blocks; and for real
  entries the mean squared deviation is the mean square less the squared mean.
-/
import proofs.«410922_j44427141710551_1_alg».proof.Defs
import proofs.«410922_j44427141710551_1_alg».proof.Proof.Gen.Kernel
import proofs.«410922_j44427141710551_1_alg».proof.Proof.Gen.Kernel.Frame
import proofs.«410922_j44427141710551_1_alg».proof.Proof.Gen.KernelIdeal
import proofs.«410922_j44427141710551_1_alg».proof.Proof.Gen.KernelIdeal.Frame
import proofs.«410922_j44427141710551_1_alg».proof.Proof.Gen.ReferenceIdeal
import proofs.«410922_j44427141710551_1_alg».proof.Proof.Gen.Pre_finite_inputs
import proofs.«410922_j44427141710551_1_alg».proof.Proof.KRun
import proofs.«410922_j44427141710551_1_alg».proof.Proof.KChain
import proofs.«410922_j44427141710551_1_alg».proof.Proof.RefRun
import proofs.«410922_j44427141710551_1_alg».proof.Proof.Bridge
import proofs.«410922_j44427141710551_1_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Proof.RefRun.run m ρ)

/-- Both programs end with the result array at `KFn.kOut` of the argument arrays. -/
theorem algebraic : Cert.algebraic_KernelIdeal_ReferenceIdeal := by
  intro m ρ m' ρ' hpre hagree
  refine ⟨fun c => KFn.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Proof.KChain.result_eq m ρ c), (h c).2⟩)
      (Cert.KernelIdeal.KRun.run_result (F := Ideal) m ρ)
  · refine (θ_run Cert.ReferenceIdeal.defs _ _).mono (fun r h c => ⟨(h c).1.trans ?_, (h c).2⟩)
      (Cert.Proof.RefRun.run m' ρ')
    obtain ⟨e0, e1, e2, e3, e4, e5, e6, e7, e8, e9, e10, e11, e12⟩ := hagree c
    rw [e0, e1, e2, e3, e4, e5, e6, e7, e8, e9, e10, e11, e12]
    obtain ⟨f0, f6, f7, f8, f9, fr⟩ := Cert.Proof.PreDecode.decode _ _ _ _ _ _ _ _ _ _ _ _ _ (hpre c)
    exact (Cert.Proof.Bridge.kOut_eq_refOut _ _ _ _ _ _ _ _ _ _ _ _ _ f0 f6 f7 f8 f9 fr).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
